-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3000x2 : Shape := ⟨3, ![4, 3000, 2]⟩
abbrev S_ : Shape := ⟨0, ![]⟩

class Facts : Prop where
  bcast_S_S4x3000x2 : S_.BroadcastsInDim S4x3000x2 (![] : Fin 0 → Fin S4x3000x2.rank)
  reducesTo_S4x3000x2_S_d0_1_2 : S4x3000x2.ReducesTo [0, 1, 2] S_
  h_S_ : 0 < S_.numel

variable [Facts]

def fn {F : FTy → Type} [FloatOps F] (main_arg0 : FVec F S4x3000x2 .f32) (main_arg1 : FVec F S4x3000x2 .f32) : IVec S_ 1 :=
  let main_v0 : FVec F S4x3000x2 .f32 := Host.absf main_arg0
  let main_cst : FVec F S_ .f32 := constant S_ .f32 0x7F800000#32
  let main_v1 : FVec F S4x3000x2 .f32 := broadcastInDim S4x3000x2 ![] bcast_S_S4x3000x2 main_cst
  let main_v2 : IVec S4x3000x2 1 := cmpf .olt main_v0 main_v1
  let main_c : IVec S_ 1 := constantI S_ 1 1#1
  let main_v3 : IVec S_ 1 := (fun x v => Host.reduce IntOp.andi x v reducesTo_S4x3000x2_S_d0_1_2 h_S_) main_v2 main_c
  let main_v4 : FVec F S4x3000x2 .f32 := Host.absf main_arg1
  let main_cst_0 : FVec F S_ .f32 := constant S_ .f32 0x7F800000#32
  let main_v5 : FVec F S4x3000x2 .f32 := broadcastInDim S4x3000x2 ![] bcast_S_S4x3000x2 main_cst_0
  let main_v6 : IVec S4x3000x2 1 := cmpf .olt main_v4 main_v5
  let main_c_1 : IVec S_ 1 := constantI S_ 1 1#1
  let main_v7 : IVec S_ 1 := (fun x v => Host.reduce IntOp.andi x v reducesTo_S4x3000x2_S_d0_1_2 h_S_) main_v6 main_c_1
  let main_v8 : IVec S_ 1 := andi main_v3 main_v7
  main_v8
-- ==== Kernel.lean ====
abbrev S4x3000x2 : Shape := ⟨3, ![4, 3000, 2]⟩
abbrev S1x1000x2 : Shape := ⟨3, ![1, 1000, 2]⟩
abbrev S1000x2 : Shape := ⟨2, ![1000, 2]⟩
abbrev S1000x1000 : Shape := ⟨2, ![1000, 1000]⟩
abbrev S1000 : Shape := ⟨1, ![1000]⟩
abbrev S1000x1 : Shape := ⟨2, ![1000, 1]⟩

abbrev nBuf : Space → Nat
  | .hbm => 4
  | .vmem => 14
  | .smem => 0
  | _ => 0

abbrev bufTy : (tb : Table) → Fin (tcTables nBuf tb) → BufTy
  | .hbm, ⟨0, _⟩ => ⟨S4x3000x2, .f32⟩
  | .hbm, ⟨1, _⟩ => ⟨S4x3000x2, .f32⟩
  | .hbm, ⟨2, _⟩ => ⟨S4x3000x2, .f32⟩
  | .hbm, ⟨3, _⟩ => ⟨S4x3000x2, .f32⟩
  | .local _ .vmem, ⟨0, _⟩ => ⟨S1x1000x2, .f32⟩
  | .local _ .vmem, ⟨1, _⟩ => ⟨S1x1000x2, .f32⟩
  | .local _ .vmem, ⟨2, _⟩ => ⟨S1x1000x2, .f32⟩
  | .local _ .vmem, ⟨3, _⟩ => ⟨S1x1000x2, .f32⟩
  | .local _ .vmem, ⟨4, _⟩ => ⟨S1x1000x2, .f32⟩
  | .local _ .vmem, ⟨5, _⟩ => ⟨S1x1000x2, .f32⟩
  | .local _ .vmem, ⟨6, _⟩ => ⟨S1000x2, .f32⟩
  | .local _ .vmem, ⟨7, _⟩ => ⟨S1x1000x2, .f32⟩
  | .local _ .vmem, ⟨8, _⟩ => ⟨S1x1000x2, .f32⟩
  | .local _ .vmem, ⟨9, _⟩ => ⟨S1x1000x2, .f32⟩
  | .local _ .vmem, ⟨10, _⟩ => ⟨S1x1000x2, .f32⟩
  | .local _ .vmem, ⟨11, _⟩ => ⟨S1x1000x2, .f32⟩
  | .local _ .vmem, ⟨12, _⟩ => ⟨S1x1000x2, .f32⟩
  | .local _ .vmem, ⟨13, _⟩ => ⟨S1000x2, .f32⟩
  | _, _ => ⟨S4x3000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 3, 3], ![false, false, false]⟩

def k0_cond2 (i : grid0.Coords) : BitVec 1 :=
  let arg2 : BitVec 32 := BitVec.ofNat 32 (i 2).val
  let c2_i32 : BitVec 32 := 2#32
  let v29 : BitVec 1 := Scalar.cmpi .eq arg2 c2_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 3, 3], ![false, false, false]⟩

def k1_cond2 (i : grid1.Coords) : BitVec 1 :=
  let arg2 : BitVec 32 := BitVec.ofNat 32 (i 2).val
  let c2_i32 : BitVec 32 := 2#32
  let v29 : BitVec 1 := Scalar.cmpi .eq arg2 c2_i32
  let v30 : BitVec 32 := Scalar.extui v29
  let c0_i32_15 : BitVec 32 := 0#32
  let v31 : BitVec 1 := Scalar.cmpi .ne v30 c0_i32_15
  v31

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1000x2_S1000x2_0_0 : ∀ a, (![0, 0] : Fin 2 → Nat) a + S1000x2.size a ≤ S1000x2.size a
  h_S1000x2 : 0 < S1000x2.numel
  shapeCasts_S1000x2_S1000x2 : S1000x2.ShapeCasts S1000x2
  inb_S1x1000x2_S1x1000x2_0_0_0 : ∀ a, (![0, 0, 0] : Fin 3 → Nat) a + S1x1000x2.size a ≤ S1x1000x2.size a
  h_S1x1000x2 : 0 < S1x1000x2.numel
  shapeCasts_S1x1000x2_S1000x2 : S1x1000x2.ShapeCasts S1000x2
  bitsLt_bf16_f32 : FTy.bits .bf16 < FTy.bits .f32
  reduces_S1000x1000_S1000 : S1000x1000.Reduces [1] S1000
  shapeCasts_S1000_S1000x1 : S1000.ShapeCasts S1000x1
  concatenates_S1000x1_S1000x1_S1000x2_d1 : Shape.Concatenates [S1000x1, S1000x1] S1000x2 1
  shapeCasts_S1000x2_S1x1000x2 : S1000x2.ShapeCasts S1x1000x2
  dot_S1000x2_S1000x2_S1000x1000_1_1_0_0_n_n_wf : DotDims.WF S1000x2 S1000x2 S1000x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x2.size a ≤ S4x3000x2.size a
  hwx0_0 : ∀ i : grid0.Coords, EltTy.bits .f32 = 32 ∨ (Rect.block (s := S4x3000x2) S1x1000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x2.size a ≤ S4x3000x2.size a
  hwx0_1 : ∀ i : grid0.Coords, EltTy.bits .f32 = 32 ∨ (Rect.block (s := S4x3000x2) S1x1000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x2.size a ≤ S4x3000x2.size a
  hwx0_2 : ∀ i : grid0.Coords, EltTy.bits .f32 = 32 ∨ (Rect.block (s := S4x3000x2) S1x1000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x2.size a ≤ S4x3000x2.size a
  hwx1_0 : ∀ i : grid1.Coords, EltTy.bits .f32 = 32 ∨ (Rect.block (s := S4x3000x2) S1x1000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x2.size a ≤ S4x3000x2.size a
  hwx1_1 : ∀ i : grid1.Coords, EltTy.bits .f32 = 32 ∨ (Rect.block (s := S4x3000x2) S1x1000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1000x2.size a ≤ S4x3000x2.size a
  hwx1_2 : ∀ i : grid1.Coords, EltTy.bits .f32 = 32 ∨ (Rect.block (s := S4x3000x2) S1x1000x2.size (cc1_transform_2 i) (hinb1_2 i)).WholeWords (EltTy.packing .f32)

variable [Facts₀]

def dot_S1000x2_S1000x2_S1000x1000_1_1_0_0_n_n : DotDims S1000x2 S1000x2 S1000x1000 where
  lhsContracting := [1]
  rhsContracting := [1]
  lhsNonContracting := [0]
  rhsNonContracting := [0]
  lhsBatch := []
  rhsBatch := []
  wf := dot_S1000x2_S1000x2_S1000x1000_1_1_0_0_n_n_wf

abbrev win0_0 : Pipeline.Window sig grid0 :=
  Pipeline.Window.ofSpec (Memref.whole main_arg0) S1x1000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1x1000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x3000x2 : Shape := ⟨3, ![4, 3000, 2]⟩
abbrev S4x3000x3000 : Shape := ⟨3, ![4, 3000, 3000]⟩
abbrev S_ : Shape := ⟨0, ![]⟩
abbrev S4x3000x3000x1 : Shape := ⟨4, ![4, 3000, 3000, 1]⟩
abbrev S4x3000x3000x2 : Shape := ⟨4, ![4, 3000, 3000, 2]⟩

abbrev nBuf : Space → Nat
  | .hbm => 28
  | .vmem => 0
  | .smem => 0
  | _ => 0

abbrev bufTy : (tb : Table) → Fin (tcTables nBuf tb) → BufTy
  | .hbm, ⟨0, _⟩ => ⟨S4x3000x2, .f32⟩
  | .hbm, ⟨1, _⟩ => ⟨S4x3000x2, .f32⟩
  | .hbm, ⟨2, _⟩ => ⟨S4x3000x3000, .f32⟩
  | .hbm, ⟨3, _⟩ => ⟨S_, .f32⟩
  | .hbm, ⟨4, _⟩ => ⟨S4x3000x3000, .f32⟩
  | .hbm, ⟨5, _⟩ => ⟨S4x3000x3000, .f32⟩
  | .hbm, ⟨6, _⟩ => ⟨S_, .f32⟩
  | .hbm, ⟨7, _⟩ => ⟨S4x3000x3000, .f32⟩
  | .hbm, ⟨8, _⟩ => ⟨S4x3000x3000, .f32⟩
  | .hbm, ⟨9, _⟩ => ⟨S_, .f32⟩
  | .hbm, ⟨10, _⟩ => ⟨S_, .f32⟩
  | .hbm, ⟨11, _⟩ => ⟨S4x3000x3000, .f32⟩
  | .hbm, ⟨12, _⟩ => ⟨S4x3000x3000, .f32⟩
  | .hbm, ⟨13, _⟩ => ⟨S4x3000x3000, .f32⟩
  | .hbm, ⟨14, _⟩ => ⟨S_, .f32⟩
  | .hbm, ⟨15, _⟩ => ⟨S4x3000x3000, .f32⟩
  | .hbm, ⟨16, _⟩ => ⟨S4x3000x3000, .f32⟩
  | .hbm, ⟨17, _⟩ => ⟨S4x3000x3000, .f32⟩
  | .hbm, ⟨18, _⟩ => ⟨S4x3000x3000, .f32⟩
  | .hbm, ⟨19, _⟩ => ⟨S4x3000x3000x1, .f32⟩
  | .hbm, ⟨20, _⟩ => ⟨S4x3000x3000x1, .f32⟩
  | .hbm, ⟨21, _⟩ => ⟨S4x3000x3000x2, .f32⟩
  | .hbm, ⟨22, _⟩ => ⟨S_, .f32⟩
  | .hbm, ⟨23, _⟩ => ⟨S4x3000x2, .f32⟩
  | .hbm, ⟨24, _⟩ => ⟨S4x3000x2, .f32⟩
  | .hbm, ⟨25, _⟩ => ⟨S_, .f32⟩
  | .hbm, ⟨26, _⟩ => ⟨S4x3000x2, .f32⟩
  | .hbm, ⟨27, _⟩ => ⟨S4x3000x2, .f32⟩
  | _, _ => ⟨S4x3000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4x3000x3000 : S_.BroadcastsInDim S4x3000x3000 (![] : Fin 0 → Fin S4x3000x3000.rank)
  bcast_S4x3000x3000_S4x3000x3000x1_0_1_2 : S4x3000x3000.BroadcastsInDim S4x3000x3000x1 (![0, 1, 2] : Fin 3 → Fin S4x3000x3000x1.rank)
  concatenates_S4x3000x3000x1_S4x3000x3000x1_S4x3000x3000x2_d3 : Shape.Concatenates [S4x3000x3000x1, S4x3000x3000x1] S4x3000x3000x2 3
  reducesTo_S4x3000x3000x2_S4x3000x2_d2 : S4x3000x3000x2.ReducesTo [2] S4x3000x2
  h_S_ : 0 < S_.numel
  reducesTo_S4x3000x3000x2_S4x3000x2_d1 : S4x3000x3000x2.ReducesTo [1] S4x3000x2
  dot_S4x3000x2_S4x3000x2_S4x3000x3000_2_2_1_1_0_0_wf : DotDims.WF S4x3000x2 S4x3000x2 S4x3000x3000 [2] [2] [1] [1] [0] [0]

variable [Facts₀]

def dot_S4x3000x2_S4x3000x2_S4x3000x3000_2_2_1_1_0_0 : DotDims S4x3000x2 S4x3000x2 S4x3000x3000 where
  lhsContracting := [2]
  rhsContracting := [2]
  lhsNonContracting := [1]
  rhsNonContracting := [1]
  lhsBatch := [0]
  rhsBatch := [0]
  wf := dot_S4x3000x2_S4x3000x2_S4x3000x3000_2_2_1_1_0_0_wf

class Facts : Prop extends Facts₀ where

variable [Facts]
-- ==== Proof.KReg0Common.lean ====
/-
  Pallas call 0 (the embedding of the first point set against the second): what its three per-point cases share.

  The grid is (batch, tile of the scaled point set, tile of the summed point set) = (4, 3, 3), walked in row-major
  order, so point t has summed-tile coordinate t mod 3. The body resets its accumulator when that coordinate is 0,
  adds the tile pair's partial sums at every point, and stores the scaled block into the output window when it is 2.
  So a point is in exactly one of three cases: A (coordinate 0: reset, then add), B (coordinate 1: add),
  C (coordinate 2: add, then store the output). The output window is idle, and not written back, in cases A and B.
-/
import proofs.«137931_j47287589929003_1_alg».proof.Proof.Gen.Kernel.Launch
import proofs.«137931_j47287589929003_1_alg».proof.Proof.Gen.Kernel.Skeleton
import proofs.«137931_j47287589929003_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, as functions of the grid point -/

/-- The accumulator is reset: the summed-tile coordinate is 0. -/
abbrev condReset (i : grid0.Coords) : Prop :=
  (Scalar.cmpi .ne (Scalar.extui (Scalar.cmpi .eq (BitVec.ofNat 32 (i 2).val) 0#32)) 0#32) = 1#1
/-- It holds exactly at the points ≡ 0 (mod 3). -/
theorem hcondReset : ∀ t : Fin cfg0.N, condReset (grid0.coords t) ↔ t.val % 3 = 0 :=
  (by decide +kernel : ∀ t : Fin grid0.N, condReset (grid0.coords t) ↔ t.val % 3 = 0)

/-- The output is stored: the summed-tile coordinate is the last, 2. -/
abbrev condLast (i : grid0.Coords) : Prop := k0_cond2 i = 1#1
/-- It holds exactly at the points ≡ 2 (mod 3). -/
theorem hcondLast : ∀ t : Fin cfg0.N, condLast (grid0.coords t) ↔ t.val % 3 = 2 :=
  (by decide +kernel : ∀ t : Fin grid0.N, condLast (grid0.coords t) ↔ t.val % 3 = 2)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from the last summed tile the output window is idle … -/
theorem idle_2 : ∀ t : Fin cfg0.N, ¬condLast (grid0.coords t) → cfg0.idle 2 (grid0.coords t) = true := by decide +kernel
/-- … and is not written back. -/
theorem noFlush_2 : ∀ t : Fin cfg0.N, ¬condLast (grid0.coords t) → (cfg0.win 2).flush t = false := by decide +kernel
/-- At the last summed tile it is live. -/
theorem live_2 : ∀ t : Fin cfg0.N, condLast (grid0.coords t) → cfg0.idle 2 (grid0.coords t) = false := by decide +kernel

/-! ## The memrefs the body is called with -/

abbrev ms0 (t : Fin cfg0.N) : Memref sig .tc .vmem S1x1000x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1000x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1000x2 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev scM : Memref sig .tc .vmem S1000x2 .f32 := Memref.whole cc0_scratch0
abbrev VS : View sig .tc .vmem S1000x2 .f32 := (scM).view
/-- One staging buffer of the output window, through which its contents are stated. -/
abbrev VO : View sig .tc .vmem S1x1000x2 .f32 := (Memref.whole cc0_stg2_0 : Memref sig .tc .vmem S1x1000x2 .f32).view

/-! ## The input windows' blocks, at a parameter: the arrays as the region finds them -/

variable (V : (c : Dev nD) → (b : Ref sig .tc) → Buf (Elt F) ((c : Thread nD τ).loc b))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scaled point set's window holds its block at every point, fetched there or not (it is fetched when the
    summed tile restarts, and its index does not move in between). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The summed point set's window likewise (it is fetched at every point). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand.Reg0

end
-- ==== Proof.KReg0RunA.lean ====
/-
  Pallas call 0, case A (the summed tile restarts): the body's triple. On whole staging memrefs — the two input
  blocks at their contents, the output window's buffer at contents handed back untouched, the accumulator at
  anything — the body runs to the continuation with the inputs as they were and the accumulator holding its
  stores' pieces (the zero splat, then the zero read back plus this tile pair's partial sums). The pieces are the
  witness the symbolic run finds.
-/
import proofs.«137931_j47287589929003_1_alg».proof.Proof.KReg0Common

set_option maxRecDepth 16384

noncomputable section

namespace Cert.Kernel.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunA (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__geo_embed_kernel i arg3 harg3 arg4 harg4 arg5 harg5 arg6 harg6) K } := by
  refine ⟨?_, fun xi2 E K => ?run⟩
  case run =>
    simp only [cc0__geo_embed_kernel_eq_skeleton]; unfold cc0__geo_embed_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand.Reg0

end
-- ==== Proof.KReg0RunB.lean ====
/-
  Pallas call 0, case B (a middle summed tile): the body's triple. The accumulator is handed over at the contents
  the point before left and comes back holding its one store's piece: those contents plus this tile pair's partial
  sums. The output window's buffer is handed back untouched.
-/
import proofs.«137931_j47287589929003_1_alg».proof.Proof.KReg0Common

set_option maxRecDepth 16384

noncomputable section

namespace Cert.Kernel.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunB (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__geo_embed_kernel i arg3 harg3 arg4 harg4 arg5 harg5 arg6 harg6) K } := by
  refine ⟨?_, fun xi2 E K => ?run⟩
  case run =>
    simp only [cc0__geo_embed_kernel_eq_skeleton]; unfold cc0__geo_embed_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand.Reg0

end
-- ==== Proof.KReg0RunC.lean ====
/-
  Pallas call 0, case C (the last summed tile): the body's triple. The accumulator is handed over at the contents
  the point before left and comes back holding those contents plus this tile pair's partial sums; the output
  window's buffer, handed over at anything, comes back holding its one store's piece: the scaled block times the
  accumulator just read back.
-/
import proofs.«137931_j47287589929003_1_alg».proof.Proof.KReg0Common

set_option maxRecDepth 16384

noncomputable section

namespace Cert.Kernel.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    Σ' (L2 : List (View.Piece (Elt F) S1x1000x2 .f32)), { LS : List (View.Piece (Elt F) S1000x2 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__geo_embed_kernel i arg3 harg3 arg4 harg4 arg5 harg5 arg6 harg6) K } := by
  refine ⟨?_, ?_, fun E K => ?run⟩
  case run =>
    simp only [cc0__geo_embed_kernel_eq_skeleton]; unfold cc0__geo_embed_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand.Reg0

end
-- ==== Proof.KReg0Data.lean ====
/-
  Pallas call 0: what the accumulator and the output window hold after each grid point, the region's invariant,
  its proof data and the body obligation.

  After point t the accumulator holds: at a point of case A the reset-and-add result of the point's two input
  blocks; at a point of case B or C the add result over what the point before left. The output window's buffer
  holds, at a point of case C, the scaled block times the accumulator; elsewhere it is idle. The invariant before
  the first point is the class's (every scoped buffer at anything, the generator register at some state); before
  any later point it has the accumulator at what the point before left. Nothing is owed; shares are full.
-/
import proofs.«137931_j47287589929003_1_alg».proof.Proof.KReg0RunA
import proofs.«137931_j47287589929003_1_alg».proof.Proof.KReg0RunB
import proofs.«137931_j47287589929003_1_alg».proof.Proof.KReg0RunC

set_option maxRecDepth 16384

noncomputable section

namespace Cert.Kernel.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The class's invariant, opened around the accumulator -/

/-- The core's scoped buffers other than this call's staging buffers and accumulator (the other call's), each
    whole at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant is the accumulator at some contents beside the rest and the generator register. -/
theorem PhiA_eq (c : Dev nD) :
    (Pipeline.ΦA spec0 c : sProp 𝕄)
      = iprop(iprop((∃ d, owns (c : Thread nD τ) scM fullShare d) ∗ restScoped (F := F) c) ∗ (∃ r, prngReg c r)) := by
  unfold Pipeline.ΦA restScoped
  rw [show (Pipeline.scopedRest (Ix := Unit) (Name := ℕ) (U := UR sig nD τ) (Lvl := ℕ) (Val := Elt F) spec0 c : sProp 𝕄)
      = _ from Pipeline.scopedRest_eq_of_list spec0 c [cc0_scratch0, cc1_stg0_0, cc1_stg0_1, cc1_stg1_0, cc1_stg1_1, cc1_stg2_0, cc1_stg2_1, cc1_scratch0] (by decide) (by decide)]
  simp only [scM, owns_whole]; try rfl

/-! ## What each case leaves -/

/-- The placeholder for the output window's buffer at a point where it is idle: nothing consults it. -/
def outIdle : Vec F S1x1000x2 .f32 := VO.read (Elt F) (VO.writes (Elt F) VO.junk [])

theorem scoverA (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) (y : S1000x2.Idx) :
    ∃ pc ∈ (kernelRunA c i arg3 harg3 arg4 harg4 arg5 harg5 arg6 harg6 hc1 hc2 x0 x1).1, y ∈ pc.1.set :=
  View.cover_of_tiledL (kernelRunA c i arg3 harg3 arg4 harg4 arg5 harg5 arg6 harg6 hc1 hc2 x0 x1).1 S1000x2.size (by sl_kernel_rfl) y

/-- What case A leaves in the accumulator: its pieces read back. -/
def soutA (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) : Vec F S1000x2 .f32 :=
  VS.read (Elt F) (VS.writes (Elt F) VS.junk (kernelRunA c i arg3 harg3 arg4 harg4 arg5 harg5 arg6 harg6 hc1 hc2 x0 x1).1)

theorem scoverB (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) (y : S1000x2.Idx) :
    ∃ pc ∈ (kernelRunB c i arg3 harg3 arg4 harg4 arg5 harg5 arg6 harg6 hc1 hc2 x0 x1 xs).1, y ∈ pc.1.set :=
  View.cover_of_tiledL (kernelRunB c i arg3 harg3 arg4 harg4 arg5 harg5 arg6 harg6 hc1 hc2 x0 x1 xs).1 S1000x2.size (by sl_kernel_rfl) y

/-- What case B leaves in the accumulator. -/
def soutB (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) : Vec F S1000x2 .f32 :=
  VS.read (Elt F) (VS.writes (Elt F) VS.junk (kernelRunB c i arg3 harg3 arg4 harg4 arg5 harg5 arg6 harg6 hc1 hc2 x0 x1 xs).1)

theorem scoverC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1000x2.Idx) :
    ∃ pc ∈ (kernelRunC c i arg3 harg3 arg4 harg4 arg5 harg5 arg6 harg6 hc1 hc2 x0 x1 xs).2.1, y ∈ pc.1.set :=
  View.cover_of_tiledL (kernelRunC c i arg3 harg3 arg4 harg4 arg5 harg5 arg6 harg6 hc1 hc2 x0 x1 xs).2.1 S1000x2.size (by sl_kernel_rfl) y

/-- What case C leaves in the accumulator. -/
def soutC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1000x2 .f32 :=
  VS.read (Elt F) (VS.writes (Elt F) VS.junk (kernelRunC c i arg3 harg3 arg4 harg4 arg5 harg5 arg6 harg6 hc1 hc2 x0 x1 xs).2.1)

theorem coverC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1x1000x2.Idx) :
    ∃ pc ∈ (kernelRunC c i arg3 harg3 arg4 harg4 arg5 harg5 arg6 harg6 hc1 hc2 x0 x1 xs).1, y ∈ pc.1.set :=
  View.cover_of_tiledL (kernelRunC c i arg3 harg3 arg4 harg4 arg5 harg5 arg6 harg6 hc1 hc2 x0 x1 xs).1 S1x1000x2.size (by sl_kernel_rfl) y

/-- What case C leaves in the output window's buffer. -/
def outC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1x1000x2 .f32 :=
  VO.read (Elt F) (VO.writes (Elt F) VO.junk (kernelRunC c i arg3 harg3 arg4 harg4 arg5 harg5 arg6 harg6 hc1 hc2 x0 x1 xs).1)

/-! ## Point by point -/

variable (V : (c : Dev nD) → (b : Ref sig .tc) → Buf (Elt F) ((c : Thread nD τ).loc b))

theorem not_last_of_reset (t : Fin cfg0.N) (h0 : t.val % 3 = 0) : ¬condLast (grid0.coords t) :=
  fun h => by have := (hcondLast t).mp h; omega
theorem not_reset_of (t : Fin cfg0.N) (h0 : ¬t.val % 3 = 0) : ¬condReset (grid0.coords t) :=
  fun h => h0 ((hcondReset t).mp h)
theorem not_last_of (t : Fin cfg0.N) (h2 : ¬t.val % 3 = 2) : ¬condLast (grid0.coords t) :=
  fun h => h2 ((hcondLast t).mp h)

/-- THE ACCUMULATION: the accumulator after the body at position `n`, by recursion on the position. -/
def accAt (c : Dev nD) : (n : ℕ) → n < cfg0.N → Vec F S1000x2 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondReset ⟨0, hn⟩).mpr (Nat.zero_mod _)) (not_last_of_reset ⟨0, hn⟩ (Nat.zero_mod _)) (iblk V c 0 ⟨0, hn⟩) (iblk V c 1 ⟨0, hn⟩)
  | n + 1, hn =>
    if h0 : (n + 1) % 3 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondReset ⟨n + 1, hn⟩).mpr h0) (not_last_of_reset ⟨n + 1, hn⟩ h0) (iblk V c 0 ⟨n + 1, hn⟩) (iblk V c 1 ⟨n + 1, hn⟩)
    else
      if h2 : (n + 1) % 3 = 2 then
        soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) ((hcondLast ⟨n + 1, hn⟩).mpr h2) (iblk V c 0 ⟨n + 1, hn⟩) (iblk V c 1 ⟨n + 1, hn⟩) (accAt c n (Nat.lt_of_succ_lt hn))
      else
        soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) (not_last_of ⟨n + 1, hn⟩ h2) (iblk V c 0 ⟨n + 1, hn⟩) (iblk V c 1 ⟨n + 1, hn⟩) (accAt c n (Nat.lt_of_succ_lt hn))

theorem accAt_A (c : Dev nD) (t : Fin cfg0.N) (h0 : t.val % 3 = 0) :
    accAt V c t.val t.isLt = soutA c (grid0.coords t) (ms0 t) (hs0 t) (ms1 t) (hs1 t) (ms2 t) (hs2 t) scM (Memref.isWhole_whole _) ((hcondReset t).mpr h0) (not_last_of_reset t h0) (iblk V c 0 t) (iblk V c 1 t) := by
  obtain ⟨n, hn⟩ := t
  cases n with
  | zero => exact rfl
  | succ n => exact (dif_pos h0).trans rfl

theorem accAt_B (c : Dev nD) (t : Fin cfg0.N) (h0 : ¬t.val % 3 = 0) (h2 : ¬t.val % 3 = 2) :
    accAt V c t.val t.isLt = soutB c (grid0.coords t) (ms0 t) (hs0 t) (ms1 t) (hs1 t) (ms2 t) (hs2 t) scM (Memref.isWhole_whole _) (not_reset_of t h0) (not_last_of t h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)

theorem accAt_C (c : Dev nD) (t : Fin cfg0.N) (h0 : ¬t.val % 3 = 0) (h2 : t.val % 3 = 2) :
    accAt V c t.val t.isLt = soutC c (grid0.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- The output window's buffer after the body at point `t`: the scaled block times the accumulator at a point of
    case C, the placeholder elsewhere. -/
def outAt (c : Dev nD) (t : Fin cfg0.N) : Vec F S1x1000x2 .f32 :=
  if h2 : t.val % 3 = 2 then
    outC c (grid0.coords t) (ms0 t) (hs0 t) (ms1 t) (hs1 t) (ms2 t) (hs2 t) scM (Memref.isWhole_whole _) (not_reset_of t (by omega)) ((hcondLast t).mpr h2) (iblk V c 0 t) (iblk V c 1 t) (accAt V c (t.val - 1) (Nat.lt_of_le_of_lt (Nat.sub_le _ _) t.isLt))
  else outIdle

theorem outAt_C (c : Dev nD) (t : Fin cfg0.N) (h0 : ¬t.val % 3 = 0) (h2 : t.val % 3 = 2) :
    outAt V c t = outC c (grid0.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) :=
  (dif_pos h2).trans rfl

/-! ## The region's invariant -/

def PhiS (c : Dev nD) : (n : ℕ) → n ≤ cfg0.N → sProp 𝕄
  | 0, _ => Pipeline.ΦA spec0 c
  | n + 1, hn => iprop(iprop(owns (c : Thread nD τ) scM fullShare (accAt V c n hn) ∗ restScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restScoped (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restScoped (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outAt V c t := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg0.N) :
    (dat V c).leavesExact 0 t = owns (c : Thread nD τ) (ms0 t) fullShare (iblk V c 0 t) := by
  unfold Dat.leavesExact; rw [live_0 t, after_0]; try rfl
theorem leaves_1 (c : Dev nD) (t : Fin cfg0.N) :
    (dat V c).leavesExact 1 t = owns (c : Thread nD τ) (ms1 t) fullShare (iblk V c 1 t) := by
  unfold Dat.leavesExact; rw [live_1 t, after_1]; try rfl

set_option maxHeartbeats 4800000 in
/-- The body at any point: the inputs' memrefs hold their blocks; the point's coordinate says which case it is in;
    the invariant hands the body the accumulator (at anything before the first point, else at what the point before
    left) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 36 := lt_of_lt_of_eq t.isLt (show cfg0.N = 36 from N_0)
  by_cases h0 : t.val % 3 = 0
  · have hnl : ¬condLast (grid0.coords t) := not_last_of_reset t h0
    rw [Dat.leavesExact_idle (dat V c) 2 t (idle_2 t hnl) (noFlush_2 t hnl)]
    rw [accAt_A V c t h0]
    unfold soutA; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRunA c (grid0.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, Hrest⟩, Hg⟩, Ho, ⟨%d0, H0⟩, ⟨%d1, H1⟩, ⟨%d2, H2⟩⟩
      iapply ((kernelRunA c (grid0.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    have hnr : ¬condReset (grid0.coords t) := not_reset_of t h0
    by_cases h2 : t.val % 3 = 2
    · have hl : condLast (grid0.coords t) := (hcondLast t).mpr h2
      rw [show (dat V c).leavesExact 2 t = owns (c : Thread nD τ) (ms2 t) fullShare ((dat V c).after 2 t) from by
        unfold Dat.leavesExact; rw [live_2 t hl], after_2]
      rw [accAt_C V c t h0 h2, outAt_C V c t h0 h2]
      unfold outC soutC; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunC c (grid0.coords t) _ _ _ _ _ _ _ _ hnr hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hnl : ¬condLast (grid0.coords t) := not_last_of t h2
      rw [Dat.leavesExact_idle (dat V c) 2 t (idle_2 t hnl) (noFlush_2 t hnl)]
      rw [accAt_B V c t h0 h2]
      unfold soutB; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunB c (grid0.coords t) _ _ _ _ _ _ _ _ hnr hnl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverB c _ _ _ _ _ _ _ _ _ _ _ _ _ _)
          iexact Hrest
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

/-! ## The invariant at the region's two ends -/

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  have hne : (Fin.last cfg0.N).val ≠ 0 := by rw [Fin.val_last]; have : cfg0.N = 36 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hrest⟩, Hg⟩
  isplitl [HS Hrest]
  · isplitl [HS]
    · iexists _; iexact HS
    iexact Hrest
  iexact Hg

end Cert.Kernel.Hand.Reg0

end
-- ==== Proof.KReg1Common.lean ====
/-
  Pallas call 1 (the embedding of the second point set against the first): what its three per-point cases share.

  The grid is (batch, tile of the scaled point set, tile of the summed point set) = (4, 3, 3), walked in row-major
  order, so point t has summed-tile coordinate t mod 3. The body resets its accumulator when that coordinate is 0,
  adds the tile pair's partial sums at every point, and stores the scaled block into the output window when it is 2.
  So a point is in exactly one of three cases: A (coordinate 0: reset, then add), B (coordinate 1: add),
  C (coordinate 2: add, then store the output). The output window is idle, and not written back, in cases A and B.
-/
import proofs.«137931_j47287589929003_1_alg».proof.Proof.Gen.Kernel.Launch
import proofs.«137931_j47287589929003_1_alg».proof.Proof.Gen.Kernel.Skeleton
import proofs.«137931_j47287589929003_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, as functions of the grid point -/

/-- The accumulator is reset: the summed-tile coordinate is 0. -/
abbrev condReset (i : grid1.Coords) : Prop :=
  (Scalar.cmpi .ne (Scalar.extui (Scalar.cmpi .eq (BitVec.ofNat 32 (i 2).val) 0#32)) 0#32) = 1#1
/-- It holds exactly at the points ≡ 0 (mod 3). -/
theorem hcondReset : ∀ t : Fin cfg1.N, condReset (grid1.coords t) ↔ t.val % 3 = 0 :=
  (by decide +kernel : ∀ t : Fin grid1.N, condReset (grid1.coords t) ↔ t.val % 3 = 0)

/-- The output is stored: the summed-tile coordinate is the last, 2. -/
abbrev condLast (i : grid1.Coords) : Prop := k1_cond2 i = 1#1
/-- It holds exactly at the points ≡ 2 (mod 3). -/
theorem hcondLast : ∀ t : Fin cfg1.N, condLast (grid1.coords t) ↔ t.val % 3 = 2 :=
  (by decide +kernel : ∀ t : Fin grid1.N, condLast (grid1.coords t) ↔ t.val % 3 = 2)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Away from the last summed tile the output window is idle … -/
theorem idle_2 : ∀ t : Fin cfg1.N, ¬condLast (grid1.coords t) → cfg1.idle 2 (grid1.coords t) = true := by decide +kernel
/-- … and is not written back. -/
theorem noFlush_2 : ∀ t : Fin cfg1.N, ¬condLast (grid1.coords t) → (cfg1.win 2).flush t = false := by decide +kernel
/-- At the last summed tile it is live. -/
theorem live_2 : ∀ t : Fin cfg1.N, condLast (grid1.coords t) → cfg1.idle 2 (grid1.coords t) = false := by decide +kernel

/-! ## The memrefs the body is called with -/

abbrev ms0 (t : Fin cfg1.N) : Memref sig .tc .vmem S1x1000x2 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1000x2 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1000x2 .f32 := win1_2.stage (cfg1.slots t 2)
abbrev hs2 (t : Fin cfg1.N) : (ms2 t).IsWhole := hstage1_2 ((cfg1.slots t 2).cast nbuf1_2)
/-- The accumulator: a whole scoped buffer of the kernel's own, carried from point to point. -/
abbrev scM : Memref sig .tc .vmem S1000x2 .f32 := Memref.whole cc1_scratch0
abbrev VS : View sig .tc .vmem S1000x2 .f32 := (scM).view
/-- One staging buffer of the output window, through which its contents are stated. -/
abbrev VO : View sig .tc .vmem S1x1000x2 .f32 := (Memref.whole cc1_stg2_0 : Memref sig .tc .vmem S1x1000x2 .f32).view

/-! ## The input windows' blocks, at a parameter: the arrays as the region finds them -/

variable (V : (c : Dev nD) → (b : Ref sig .tc) → Buf (Elt F) ((c : Thread nD τ).loc b))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scaled point set's window holds its block at every point, fetched there or not (it is fetched when the
    summed tile restarts, and its index does not move in between). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The summed point set's window likewise (it is fetched at every point). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand.Reg1

end
-- ==== Proof.KReg1RunA.lean ====
/-
  Pallas call 1, case A (the summed tile restarts): the body's triple. On whole staging memrefs — the two input
  blocks at their contents, the output window's buffer at contents handed back untouched, the accumulator at
  anything — the body runs to the continuation with the inputs as they were and the accumulator holding its
  stores' pieces (the zero splat, then the zero read back plus this tile pair's partial sums). The pieces are the
  witness the symbolic run finds.
-/
import proofs.«137931_j47287589929003_1_alg».proof.Proof.KReg1Common

set_option maxRecDepth 16384

noncomputable section

namespace Cert.Kernel.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunA (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__geo_embed_kernel i arg3 harg3 arg4 harg4 arg5 harg5 arg6 harg6) K } := by
  refine ⟨?_, fun xi2 E K => ?run⟩
  case run =>
    simp only [cc1__geo_embed_kernel_eq_skeleton]; unfold cc1__geo_embed_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand.Reg1

end
-- ==== Proof.KReg1RunB.lean ====
/-
  Pallas call 1, case B (a middle summed tile): the body's triple. The accumulator is handed over at the contents
  the point before left and comes back holding its one store's piece: those contents plus this tile pair's partial
  sums. The output window's buffer is handed back untouched.
-/
import proofs.«137931_j47287589929003_1_alg».proof.Proof.KReg1Common

set_option maxRecDepth 16384

noncomputable section

namespace Cert.Kernel.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunB (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__geo_embed_kernel i arg3 harg3 arg4 harg4 arg5 harg5 arg6 harg6) K } := by
  refine ⟨?_, fun xi2 E K => ?run⟩
  case run =>
    simp only [cc1__geo_embed_kernel_eq_skeleton]; unfold cc1__geo_embed_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand.Reg1

end
-- ==== Proof.KReg1RunC.lean ====
/-
  Pallas call 1, case C (the last summed tile): the body's triple. The accumulator is handed over at the contents
  the point before left and comes back holding those contents plus this tile pair's partial sums; the output
  window's buffer, handed over at anything, comes back holding its one store's piece: the scaled block times the
  accumulator just read back.
-/
import proofs.«137931_j47287589929003_1_alg».proof.Proof.KReg1Common

set_option maxRecDepth 16384

noncomputable section

namespace Cert.Kernel.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRunC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    Σ' (L2 : List (View.Piece (Elt F) S1x1000x2 .f32)), { LS : List (View.Piece (Elt F) S1000x2 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__geo_embed_kernel i arg3 harg3 arg4 harg4 arg5 harg5 arg6 harg6) K } := by
  refine ⟨?_, ?_, fun E K => ?run⟩
  case run =>
    simp only [cc1__geo_embed_kernel_eq_skeleton]; unfold cc1__geo_embed_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand.Reg1

end
-- ==== Proof.KReg1Data.lean ====
/-
  Pallas call 1: what the accumulator and the output window hold after each grid point, the region's invariant,
  its proof data and the body obligation.

  After point t the accumulator holds: at a point of case A the reset-and-add result of the point's two input
  blocks; at a point of case B or C the add result over what the point before left. The output window's buffer
  holds, at a point of case C, the scaled block times the accumulator; elsewhere it is idle. The invariant before
  the first point is the class's (every scoped buffer at anything, the generator register at some state); before
  any later point it has the accumulator at what the point before left. Nothing is owed; shares are full.
-/
import proofs.«137931_j47287589929003_1_alg».proof.Proof.KReg1RunA
import proofs.«137931_j47287589929003_1_alg».proof.Proof.KReg1RunB
import proofs.«137931_j47287589929003_1_alg».proof.Proof.KReg1RunC

set_option maxRecDepth 16384

noncomputable section

namespace Cert.Kernel.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The class's invariant, opened around the accumulator -/

/-- The core's scoped buffers other than this call's staging buffers and accumulator (the other call's), each
    whole at some contents. -/
def restScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class's invariant is the accumulator at some contents beside the rest and the generator register. -/
theorem PhiA_eq (c : Dev nD) :
    (Pipeline.ΦA spec1 c : sProp 𝕄)
      = iprop(iprop((∃ d, owns (c : Thread nD τ) scM fullShare d) ∗ restScoped (F := F) c) ∗ (∃ r, prngReg c r)) := by
  unfold Pipeline.ΦA restScoped
  rw [show (Pipeline.scopedRest (Ix := Unit) (Name := ℕ) (U := UR sig nD τ) (Lvl := ℕ) (Val := Elt F) spec1 c : sProp 𝕄)
      = _ from Pipeline.scopedRest_eq_of_list spec1 c [cc1_scratch0, cc0_stg0_0, cc0_stg0_1, cc0_stg1_0, cc0_stg1_1, cc0_stg2_0, cc0_stg2_1, cc0_scratch0] (by decide) (by decide)]
  simp only [scM, owns_whole]; try rfl

/-! ## What each case leaves -/

/-- The placeholder for the output window's buffer at a point where it is idle: nothing consults it. -/
def outIdle : Vec F S1x1000x2 .f32 := VO.read (Elt F) (VO.writes (Elt F) VO.junk [])

theorem scoverA (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) (y : S1000x2.Idx) :
    ∃ pc ∈ (kernelRunA c i arg3 harg3 arg4 harg4 arg5 harg5 arg6 harg6 hc1 hc2 x0 x1).1, y ∈ pc.1.set :=
  View.cover_of_tiledL (kernelRunA c i arg3 harg3 arg4 harg4 arg5 harg5 arg6 harg6 hc1 hc2 x0 x1).1 S1000x2.size (by sl_kernel_rfl) y

/-- What case A leaves in the accumulator: its pieces read back. -/
def soutA (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) : Vec F S1000x2 .f32 :=
  VS.read (Elt F) (VS.writes (Elt F) VS.junk (kernelRunA c i arg3 harg3 arg4 harg4 arg5 harg5 arg6 harg6 hc1 hc2 x0 x1).1)

theorem scoverB (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) (y : S1000x2.Idx) :
    ∃ pc ∈ (kernelRunB c i arg3 harg3 arg4 harg4 arg5 harg5 arg6 harg6 hc1 hc2 x0 x1 xs).1, y ∈ pc.1.set :=
  View.cover_of_tiledL (kernelRunB c i arg3 harg3 arg4 harg4 arg5 harg5 arg6 harg6 hc1 hc2 x0 x1 xs).1 S1000x2.size (by sl_kernel_rfl) y

/-- What case B leaves in the accumulator. -/
def soutB (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) : Vec F S1000x2 .f32 :=
  VS.read (Elt F) (VS.writes (Elt F) VS.junk (kernelRunB c i arg3 harg3 arg4 harg4 arg5 harg5 arg6 harg6 hc1 hc2 x0 x1 xs).1)

theorem scoverC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1000x2.Idx) :
    ∃ pc ∈ (kernelRunC c i arg3 harg3 arg4 harg4 arg5 harg5 arg6 harg6 hc1 hc2 x0 x1 xs).2.1, y ∈ pc.1.set :=
  View.cover_of_tiledL (kernelRunC c i arg3 harg3 arg4 harg4 arg5 harg5 arg6 harg6 hc1 hc2 x0 x1 xs).2.1 S1000x2.size (by sl_kernel_rfl) y

/-- What case C leaves in the accumulator. -/
def soutC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1000x2 .f32 :=
  VS.read (Elt F) (VS.writes (Elt F) VS.junk (kernelRunC c i arg3 harg3 arg4 harg4 arg5 harg5 arg6 harg6 hc1 hc2 x0 x1 xs).2.1)

theorem coverC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1x1000x2.Idx) :
    ∃ pc ∈ (kernelRunC c i arg3 harg3 arg4 harg4 arg5 harg5 arg6 harg6 hc1 hc2 x0 x1 xs).1, y ∈ pc.1.set :=
  View.cover_of_tiledL (kernelRunC c i arg3 harg3 arg4 harg4 arg5 harg5 arg6 harg6 hc1 hc2 x0 x1 xs).1 S1x1000x2.size (by sl_kernel_rfl) y

/-- What case C leaves in the output window's buffer. -/
def outC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1x1000x2 .f32 :=
  VO.read (Elt F) (VO.writes (Elt F) VO.junk (kernelRunC c i arg3 harg3 arg4 harg4 arg5 harg5 arg6 harg6 hc1 hc2 x0 x1 xs).1)

/-! ## Point by point -/

variable (V : (c : Dev nD) → (b : Ref sig .tc) → Buf (Elt F) ((c : Thread nD τ).loc b))

theorem not_last_of_reset (t : Fin cfg1.N) (h0 : t.val % 3 = 0) : ¬condLast (grid1.coords t) :=
  fun h => by have := (hcondLast t).mp h; omega
theorem not_reset_of (t : Fin cfg1.N) (h0 : ¬t.val % 3 = 0) : ¬condReset (grid1.coords t) :=
  fun h => h0 ((hcondReset t).mp h)
theorem not_last_of (t : Fin cfg1.N) (h2 : ¬t.val % 3 = 2) : ¬condLast (grid1.coords t) :=
  fun h => h2 ((hcondLast t).mp h)

/-- THE ACCUMULATION: the accumulator after the body at position `n`, by recursion on the position. -/
def accAt (c : Dev nD) : (n : ℕ) → n < cfg1.N → Vec F S1000x2 .f32
  | 0, hn => soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondReset ⟨0, hn⟩).mpr (Nat.zero_mod _)) (not_last_of_reset ⟨0, hn⟩ (Nat.zero_mod _)) (iblk V c 0 ⟨0, hn⟩) (iblk V c 1 ⟨0, hn⟩)
  | n + 1, hn =>
    if h0 : (n + 1) % 3 = 0 then
      soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondReset ⟨n + 1, hn⟩).mpr h0) (not_last_of_reset ⟨n + 1, hn⟩ h0) (iblk V c 0 ⟨n + 1, hn⟩) (iblk V c 1 ⟨n + 1, hn⟩)
    else
      if h2 : (n + 1) % 3 = 2 then
        soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) ((hcondLast ⟨n + 1, hn⟩).mpr h2) (iblk V c 0 ⟨n + 1, hn⟩) (iblk V c 1 ⟨n + 1, hn⟩) (accAt c n (Nat.lt_of_succ_lt hn))
      else
        soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) (not_last_of ⟨n + 1, hn⟩ h2) (iblk V c 0 ⟨n + 1, hn⟩) (iblk V c 1 ⟨n + 1, hn⟩) (accAt c n (Nat.lt_of_succ_lt hn))

theorem accAt_A (c : Dev nD) (t : Fin cfg1.N) (h0 : t.val % 3 = 0) :
    accAt V c t.val t.isLt = soutA c (grid1.coords t) (ms0 t) (hs0 t) (ms1 t) (hs1 t) (ms2 t) (hs2 t) scM (Memref.isWhole_whole _) ((hcondReset t).mpr h0) (not_last_of_reset t h0) (iblk V c 0 t) (iblk V c 1 t) := by
  obtain ⟨n, hn⟩ := t
  cases n with
  | zero => exact rfl
  | succ n => exact (dif_pos h0).trans rfl

theorem accAt_B (c : Dev nD) (t : Fin cfg1.N) (h0 : ¬t.val % 3 = 0) (h2 : ¬t.val % 3 = 2) :
    accAt V c t.val t.isLt = soutB c (grid1.coords t) (ms0 t) (hs0 t) (ms1 t) (hs1 t) (ms2 t) (hs2 t) scM (Memref.isWhole_whole _) (not_reset_of t h0) (not_last_of t h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)

theorem accAt_C (c : Dev nD) (t : Fin cfg1.N) (h0 : ¬t.val % 3 = 0) (h2 : t.val % 3 = 2) :
    accAt V c t.val t.isLt = soutC c (grid1.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- The output window's buffer after the body at point `t`: the scaled block times the accumulator at a point of
    case C, the placeholder elsewhere. -/
def outAt (c : Dev nD) (t : Fin cfg1.N) : Vec F S1x1000x2 .f32 :=
  if h2 : t.val % 3 = 2 then
    outC c (grid1.coords t) (ms0 t) (hs0 t) (ms1 t) (hs1 t) (ms2 t) (hs2 t) scM (Memref.isWhole_whole _) (not_reset_of t (by omega)) ((hcondLast t).mpr h2) (iblk V c 0 t) (iblk V c 1 t) (accAt V c (t.val - 1) (Nat.lt_of_le_of_lt (Nat.sub_le _ _) t.isLt))
  else outIdle

theorem outAt_C (c : Dev nD) (t : Fin cfg1.N) (h0 : ¬t.val % 3 = 0) (h2 : t.val % 3 = 2) :
    outAt V c t = outC c (grid1.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) :=
  (dif_pos h2).trans rfl

/-! ## The region's invariant -/

def PhiS (c : Dev nD) : (n : ℕ) → n ≤ cfg1.N → sProp 𝕄
  | 0, _ => Pipeline.ΦA spec1 c
  | n + 1, hn => iprop(iprop(owns (c : Thread nD τ) scM fullShare (accAt V c n hn) ∗ restScoped (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restScoped (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restScoped (F := F) c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) :
    (dat V c).leavesExact 0 t = owns (c : Thread nD τ) (ms0 t) fullShare (iblk V c 0 t) := by
  unfold Dat.leavesExact; rw [live_0 t, after_0]; try rfl
theorem leaves_1 (c : Dev nD) (t : Fin cfg1.N) :
    (dat V c).leavesExact 1 t = owns (c : Thread nD τ) (ms1 t) fullShare (iblk V c 1 t) := by
  unfold Dat.leavesExact; rw [live_1 t, after_1]; try rfl

set_option maxHeartbeats 4800000 in
/-- The body at any point: the inputs' memrefs hold their blocks; the point's coordinate says which case it is in;
    the invariant hands the body the accumulator (at anything before the first point, else at what the point before
    left) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 36 := lt_of_lt_of_eq t.isLt (show cfg1.N = 36 from N_1)
  by_cases h0 : t.val % 3 = 0
  · have hnl : ¬condLast (grid1.coords t) := not_last_of_reset t h0
    rw [Dat.leavesExact_idle (dat V c) 2 t (idle_2 t hnl) (noFlush_2 t hnl)]
    rw [accAt_A V c t h0]
    unfold soutA; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRunA c (grid1.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, Hrest⟩, Hg⟩, Ho, ⟨%d0, H0⟩, ⟨%d1, H1⟩, ⟨%d2, H2⟩⟩
      iapply ((kernelRunA c (grid1.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    have hnr : ¬condReset (grid1.coords t) := not_reset_of t h0
    by_cases h2 : t.val % 3 = 2
    · have hl : condLast (grid1.coords t) := (hcondLast t).mpr h2
      rw [show (dat V c).leavesExact 2 t = owns (c : Thread nD τ) (ms2 t) fullShare ((dat V c).after 2 t) from by
        unfold Dat.leavesExact; rw [live_2 t hl], after_2]
      rw [accAt_C V c t h0 h2, outAt_C V c t h0 h2]
      unfold outC soutC; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunC c (grid1.coords t) _ _ _ _ _ _ _ _ hnr hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hnl : ¬condLast (grid1.coords t) := not_last_of t h2
      rw [Dat.leavesExact_idle (dat V c) 2 t (idle_2 t hnl) (noFlush_2 t hnl)]
      rw [accAt_B V c t h0 h2]
      unfold soutB; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunB c (grid1.coords t) _ _ _ _ _ _ _ _ hnr hnl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverB c _ _ _ _ _ _ _ _ _ _ _ _ _ _)
          iexact Hrest
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W1, bigSep_W1]
  exact sound_body V c t

/-! ## The invariant at the region's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  have hne : (Fin.last cfg1.N).val ≠ 0 := by rw [Fin.val_last]; have : cfg1.N = 36 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨HS, Hrest⟩, Hg⟩
  isplitl [HS Hrest]
  · isplitl [HS]
    · iexists _; iexact HS
    iexact Hrest
  iexact Hg

end Cert.Kernel.Hand.Reg1

end
-- ==== Proof.KRun.lean ====
/-
  The whole program: two pallas calls in a row, no host operation between them. The first scales the first point
  set by its embedding sums against the second and writes the first result; the second does the same with the two
  point sets exchanged and writes the second result. Here: what every unscoped buffer holds at the two boundaries
  (after each call its three arrays are what the pipeline's write-backs leave, every other buffer is as it was),
  each call as a segment over the thread state "every unscoped buffer held at the boundary's contents, the
  generator register at some state, nothing owed", and the run: every weakly fair execution terminates, nothing
  faulting, and the final memory holds every unscoped buffer at the last boundary's contents. Read at the two
  argument arrays, which no call writes, that is the frame; read at the two results it names them.
-/
import proofs.«137931_j47287589929003_1_alg».proof.Proof.KReg0Data
import proofs.«137931_j47287589929003_1_alg».proof.Proof.KReg1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 : Dev nD → Valuation τ sig (Elt F) := fun c b => m (c, b)
/-- The same read at the TensorCore's references: what the first call's proof data take. -/
abbrev E0 : (c : Dev nD) → (b : Ref sig .tc) → Buf (Elt F) ((c : Thread nD τ).loc b) := fun c b => W0 m c b
/-- After the first call: its arrays at what the pipeline leaves, every other buffer as launched. -/
def W1 (c : Dev nD) : Valuation τ sig (Elt F) :=
  Pipeline.withArrays spec0 c (W0 m c) fun w => (Reg0.dat (E0 m) c).arrAt w cfg0.N
theorem W1_arr (c : Dev nD) (w : Fin cfg0.W) :
    W1 m c (Proc.devRef .tc (Pipeline.arrRef spec0 w)) = (Reg0.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (Reg0.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second call. -/
def W2 (c : Dev nD) : Valuation τ sig (Elt F) :=
  Pipeline.withArrays spec1 c (W1 m c) fun w => (Reg1.dat (E1 m) c).arrAt w cfg1.N
theorem W2_arr (c : Dev nD) (w : Fin cfg1.W) :
    W2 m c (Proc.devRef .tc (Pipeline.arrRef spec1 w)) = (Reg1.dat (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (Reg1.dat (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-! ## No call writes an argument; each result is written by one call -/

theorem W1_main_arg0 (c : Dev nD) : W1 m c (Proc.devRef .tc main_arg0) = m ((c : Thread nD τ).loc main_arg0) :=
  (W1_arr m c 0).trans (((Reg0.dat (E0 m) c).arrAt_in 0 rfl _).trans (Reg0.A_eq (E0 m) c 0))
theorem W1_main_arg1 (c : Dev nD) : W1 m c (Proc.devRef .tc main_arg1) = m ((c : Thread nD τ).loc main_arg1) :=
  (W1_arr m c 1).trans (((Reg0.dat (E0 m) c).arrAt_in 1 rfl _).trans (Reg0.A_eq (E0 m) c 1))
theorem W2_main_arg0 (c : Dev nD) : W2 m c (Proc.devRef .tc main_arg0) = m ((c : Thread nD τ).loc main_arg0) :=
  ((W2_arr m c 1).trans (((Reg1.dat (E1 m) c).arrAt_in 1 rfl _).trans (Reg1.A_eq (E1 m) c 1))).trans (W1_main_arg0 m c)
theorem W2_main_arg1 (c : Dev nD) : W2 m c (Proc.devRef .tc main_arg1) = m ((c : Thread nD τ).loc main_arg1) :=
  ((W2_arr m c 0).trans (((Reg1.dat (E1 m) c).arrAt_in 0 rfl _).trans (Reg1.A_eq (E1 m) c 0))).trans (W1_main_arg1 m c)
/-- The first result is what the first call's write-backs leave in its output array (the second call bypasses it). -/
theorem W2_main_v0 (c : Dev nD) : W2 m c (Proc.devRef .tc main_v0) = (Reg0.dat (E0 m) c).arrAt 2 cfg0.N :=
  (W2_of_ne m c main_v0 (by decide)).trans (W1_arr m c 2)
/-- The second result is what the second call's write-backs leave in its output array. -/
theorem W2_main_v1 (c : Dev nD) : W2 m c (Proc.devRef .tc main_v1) = (Reg1.dat (E1 m) c).arrAt 2 cfg1.N :=
  W2_arr m c 2

/-! ## The proof data family and the thread state -/

abbrev adm : (p : Fin 2) → (pcfgs (F := F) p).Adm := fun p => (cfgs p).toPCfg_adm
/-- Both calls' proof data, each at its call's entry contents: a literal match on the call's number. -/
def pdats : (p : Fin 2) → (c : Dev nD) → Dat τ (Elt F) Unit ℕ (UR sig nD τ) ℕ (Pipeline.pin (pcfgs (F := F)) adm p) c
  | ⟨0, _⟩ => fun c => Reg0.dat (E0 m) c
  | ⟨1, _⟩ => fun c => Reg1.dat (E1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The calls as segments -/

/-- After its last point each call's invariant gives back the scoped buffers no window stages and the generator
    register (the class's invariant, spelt out). -/
theorem hout0' (c : Dev nD) : (Reg0.dat (E0 m) c).Φ (Fin.last cfg0.N)
    ⊢ (iprop(Pipeline.scopedRest (Ix := Unit) (Name := ℕ) (U := UR sig nD τ) (Lvl := ℕ) (Val := Elt F) spec0 c ∗ ∃ r, prngReg c r) : sProp 𝕄) :=
  Reg0.hout (E0 m) c
theorem hout1' (c : Dev nD) : (Reg1.dat (E1 m) c).Φ (Fin.last cfg1.N)
    ⊢ (iprop(Pipeline.scopedRest (Ix := Unit) (Name := ℕ) (U := UR sig nD τ) (Lvl := ℕ) (Val := Elt F) spec1 c ∗ ∃ r, prngReg c r) : sProp 𝕄) :=
  Reg1.hout (E1 m) c

-- a library lemma stated over the pinned configuration unifies with the printed one only when unification may
-- unfold plain definitions in a metavariable's type
set_option backward.isDefEq.respectTransparency.types false in
/-- Pallas call 0 as a segment of the program: entered with every unscoped buffer at the contents the segment
    before left, left with its three arrays at what the pipeline's write-backs leave and every other buffer as
    entered. Its arrays are split out of the unscoped buffers at entry and put back at exit; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat (E0 m) c).Φ 0 from rfl]
    iintro ⟨Hp, -, Hr⟩
    iapply (Reg0.hin (E0 m) c)
    unfold Pipeline.ΦA
    isplitl [Hr]; · iexact Hr
    iexact Hp
  hout c := by
    rw [Pipeline.ownSems0_none, show (pdats m 0 c).Φ (Fin.last _) = (Reg0.dat (E0 m) c).Φ (Fin.last cfg0.N) from rfl]
    iintro H
    ihave H' := (hout0' m c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Pallas call 1 as a segment of the program: entered with every unscoped buffer at the contents the segment
    before left, left with its three arrays at what the pipeline's write-backs leave and every other buffer as
    entered. Its arrays are split out of the unscoped buffers at entry and put back at exit; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (E1 m) c).Φ 0 from rfl]
    iintro ⟨Hp, -, Hr⟩
    iapply (Reg1.hin (E1 m) c)
    unfold Pipeline.ΦA
    isplitl [Hr]; · iexact Hr
    iexact Hp
  hout c := by
    rw [Pipeline.ownSems0_none, show (pdats m 1 c).Φ (Fin.last _) = (Reg1.dat (E1 m) c).Φ (Fin.last cfg1.N) from rfl]
    iintro H
    ihave H' := (hout1' m c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME, at any float family: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_main_arg0 m c),
     (h c _ (mem_uc main_arg1 (by decide))).trans (W2_main_arg1 m c)⟩) (run_all m ρ)

/-- The run with both results named: each is what its call's write-backs leave in its output array. -/
theorem run_named : θ_run defs (onTc (τ := τ) (main (F := F))) ⟨m, fun _ => 0, ρ⟩ (fun r => ∀ c : Dev nD,
      r.2.mem ((c.tc : Thread nD τ).loc main_v0) = (Reg0.dat (E0 m) c).arrAt 2 cfg0.N
      ∧ r.2.mem ((c.tc : Thread nD τ).loc main_v1) = (Reg1.dat (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v0 (by decide))).trans (W2_main_v0 m c),
     (h c _ (mem_uc main_v1 (by decide))).trans (W2_main_v1 m c),
     (h c _ (mem_uc main_arg0 (by decide))).trans (W2_main_arg0 m c),
     (h c _ (mem_uc main_arg1 (by decide))).trans (W2_main_arg1 m c)⟩) (run_all m ρ)

end Cert.Kernel.Hand

end
-- ==== Proof.Reg0Common.lean ====
/-
  Pallas call 0 (the embedding of the first point set against the second): what its three per-point cases share.

  The grid is (batch, tile of the scaled point set, tile of the summed point set) = (4, 3, 3), walked in row-major
  order, so point t has summed-tile coordinate t mod 3. The body resets its accumulator when that coordinate is 0,
  adds the tile pair's partial sums at every point, and stores the scaled block into the output window when it is 2.
  So a point is in exactly one of three cases: A (coordinate 0: reset, then add), B (coordinate 1: add),
  C (coordinate 2: add, then store the output). The output window is idle, and not written back, in cases A and B.
-/
import proofs.«137931_j47287589929003_1_alg».proof.Proof.Gen.KernelIdeal.Launch
import proofs.«137931_j47287589929003_1_alg».proof.Proof.Gen.KernelIdeal.Skeleton
import proofs.«137931_j47287589929003_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, as functions of the grid point -/

/-- The accumulator is reset: the summed-tile coordinate is 0. -/
abbrev condReset (i : grid0.Coords) : Prop :=
  (Scalar.cmpi .ne (Scalar.extui (Scalar.cmpi .eq (BitVec.ofNat 32 (i 2).val) 0#32)) 0#32) = 1#1
/-- It holds exactly at the points ≡ 0 (mod 3). -/
theorem hcondReset : ∀ t : Fin cfg0.N, condReset (grid0.coords t) ↔ t.val % 3 = 0 :=
  (by decide +kernel : ∀ t : Fin grid0.N, condReset (grid0.coords t) ↔ t.val % 3 = 0)

/-- The output is stored: the summed-tile coordinate is the last, 2. -/
abbrev condLast (i : grid0.Coords) : Prop := k0_cond2 i = 1#1
/-- It holds exactly at the points ≡ 2 (mod 3). -/
theorem hcondLast : ∀ t : Fin cfg0.N, condLast (grid0.coords t) ↔ t.val % 3 = 2 :=
  (by decide +kernel : ∀ t : Fin grid0.N, condLast (grid0.coords t) ↔ t.val % 3 = 2)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from the last summed tile the output window is idle … -/
theorem idle_2 : ∀ t : Fin cfg0.N, ¬condLast (grid0.coords t) → cfg0.idle 2 (grid0.coords t) = true := by decide +kernel
/-- … and is not written back. -/
theorem noFlush_2 : ∀ t : Fin cfg0.N, ¬condLast (grid0.coords t) → (cfg0.win 2).flush t = false := by decide +kernel
/-- At the last summed tile it is live. -/
theorem live_2 : ∀ t : Fin cfg0.N, condLast (grid0.coords t) → cfg0.idle 2 (grid0.coords t) = false := by decide +kernel

/-! ## The memrefs the body is called with -/

abbrev ms0 (t : Fin cfg0.N) : Memref sig .tc .vmem S1x1000x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1000x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1000x2 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev scM : Memref sig .tc .vmem S1000x2 .f32 := Memref.whole cc0_scratch0
abbrev VS : View sig .tc .vmem S1000x2 .f32 := (scM).view
/-- One staging buffer of the output window, through which its contents are stated. -/
abbrev VO : View sig .tc .vmem S1x1000x2 .f32 := (Memref.whole cc0_stg2_0 : Memref sig .tc .vmem S1x1000x2 .f32).view

/-! ## The input windows' blocks, at a parameter: the arrays as the region finds them -/

variable (V : (c : Dev nD) → (b : Ref sig .tc) → Buf (Elt F) ((c : Thread nD τ).loc b))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scaled point set's window holds its block at every point, fetched there or not (it is fetched when the
    summed tile restarts, and its index does not move in between). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The summed point set's window likewise (it is fetched at every point). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand.Reg0

end
-- ==== Proof.Reg0RunA.lean ====
/-
  Pallas call 0, case A (the summed tile restarts): the body's triple. On whole staging memrefs — the two input
  blocks at their contents, the output window's buffer at contents handed back untouched, the accumulator at
  anything — the body runs to the continuation with the inputs as they were and the accumulator holding its
  stores' pieces (the zero splat, then the zero read back plus this tile pair's partial sums). The pieces are the
  witness the symbolic run finds.
-/
import proofs.«137931_j47287589929003_1_alg».proof.Proof.Reg0Common

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunA (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__geo_embed_kernel i arg3 harg3 arg4 harg4 arg5 harg5 arg6 harg6) K } := by
  refine ⟨?_, fun xi2 E K => ?run⟩
  case run =>
    simp only [cc0__geo_embed_kernel_eq_skeleton]; unfold cc0__geo_embed_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand.Reg0

end
-- ==== Proof.Reg0RunB.lean ====
/-
  Pallas call 0, case B (a middle summed tile): the body's triple. The accumulator is handed over at the contents
  the point before left and comes back holding its one store's piece: those contents plus this tile pair's partial
  sums. The output window's buffer is handed back untouched.
-/
import proofs.«137931_j47287589929003_1_alg».proof.Proof.Reg0Common

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunB (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0__geo_embed_kernel i arg3 harg3 arg4 harg4 arg5 harg5 arg6 harg6) K } := by
  refine ⟨?_, fun xi2 E K => ?run⟩
  case run =>
    simp only [cc0__geo_embed_kernel_eq_skeleton]; unfold cc0__geo_embed_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand.Reg0

end
-- ==== Proof.Reg0RunC.lean ====
/-
  Pallas call 0, case C (the last summed tile): the body's triple. The accumulator is handed over at the contents
  the point before left and comes back holding those contents plus this tile pair's partial sums; the output
  window's buffer, handed over at anything, comes back holding its one store's piece: the scaled block times the
  accumulator just read back.
-/
import proofs.«137931_j47287589929003_1_alg».proof.Proof.Reg0Common

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    Σ' (L2 : List (View.Piece (Elt F) S1x1000x2 .f32)), { LS : List (View.Piece (Elt F) S1000x2 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__geo_embed_kernel i arg3 harg3 arg4 harg4 arg5 harg5 arg6 harg6) K } := by
  refine ⟨?_, ?_, fun E K => ?run⟩
  case run =>
    simp only [cc0__geo_embed_kernel_eq_skeleton]; unfold cc0__geo_embed_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand.Reg0

end
-- ==== Proof.Reg0Data.lean ====
/-
  Pallas call 0: what the accumulator and the output window hold after each grid point, the region's invariant,
  its proof data and the body obligation.

  After point t the accumulator holds: at a point of case A the reset-and-add result of the point's two input
  blocks; at a point of case B or C the add result over what the point before left. The output window's buffer
  holds, at a point of case C, the scaled block times the accumulator; elsewhere it is idle. The invariant before
  the first point is the class's (every scoped buffer at anything, the generator register at some state); before
  any later point it has the accumulator at what the point before left. Nothing is owed; shares are full.
-/
import proofs.«137931_j47287589929003_1_alg».proof.Proof.Reg0RunA
import proofs.«137931_j47287589929003_1_alg».proof.Proof.Reg0RunB
import proofs.«137931_j47287589929003_1_alg».proof.Proof.Reg0RunC

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The class's invariant, opened around the accumulator -/

/-- The core's scoped buffers other than this call's staging buffers and accumulator (the other call's), each
    whole at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class's invariant is the accumulator at some contents beside the rest and the generator register. -/
theorem PhiA_eq (c : Dev nD) :
    (Pipeline.ΦA spec0 c : sProp 𝕄)
      = iprop(iprop((∃ d, owns (c : Thread nD τ) scM fullShare d) ∗ restScoped (F := F) c) ∗ (∃ r, prngReg c r)) := by
  unfold Pipeline.ΦA restScoped
  rw [show (Pipeline.scopedRest (Ix := Unit) (Name := ℕ) (U := UR sig nD τ) (Lvl := ℕ) (Val := Elt F) spec0 c : sProp 𝕄)
      = _ from Pipeline.scopedRest_eq_of_list spec0 c [cc0_scratch0, cc1_stg0_0, cc1_stg0_1, cc1_stg1_0, cc1_stg1_1, cc1_stg2_0, cc1_stg2_1, cc1_scratch0] (by decide) (by decide)]
  simp only [scM, owns_whole]; try rfl

/-! ## What each case leaves -/

/-- The placeholder for the output window's buffer at a point where it is idle: nothing consults it. -/
def outIdle : Vec F S1x1000x2 .f32 := VO.read (Elt F) (VO.writes (Elt F) VO.junk [])

theorem scoverA (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) (y : S1000x2.Idx) :
    ∃ pc ∈ (kernelRunA c i arg3 harg3 arg4 harg4 arg5 harg5 arg6 harg6 hc1 hc2 x0 x1).1, y ∈ pc.1.set :=
  View.cover_of_tiledL (kernelRunA c i arg3 harg3 arg4 harg4 arg5 harg5 arg6 harg6 hc1 hc2 x0 x1).1 S1000x2.size (by sl_kernel_rfl) y

/-- What case A leaves in the accumulator: its pieces read back. -/
def soutA (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) : Vec F S1000x2 .f32 :=
  VS.read (Elt F) (VS.writes (Elt F) VS.junk (kernelRunA c i arg3 harg3 arg4 harg4 arg5 harg5 arg6 harg6 hc1 hc2 x0 x1).1)

theorem scoverB (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) (y : S1000x2.Idx) :
    ∃ pc ∈ (kernelRunB c i arg3 harg3 arg4 harg4 arg5 harg5 arg6 harg6 hc1 hc2 x0 x1 xs).1, y ∈ pc.1.set :=
  View.cover_of_tiledL (kernelRunB c i arg3 harg3 arg4 harg4 arg5 harg5 arg6 harg6 hc1 hc2 x0 x1 xs).1 S1000x2.size (by sl_kernel_rfl) y

/-- What case B leaves in the accumulator. -/
def soutB (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) : Vec F S1000x2 .f32 :=
  VS.read (Elt F) (VS.writes (Elt F) VS.junk (kernelRunB c i arg3 harg3 arg4 harg4 arg5 harg5 arg6 harg6 hc1 hc2 x0 x1 xs).1)

theorem scoverC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1000x2.Idx) :
    ∃ pc ∈ (kernelRunC c i arg3 harg3 arg4 harg4 arg5 harg5 arg6 harg6 hc1 hc2 x0 x1 xs).2.1, y ∈ pc.1.set :=
  View.cover_of_tiledL (kernelRunC c i arg3 harg3 arg4 harg4 arg5 harg5 arg6 harg6 hc1 hc2 x0 x1 xs).2.1 S1000x2.size (by sl_kernel_rfl) y

/-- What case C leaves in the accumulator. -/
def soutC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1000x2 .f32 :=
  VS.read (Elt F) (VS.writes (Elt F) VS.junk (kernelRunC c i arg3 harg3 arg4 harg4 arg5 harg5 arg6 harg6 hc1 hc2 x0 x1 xs).2.1)

theorem coverC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1x1000x2.Idx) :
    ∃ pc ∈ (kernelRunC c i arg3 harg3 arg4 harg4 arg5 harg5 arg6 harg6 hc1 hc2 x0 x1 xs).1, y ∈ pc.1.set :=
  View.cover_of_tiledL (kernelRunC c i arg3 harg3 arg4 harg4 arg5 harg5 arg6 harg6 hc1 hc2 x0 x1 xs).1 S1x1000x2.size (by sl_kernel_rfl) y

/-- What case C leaves in the output window's buffer. -/
def outC (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1x1000x2 .f32 :=
  VO.read (Elt F) (VO.writes (Elt F) VO.junk (kernelRunC c i arg3 harg3 arg4 harg4 arg5 harg5 arg6 harg6 hc1 hc2 x0 x1 xs).1)

/-! ## Point by point -/

variable (V : (c : Dev nD) → (b : Ref sig .tc) → Buf (Elt F) ((c : Thread nD τ).loc b))

theorem not_last_of_reset (t : Fin cfg0.N) (h0 : t.val % 3 = 0) : ¬condLast (grid0.coords t) :=
  fun h => by have := (hcondLast t).mp h; omega
theorem not_reset_of (t : Fin cfg0.N) (h0 : ¬t.val % 3 = 0) : ¬condReset (grid0.coords t) :=
  fun h => h0 ((hcondReset t).mp h)
theorem not_last_of (t : Fin cfg0.N) (h2 : ¬t.val % 3 = 2) : ¬condLast (grid0.coords t) :=
  fun h => h2 ((hcondLast t).mp h)

/-- THE ACCUMULATION: the accumulator after the body at position `n`, by recursion on the position. -/
def accAt (c : Dev nD) : (n : ℕ) → n < cfg0.N → Vec F S1000x2 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondReset ⟨0, hn⟩).mpr (Nat.zero_mod _)) (not_last_of_reset ⟨0, hn⟩ (Nat.zero_mod _)) (iblk V c 0 ⟨0, hn⟩) (iblk V c 1 ⟨0, hn⟩)
  | n + 1, hn =>
    if h0 : (n + 1) % 3 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondReset ⟨n + 1, hn⟩).mpr h0) (not_last_of_reset ⟨n + 1, hn⟩ h0) (iblk V c 0 ⟨n + 1, hn⟩) (iblk V c 1 ⟨n + 1, hn⟩)
    else
      if h2 : (n + 1) % 3 = 2 then
        soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) ((hcondLast ⟨n + 1, hn⟩).mpr h2) (iblk V c 0 ⟨n + 1, hn⟩) (iblk V c 1 ⟨n + 1, hn⟩) (accAt c n (Nat.lt_of_succ_lt hn))
      else
        soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) (not_last_of ⟨n + 1, hn⟩ h2) (iblk V c 0 ⟨n + 1, hn⟩) (iblk V c 1 ⟨n + 1, hn⟩) (accAt c n (Nat.lt_of_succ_lt hn))

theorem accAt_A (c : Dev nD) (t : Fin cfg0.N) (h0 : t.val % 3 = 0) :
    accAt V c t.val t.isLt = soutA c (grid0.coords t) (ms0 t) (hs0 t) (ms1 t) (hs1 t) (ms2 t) (hs2 t) scM (Memref.isWhole_whole _) ((hcondReset t).mpr h0) (not_last_of_reset t h0) (iblk V c 0 t) (iblk V c 1 t) := by
  obtain ⟨n, hn⟩ := t
  cases n with
  | zero => exact rfl
  | succ n => exact (dif_pos h0).trans rfl

theorem accAt_B (c : Dev nD) (t : Fin cfg0.N) (h0 : ¬t.val % 3 = 0) (h2 : ¬t.val % 3 = 2) :
    accAt V c t.val t.isLt = soutB c (grid0.coords t) (ms0 t) (hs0 t) (ms1 t) (hs1 t) (ms2 t) (hs2 t) scM (Memref.isWhole_whole _) (not_reset_of t h0) (not_last_of t h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)

theorem accAt_C (c : Dev nD) (t : Fin cfg0.N) (h0 : ¬t.val % 3 = 0) (h2 : t.val % 3 = 2) :
    accAt V c t.val t.isLt = soutC c (grid0.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- The output window's buffer after the body at point `t`: the scaled block times the accumulator at a point of
    case C, the placeholder elsewhere. -/
def outAt (c : Dev nD) (t : Fin cfg0.N) : Vec F S1x1000x2 .f32 :=
  if h2 : t.val % 3 = 2 then
    outC c (grid0.coords t) (ms0 t) (hs0 t) (ms1 t) (hs1 t) (ms2 t) (hs2 t) scM (Memref.isWhole_whole _) (not_reset_of t (by omega)) ((hcondLast t).mpr h2) (iblk V c 0 t) (iblk V c 1 t) (accAt V c (t.val - 1) (Nat.lt_of_le_of_lt (Nat.sub_le _ _) t.isLt))
  else outIdle

theorem outAt_C (c : Dev nD) (t : Fin cfg0.N) (h0 : ¬t.val % 3 = 0) (h2 : t.val % 3 = 2) :
    outAt V c t = outC c (grid0.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) :=
  (dif_pos h2).trans rfl

/-! ## The region's invariant -/

def PhiS (c : Dev nD) : (n : ℕ) → n ≤ cfg0.N → sProp 𝕄
  | 0, _ => Pipeline.ΦA spec0 c
  | n + 1, hn => iprop(iprop(owns (c : Thread nD τ) scM fullShare (accAt V c n hn) ∗ restScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restScoped (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restScoped (F := F) c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outAt V c t := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg0.N) :
    (dat V c).leavesExact 0 t = owns (c : Thread nD τ) (ms0 t) fullShare (iblk V c 0 t) := by
  unfold Dat.leavesExact; rw [live_0 t, after_0]; try rfl
theorem leaves_1 (c : Dev nD) (t : Fin cfg0.N) :
    (dat V c).leavesExact 1 t = owns (c : Thread nD τ) (ms1 t) fullShare (iblk V c 1 t) := by
  unfold Dat.leavesExact; rw [live_1 t, after_1]; try rfl

set_option maxHeartbeats 4800000 in
/-- The body at any point: the inputs' memrefs hold their blocks; the point's coordinate says which case it is in;
    the invariant hands the body the accumulator (at anything before the first point, else at what the point before
    left) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 36 := lt_of_lt_of_eq t.isLt (show cfg0.N = 36 from N_0)
  by_cases h0 : t.val % 3 = 0
  · have hnl : ¬condLast (grid0.coords t) := not_last_of_reset t h0
    rw [Dat.leavesExact_idle (dat V c) 2 t (idle_2 t hnl) (noFlush_2 t hnl)]
    rw [accAt_A V c t h0]
    unfold soutA; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRunA c (grid0.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, Hrest⟩, Hg⟩, Ho, ⟨%d0, H0⟩, ⟨%d1, H1⟩, ⟨%d2, H2⟩⟩
      iapply ((kernelRunA c (grid0.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    have hnr : ¬condReset (grid0.coords t) := not_reset_of t h0
    by_cases h2 : t.val % 3 = 2
    · have hl : condLast (grid0.coords t) := (hcondLast t).mpr h2
      rw [show (dat V c).leavesExact 2 t = owns (c : Thread nD τ) (ms2 t) fullShare ((dat V c).after 2 t) from by
        unfold Dat.leavesExact; rw [live_2 t hl], after_2]
      rw [accAt_C V c t h0 h2, outAt_C V c t h0 h2]
      unfold outC soutC; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunC c (grid0.coords t) _ _ _ _ _ _ _ _ hnr hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hnl : ¬condLast (grid0.coords t) := not_last_of t h2
      rw [Dat.leavesExact_idle (dat V c) 2 t (idle_2 t hnl) (noFlush_2 t hnl)]
      rw [accAt_B V c t h0 h2]
      unfold soutB; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunB c (grid0.coords t) _ _ _ _ _ _ _ _ hnr hnl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverB c _ _ _ _ _ _ _ _ _ _ _ _ _ _)
          iexact Hrest
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

/-! ## The invariant at the region's two ends -/

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  have hne : (Fin.last cfg0.N).val ≠ 0 := by rw [Fin.val_last]; have : cfg0.N = 36 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hrest⟩, Hg⟩
  isplitl [HS Hrest]
  · isplitl [HS]
    · iexists _; iexact HS
    iexact Hrest
  iexact Hg

end Cert.KernelIdeal.Hand.Reg0

end
-- ==== Proof.Reg1Common.lean ====
/-
  Pallas call 1 (the embedding of the second point set against the first): what its three per-point cases share.

  The grid is (batch, tile of the scaled point set, tile of the summed point set) = (4, 3, 3), walked in row-major
  order, so point t has summed-tile coordinate t mod 3. The body resets its accumulator when that coordinate is 0,
  adds the tile pair's partial sums at every point, and stores the scaled block into the output window when it is 2.
  So a point is in exactly one of three cases: A (coordinate 0: reset, then add), B (coordinate 1: add),
  C (coordinate 2: add, then store the output). The output window is idle, and not written back, in cases A and B.
-/
import proofs.«137931_j47287589929003_1_alg».proof.Proof.Gen.KernelIdeal.Launch
import proofs.«137931_j47287589929003_1_alg».proof.Proof.Gen.KernelIdeal.Skeleton
import proofs.«137931_j47287589929003_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, as functions of the grid point -/

/-- The accumulator is reset: the summed-tile coordinate is 0. -/
abbrev condReset (i : grid1.Coords) : Prop :=
  (Scalar.cmpi .ne (Scalar.extui (Scalar.cmpi .eq (BitVec.ofNat 32 (i 2).val) 0#32)) 0#32) = 1#1
/-- It holds exactly at the points ≡ 0 (mod 3). -/
theorem hcondReset : ∀ t : Fin cfg1.N, condReset (grid1.coords t) ↔ t.val % 3 = 0 :=
  (by decide +kernel : ∀ t : Fin grid1.N, condReset (grid1.coords t) ↔ t.val % 3 = 0)

/-- The output is stored: the summed-tile coordinate is the last, 2. -/
abbrev condLast (i : grid1.Coords) : Prop := k1_cond2 i = 1#1
/-- It holds exactly at the points ≡ 2 (mod 3). -/
theorem hcondLast : ∀ t : Fin cfg1.N, condLast (grid1.coords t) ↔ t.val % 3 = 2 :=
  (by decide +kernel : ∀ t : Fin grid1.N, condLast (grid1.coords t) ↔ t.val % 3 = 2)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
/-- Away from the last summed tile the output window is idle … -/
theorem idle_2 : ∀ t : Fin cfg1.N, ¬condLast (grid1.coords t) → cfg1.idle 2 (grid1.coords t) = true := by decide +kernel
/-- … and is not written back. -/
theorem noFlush_2 : ∀ t : Fin cfg1.N, ¬condLast (grid1.coords t) → (cfg1.win 2).flush t = false := by decide +kernel
/-- At the last summed tile it is live. -/
theorem live_2 : ∀ t : Fin cfg1.N, condLast (grid1.coords t) → cfg1.idle 2 (grid1.coords t) = false := by decide +kernel

/-! ## The memrefs the body is called with -/

abbrev ms0 (t : Fin cfg1.N) : Memref sig .tc .vmem S1x1000x2 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1000x2 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1000x2 .f32 := win1_2.stage (cfg1.slots t 2)
abbrev hs2 (t : Fin cfg1.N) : (ms2 t).IsWhole := hstage1_2 ((cfg1.slots t 2).cast nbuf1_2)
/-- The accumulator: a whole scoped buffer of the kernel's own, carried from point to point. -/
abbrev scM : Memref sig .tc .vmem S1000x2 .f32 := Memref.whole cc1_scratch0
abbrev VS : View sig .tc .vmem S1000x2 .f32 := (scM).view
/-- One staging buffer of the output window, through which its contents are stated. -/
abbrev VO : View sig .tc .vmem S1x1000x2 .f32 := (Memref.whole cc1_stg2_0 : Memref sig .tc .vmem S1x1000x2 .f32).view

/-! ## The input windows' blocks, at a parameter: the arrays as the region finds them -/

variable (V : (c : Dev nD) → (b : Ref sig .tc) → Buf (Elt F) ((c : Thread nD τ).loc b))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scaled point set's window holds its block at every point, fetched there or not (it is fetched when the
    summed tile restarts, and its index does not move in between). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The summed point set's window likewise (it is fetched at every point). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand.Reg1

end
-- ==== Proof.Reg1RunA.lean ====
/-
  Pallas call 1, case A (the summed tile restarts): the body's triple. On whole staging memrefs — the two input
  blocks at their contents, the output window's buffer at contents handed back untouched, the accumulator at
  anything — the body runs to the continuation with the inputs as they were and the accumulator holding its
  stores' pieces (the zero splat, then the zero read back plus this tile pair's partial sums). The pieces are the
  witness the symbolic run finds.
-/
import proofs.«137931_j47287589929003_1_alg».proof.Proof.Reg1Common

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunA (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__geo_embed_kernel i arg3 harg3 arg4 harg4 arg5 harg5 arg6 harg6) K } := by
  refine ⟨?_, fun xi2 E K => ?run⟩
  case run =>
    simp only [cc1__geo_embed_kernel_eq_skeleton]; unfold cc1__geo_embed_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand.Reg1

end
-- ==== Proof.Reg1RunB.lean ====
/-
  Pallas call 1, case B (a middle summed tile): the body's triple. The accumulator is handed over at the contents
  the point before left and comes back holding its one store's piece: those contents plus this tile pair's partial
  sums. The output window's buffer is handed back untouched.
-/
import proofs.«137931_j47287589929003_1_alg».proof.Proof.Reg1Common

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunB (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) :
    { LS : List (View.Piece (Elt F) S1000x2 .f32) //
      ∀ (xi2 : Vec F S1x1000x2 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__geo_embed_kernel i arg3 harg3 arg4 harg4 arg5 harg5 arg6 harg6) K } := by
  refine ⟨?_, fun xi2 E K => ?run⟩
  case run =>
    simp only [cc1__geo_embed_kernel_eq_skeleton]; unfold cc1__geo_embed_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand.Reg1

end
-- ==== Proof.Reg1RunC.lean ====
/-
  Pallas call 1, case C (the last summed tile): the body's triple. The accumulator is handed over at the contents
  the point before left and comes back holding those contents plus this tile pair's partial sums; the output
  window's buffer, handed over at anything, comes back holding its one store's piece: the scaled block times the
  accumulator just read back.
-/
import proofs.«137931_j47287589929003_1_alg».proof.Proof.Reg1Common

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    Σ' (L2 : List (View.Piece (Elt F) S1x1000x2 .f32)), { LS : List (View.Piece (Elt F) S1000x2 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__geo_embed_kernel i arg3 harg3 arg4 harg4 arg5 harg5 arg6 harg6) K } := by
  refine ⟨?_, ?_, fun E K => ?run⟩
  case run =>
    simp only [cc1__geo_embed_kernel_eq_skeleton]; unfold cc1__geo_embed_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand.Reg1

end
-- ==== Proof.Reg1Data.lean ====
/-
  Pallas call 1: what the accumulator and the output window hold after each grid point, the region's invariant,
  its proof data and the body obligation.

  After point t the accumulator holds: at a point of case A the reset-and-add result of the point's two input
  blocks; at a point of case B or C the add result over what the point before left. The output window's buffer
  holds, at a point of case C, the scaled block times the accumulator; elsewhere it is idle. The invariant before
  the first point is the class's (every scoped buffer at anything, the generator register at some state); before
  any later point it has the accumulator at what the point before left. Nothing is owed; shares are full.
-/
import proofs.«137931_j47287589929003_1_alg».proof.Proof.Reg1RunA
import proofs.«137931_j47287589929003_1_alg».proof.Proof.Reg1RunB
import proofs.«137931_j47287589929003_1_alg».proof.Proof.Reg1RunC

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The class's invariant, opened around the accumulator -/

/-- The core's scoped buffers other than this call's staging buffers and accumulator (the other call's), each
    whole at some contents. -/
def restScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class's invariant is the accumulator at some contents beside the rest and the generator register. -/
theorem PhiA_eq (c : Dev nD) :
    (Pipeline.ΦA spec1 c : sProp 𝕄)
      = iprop(iprop((∃ d, owns (c : Thread nD τ) scM fullShare d) ∗ restScoped (F := F) c) ∗ (∃ r, prngReg c r)) := by
  unfold Pipeline.ΦA restScoped
  rw [show (Pipeline.scopedRest (Ix := Unit) (Name := ℕ) (U := UR sig nD τ) (Lvl := ℕ) (Val := Elt F) spec1 c : sProp 𝕄)
      = _ from Pipeline.scopedRest_eq_of_list spec1 c [cc1_scratch0, cc0_stg0_0, cc0_stg0_1, cc0_stg1_0, cc0_stg1_1, cc0_stg2_0, cc0_stg2_1, cc0_scratch0] (by decide) (by decide)]
  simp only [scM, owns_whole]; try rfl

/-! ## What each case leaves -/

/-- The placeholder for the output window's buffer at a point where it is idle: nothing consults it. -/
def outIdle : Vec F S1x1000x2 .f32 := VO.read (Elt F) (VO.writes (Elt F) VO.junk [])

theorem scoverA (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) (y : S1000x2.Idx) :
    ∃ pc ∈ (kernelRunA c i arg3 harg3 arg4 harg4 arg5 harg5 arg6 harg6 hc1 hc2 x0 x1).1, y ∈ pc.1.set :=
  View.cover_of_tiledL (kernelRunA c i arg3 harg3 arg4 harg4 arg5 harg5 arg6 harg6 hc1 hc2 x0 x1).1 S1000x2.size (by sl_kernel_rfl) y

/-- What case A leaves in the accumulator: its pieces read back. -/
def soutA (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) : Vec F S1000x2 .f32 :=
  VS.read (Elt F) (VS.writes (Elt F) VS.junk (kernelRunA c i arg3 harg3 arg4 harg4 arg5 harg5 arg6 harg6 hc1 hc2 x0 x1).1)

theorem scoverB (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) (y : S1000x2.Idx) :
    ∃ pc ∈ (kernelRunB c i arg3 harg3 arg4 harg4 arg5 harg5 arg6 harg6 hc1 hc2 x0 x1 xs).1, y ∈ pc.1.set :=
  View.cover_of_tiledL (kernelRunB c i arg3 harg3 arg4 harg4 arg5 harg5 arg6 harg6 hc1 hc2 x0 x1 xs).1 S1000x2.size (by sl_kernel_rfl) y

/-- What case B leaves in the accumulator. -/
def soutB (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) : Vec F S1000x2 .f32 :=
  VS.read (Elt F) (VS.writes (Elt F) VS.junk (kernelRunB c i arg3 harg3 arg4 harg4 arg5 harg5 arg6 harg6 hc1 hc2 x0 x1 xs).1)

theorem scoverC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1000x2.Idx) :
    ∃ pc ∈ (kernelRunC c i arg3 harg3 arg4 harg4 arg5 harg5 arg6 harg6 hc1 hc2 x0 x1 xs).2.1, y ∈ pc.1.set :=
  View.cover_of_tiledL (kernelRunC c i arg3 harg3 arg4 harg4 arg5 harg5 arg6 harg6 hc1 hc2 x0 x1 xs).2.1 S1000x2.size (by sl_kernel_rfl) y

/-- What case C leaves in the accumulator. -/
def soutC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1000x2 .f32 :=
  VS.read (Elt F) (VS.writes (Elt F) VS.junk (kernelRunC c i arg3 harg3 arg4 harg4 arg5 harg5 arg6 harg6 hc1 hc2 x0 x1 xs).2.1)

theorem coverC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) (y : S1x1000x2.Idx) :
    ∃ pc ∈ (kernelRunC c i arg3 harg3 arg4 harg4 arg5 harg5 arg6 harg6 hc1 hc2 x0 x1 xs).1, y ∈ pc.1.set :=
  View.cover_of_tiledL (kernelRunC c i arg3 harg3 arg4 harg4 arg5 harg5 arg6 harg6 hc1 hc2 x0 x1 xs).1 S1x1000x2.size (by sl_kernel_rfl) y

/-- What case C leaves in the output window's buffer. -/
def outC (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) : Vec F S1x1000x2 .f32 :=
  VO.read (Elt F) (VO.writes (Elt F) VO.junk (kernelRunC c i arg3 harg3 arg4 harg4 arg5 harg5 arg6 harg6 hc1 hc2 x0 x1 xs).1)

/-! ## Point by point -/

variable (V : (c : Dev nD) → (b : Ref sig .tc) → Buf (Elt F) ((c : Thread nD τ).loc b))

theorem not_last_of_reset (t : Fin cfg1.N) (h0 : t.val % 3 = 0) : ¬condLast (grid1.coords t) :=
  fun h => by have := (hcondLast t).mp h; omega
theorem not_reset_of (t : Fin cfg1.N) (h0 : ¬t.val % 3 = 0) : ¬condReset (grid1.coords t) :=
  fun h => h0 ((hcondReset t).mp h)
theorem not_last_of (t : Fin cfg1.N) (h2 : ¬t.val % 3 = 2) : ¬condLast (grid1.coords t) :=
  fun h => h2 ((hcondLast t).mp h)

/-- THE ACCUMULATION: the accumulator after the body at position `n`, by recursion on the position. -/
def accAt (c : Dev nD) : (n : ℕ) → n < cfg1.N → Vec F S1000x2 .f32
  | 0, hn => soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondReset ⟨0, hn⟩).mpr (Nat.zero_mod _)) (not_last_of_reset ⟨0, hn⟩ (Nat.zero_mod _)) (iblk V c 0 ⟨0, hn⟩) (iblk V c 1 ⟨0, hn⟩)
  | n + 1, hn =>
    if h0 : (n + 1) % 3 = 0 then
      soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondReset ⟨n + 1, hn⟩).mpr h0) (not_last_of_reset ⟨n + 1, hn⟩ h0) (iblk V c 0 ⟨n + 1, hn⟩) (iblk V c 1 ⟨n + 1, hn⟩)
    else
      if h2 : (n + 1) % 3 = 2 then
        soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) ((hcondLast ⟨n + 1, hn⟩).mpr h2) (iblk V c 0 ⟨n + 1, hn⟩) (iblk V c 1 ⟨n + 1, hn⟩) (accAt c n (Nat.lt_of_succ_lt hn))
      else
        soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (not_reset_of ⟨n + 1, hn⟩ h0) (not_last_of ⟨n + 1, hn⟩ h2) (iblk V c 0 ⟨n + 1, hn⟩) (iblk V c 1 ⟨n + 1, hn⟩) (accAt c n (Nat.lt_of_succ_lt hn))

theorem accAt_A (c : Dev nD) (t : Fin cfg1.N) (h0 : t.val % 3 = 0) :
    accAt V c t.val t.isLt = soutA c (grid1.coords t) (ms0 t) (hs0 t) (ms1 t) (hs1 t) (ms2 t) (hs2 t) scM (Memref.isWhole_whole _) ((hcondReset t).mpr h0) (not_last_of_reset t h0) (iblk V c 0 t) (iblk V c 1 t) := by
  obtain ⟨n, hn⟩ := t
  cases n with
  | zero => exact rfl
  | succ n => exact (dif_pos h0).trans rfl

theorem accAt_B (c : Dev nD) (t : Fin cfg1.N) (h0 : ¬t.val % 3 = 0) (h2 : ¬t.val % 3 = 2) :
    accAt V c t.val t.isLt = soutB c (grid1.coords t) (ms0 t) (hs0 t) (ms1 t) (hs1 t) (ms2 t) (hs2 t) scM (Memref.isWhole_whole _) (not_reset_of t h0) (not_last_of t h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h2).trans rfl)

theorem accAt_C (c : Dev nD) (t : Fin cfg1.N) (h0 : ¬t.val % 3 = 0) (h2 : t.val % 3 = 2) :
    accAt V c t.val t.isLt = soutC c (grid1.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h2).trans rfl)

/-- The output window's buffer after the body at point `t`: the scaled block times the accumulator at a point of
    case C, the placeholder elsewhere. -/
def outAt (c : Dev nD) (t : Fin cfg1.N) : Vec F S1x1000x2 .f32 :=
  if h2 : t.val % 3 = 2 then
    outC c (grid1.coords t) (ms0 t) (hs0 t) (ms1 t) (hs1 t) (ms2 t) (hs2 t) scM (Memref.isWhole_whole _) (not_reset_of t (by omega)) ((hcondLast t).mpr h2) (iblk V c 0 t) (iblk V c 1 t) (accAt V c (t.val - 1) (Nat.lt_of_le_of_lt (Nat.sub_le _ _) t.isLt))
  else outIdle

theorem outAt_C (c : Dev nD) (t : Fin cfg1.N) (h0 : ¬t.val % 3 = 0) (h2 : t.val % 3 = 2) :
    outAt V c t = outC c (grid1.coords t) (ms0 t) (hs0 t) (ms1 t) (hs1 t) (ms2 t) (hs2 t) scM (Memref.isWhole_whole _) (not_reset_of t h0) ((hcondLast t).mpr h2) (iblk V c 0 t) (iblk V c 1 t) (accAt V c (t.val - 1) (Nat.lt_of_le_of_lt (Nat.sub_le _ _) t.isLt)) :=
  (dif_pos h2).trans rfl

/-! ## The region's invariant -/

def PhiS (c : Dev nD) : (n : ℕ) → n ≤ cfg1.N → sProp 𝕄
  | 0, _ => Pipeline.ΦA spec1 c
  | n + 1, hn => iprop(iprop(owns (c : Thread nD τ) scM fullShare (accAt V c n hn) ∗ restScoped (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restScoped (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restScoped (F := F) c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outAt V c t := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) :
    (dat V c).leavesExact 0 t = owns (c : Thread nD τ) (ms0 t) fullShare (iblk V c 0 t) := by
  unfold Dat.leavesExact; rw [live_0 t, after_0]; try rfl
theorem leaves_1 (c : Dev nD) (t : Fin cfg1.N) :
    (dat V c).leavesExact 1 t = owns (c : Thread nD τ) (ms1 t) fullShare (iblk V c 1 t) := by
  unfold Dat.leavesExact; rw [live_1 t, after_1]; try rfl

set_option maxHeartbeats 4800000 in
/-- The body at any point: the inputs' memrefs hold their blocks; the point's coordinate says which case it is in;
    the invariant hands the body the accumulator (at anything before the first point, else at what the point before
    left) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ, leaves_0, leaves_1]
  have hN : t.val < 36 := lt_of_lt_of_eq t.isLt (show cfg1.N = 36 from N_1)
  by_cases h0 : t.val % 3 = 0
  · have hnl : ¬condLast (grid1.coords t) := not_last_of_reset t h0
    rw [Dat.leavesExact_idle (dat V c) 2 t (idle_2 t hnl) (noFlush_2 t hnl)]
    rw [accAt_A V c t h0]
    unfold soutA; (try dsimp only)
    by_cases hz : t.val = 0
    · rw [Phi_castSucc V c t, PhiS_zero V c _ _ hz, PhiA_eq]
      iintro ⟨⟨⟨HS, Hrest⟩, Hg⟩, Ho, ⟨%d0, H0⟩, ⟨%d1, H1⟩, ⟨%d2, H2⟩⟩
      iapply ((kernelRunA c (grid1.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
    · rw [Phi_castSucc V c t, PhiS_pos V c _ _ hz]
      iintro ⟨⟨⟨HS, Hrest⟩, Hg⟩, Ho, ⟨%d0, H0⟩, ⟨%d1, H1⟩, ⟨%d2, H2⟩⟩
      iapply ((kernelRunA c (grid1.coords t) _ _ _ _ _ _ _ _ ((hcondReset t).mpr h0) hnl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverA c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    have hnr : ¬condReset (grid1.coords t) := not_reset_of t h0
    by_cases h2 : t.val % 3 = 2
    · have hl : condLast (grid1.coords t) := (hcondLast t).mpr h2
      rw [show (dat V c).leavesExact 2 t = owns (c : Thread nD τ) (ms2 t) fullShare ((dat V c).after 2 t) from by
        unfold Dat.leavesExact; rw [live_2 t hl], after_2]
      rw [accAt_C V c t h0 h2, outAt_C V c t h0 h2]
      unfold outC soutC; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunC c (grid1.coords t) _ _ _ _ _ _ _ _ hnr hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scoverC c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hnl : ¬condLast (grid1.coords t) := not_last_of t h2
      rw [Dat.leavesExact_idle (dat V c) 2 t (idle_2 t hnl) (noFlush_2 t hnl)]
      rw [accAt_B V c t h0 h2]
      unfold soutB; (try dsimp only)
      rw [Phi_castSucc V c t, PhiS_pos V c _ _ hz]
      iintro ⟨⟨⟨HS, Hrest⟩, Hg⟩, Ho, ⟨%d0, H0⟩, ⟨%d1, H1⟩, ⟨%d2, H2⟩⟩
      iapply ((kernelRunB c (grid1.coords t) _ _ _ _ _ _ _ _ hnr hnl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scoverB c _ _ _ _ _ _ _ _ _ _ _ _ _ _)
          iexact Hrest
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W1, bigSep_W1]
  exact sound_body V c t

/-! ## The invariant at the region's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  have hne : (Fin.last cfg1.N).val ≠ 0 := by rw [Fin.val_last]; have : cfg1.N = 36 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨HS, Hrest⟩, Hg⟩
  isplitl [HS Hrest]
  · isplitl [HS]
    · iexists _; iexact HS
    iexact Hrest
  iexact Hg

end Cert.KernelIdeal.Hand.Reg1

end
-- ==== Proof.Run.lean ====
/-
  The whole program: two pallas calls in a row, no host operation between them. The first scales the first point
  set by its embedding sums against the second and writes the first result; the second does the same with the two
  point sets exchanged and writes the second result. Here: what every unscoped buffer holds at the two boundaries
  (after each call its three arrays are what the pipeline's write-backs leave, every other buffer is as it was),
  each call as a segment over the thread state "every unscoped buffer held at the boundary's contents, the
  generator register at some state, nothing owed", and the run: every weakly fair execution terminates, nothing
  faulting, and the final memory holds every unscoped buffer at the last boundary's contents. Read at the two
  argument arrays, which no call writes, that is the frame; read at the two results it names them.
-/
import proofs.«137931_j47287589929003_1_alg».proof.Proof.Reg0Data
import proofs.«137931_j47287589929003_1_alg».proof.Proof.Reg1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev W0 : Dev nD → Valuation τ sig (Elt F) := fun c b => m (c, b)
/-- The same read at the TensorCore's references: what the first call's proof data take. -/
abbrev E0 : (c : Dev nD) → (b : Ref sig .tc) → Buf (Elt F) ((c : Thread nD τ).loc b) := fun c b => W0 m c b
/-- After the first call: its arrays at what the pipeline leaves, every other buffer as launched. -/
def W1 (c : Dev nD) : Valuation τ sig (Elt F) :=
  Pipeline.withArrays spec0 c (W0 m c) fun w => (Reg0.dat (E0 m) c).arrAt w cfg0.N
theorem W1_arr (c : Dev nD) (w : Fin cfg0.W) :
    W1 m c (Proc.devRef .tc (Pipeline.arrRef spec0 w)) = (Reg0.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (Reg0.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the second call. -/
def W2 (c : Dev nD) : Valuation τ sig (Elt F) :=
  Pipeline.withArrays spec1 c (W1 m c) fun w => (Reg1.dat (E1 m) c).arrAt w cfg1.N
theorem W2_arr (c : Dev nD) (w : Fin cfg1.W) :
    W2 m c (Proc.devRef .tc (Pipeline.arrRef spec1 w)) = (Reg1.dat (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem hF1 (c : Dev nD) (w : Fin cfg1.W) : (Reg1.dat (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-! ## No call writes an argument; each result is written by one call -/

theorem W1_main_arg0 (c : Dev nD) : W1 m c (Proc.devRef .tc main_arg0) = m ((c : Thread nD τ).loc main_arg0) :=
  (W1_arr m c 0).trans (((Reg0.dat (E0 m) c).arrAt_in 0 rfl _).trans (Reg0.A_eq (E0 m) c 0))
theorem W1_main_arg1 (c : Dev nD) : W1 m c (Proc.devRef .tc main_arg1) = m ((c : Thread nD τ).loc main_arg1) :=
  (W1_arr m c 1).trans (((Reg0.dat (E0 m) c).arrAt_in 1 rfl _).trans (Reg0.A_eq (E0 m) c 1))
theorem W2_main_arg0 (c : Dev nD) : W2 m c (Proc.devRef .tc main_arg0) = m ((c : Thread nD τ).loc main_arg0) :=
  ((W2_arr m c 1).trans (((Reg1.dat (E1 m) c).arrAt_in 1 rfl _).trans (Reg1.A_eq (E1 m) c 1))).trans (W1_main_arg0 m c)
theorem W2_main_arg1 (c : Dev nD) : W2 m c (Proc.devRef .tc main_arg1) = m ((c : Thread nD τ).loc main_arg1) :=
  ((W2_arr m c 0).trans (((Reg1.dat (E1 m) c).arrAt_in 0 rfl _).trans (Reg1.A_eq (E1 m) c 0))).trans (W1_main_arg1 m c)
/-- The first result is what the first call's write-backs leave in its output array (the second call bypasses it). -/
theorem W2_main_v0 (c : Dev nD) : W2 m c (Proc.devRef .tc main_v0) = (Reg0.dat (E0 m) c).arrAt 2 cfg0.N :=
  (W2_of_ne m c main_v0 (by decide)).trans (W1_arr m c 2)
/-- The second result is what the second call's write-backs leave in its output array. -/
theorem W2_main_v1 (c : Dev nD) : W2 m c (Proc.devRef .tc main_v1) = (Reg1.dat (E1 m) c).arrAt 2 cfg1.N :=
  W2_arr m c 2

/-! ## The proof data family and the thread state -/

abbrev adm : (p : Fin 2) → (pcfgs (F := F) p).Adm := fun p => (cfgs p).toPCfg_adm
/-- Both calls' proof data, each at its call's entry contents: a literal match on the call's number. -/
def pdats : (p : Fin 2) → (c : Dev nD) → Dat τ (Elt F) Unit ℕ (UR sig nD τ) ℕ (Pipeline.pin (pcfgs (F := F)) adm p) c
  | ⟨0, _⟩ => fun c => Reg0.dat (E0 m) c
  | ⟨1, _⟩ => fun c => Reg1.dat (E1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The calls as segments -/

/-- After its last point each call's invariant gives back the scoped buffers no window stages and the generator
    register (the class's invariant, spelt out). -/
theorem hout0' (c : Dev nD) : (Reg0.dat (E0 m) c).Φ (Fin.last cfg0.N)
    ⊢ (iprop(Pipeline.scopedRest (Ix := Unit) (Name := ℕ) (U := UR sig nD τ) (Lvl := ℕ) (Val := Elt F) spec0 c ∗ ∃ r, prngReg c r) : sProp 𝕄) :=
  Reg0.hout (E0 m) c
theorem hout1' (c : Dev nD) : (Reg1.dat (E1 m) c).Φ (Fin.last cfg1.N)
    ⊢ (iprop(Pipeline.scopedRest (Ix := Unit) (Name := ℕ) (U := UR sig nD τ) (Lvl := ℕ) (Val := Elt F) spec1 c ∗ ∃ r, prngReg c r) : sProp 𝕄) :=
  Reg1.hout (E1 m) c

-- a library lemma stated over the pinned configuration unifies with the printed one only when unification may
-- unfold plain definitions in a metavariable's type
set_option backward.isDefEq.respectTransparency.types false in
/-- Pallas call 0 as a segment of the program: entered with every unscoped buffer at the contents the segment
    before left, left with its three arrays at what the pipeline's write-backs leave and every other buffer as
    entered. Its arrays are split out of the unscoped buffers at entry and put back at exit; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat (E0 m) c).Φ 0 from rfl]
    iintro ⟨Hp, -, Hr⟩
    iapply (Reg0.hin (E0 m) c)
    unfold Pipeline.ΦA
    isplitl [Hr]; · iexact Hr
    iexact Hp
  hout c := by
    rw [Pipeline.ownSems0_none, show (pdats m 0 c).Φ (Fin.last _) = (Reg0.dat (E0 m) c).Φ (Fin.last cfg0.N) from rfl]
    iintro H
    ihave H' := (hout0' m c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Pallas call 1 as a segment of the program: entered with every unscoped buffer at the contents the segment
    before left, left with its three arrays at what the pipeline's write-backs leave and every other buffer as
    entered. Its arrays are split out of the unscoped buffers at entry and put back at exit; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat (E1 m) c).Φ 0 from rfl]
    iintro ⟨Hp, -, Hr⟩
    iapply (Reg1.hin (E1 m) c)
    unfold Pipeline.ΦA
    isplitl [Hr]; · iexact Hr
    iexact Hp
  hout c := by
    rw [Pipeline.ownSems0_none, show (pdats m 1 c).Φ (Fin.last _) = (Reg1.dat (E1 m) c).Φ (Fin.last cfg1.N) from rfl]
    iintro H
    ihave H' := (hout1' m c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME, at any float family: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_main_arg0 m c),
     (h c _ (mem_uc main_arg1 (by decide))).trans (W2_main_arg1 m c)⟩) (run_all m ρ)

/-- The run with both results named: each is what its call's write-backs leave in its output array. -/
theorem run_named : θ_run defs (onTc (τ := τ) (main (F := F))) ⟨m, fun _ => 0, ρ⟩ (fun r => ∀ c : Dev nD,
      r.2.mem ((c.tc : Thread nD τ).loc main_v0) = (Reg0.dat (E0 m) c).arrAt 2 cfg0.N
      ∧ r.2.mem ((c.tc : Thread nD τ).loc main_v1) = (Reg1.dat (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v0 (by decide))).trans (W2_main_v0 m c),
     (h c _ (mem_uc main_v1 (by decide))).trans (W2_main_v1 m c),
     (h c _ (mem_uc main_arg0 (by decide))).trans (W2_main_arg0 m c),
     (h c _ (mem_uc main_arg1 (by decide))).trans (W2_main_arg1 m c)⟩) (run_all m ρ)

end Cert.KernelIdeal.Hand

end
-- ==== Proof.Reg0Pieces.lean ====
/-
  Pallas call 0: what each case's stores leave, as the body's own arithmetic. The accumulator after a point of
  case A is the add step applied to the zero splat (the reset, read back); after a point of case B or C it is the
  add step applied to what the point before left; the output window's buffer after a point of case C is the scaled
  block times that just-updated accumulator.
-/
import proofs.«137931_j47287589929003_1_alg».proof.Proof.Reg0Data
import Idealize.ShloMosaic.Lib.Pipeline.Value

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
private theorem zeroOff2 : (![0, 0] : Fin 2 → Nat) = fun _ => 0 := funext fun a => by fin_cases a <;> rfl
/-- The zero offsets of a rank-3 rectangle, as the constant function. -/
private theorem zeroOff3 : (![0, 0, 0] : Fin 3 → Nat) = fun _ => 0 := funext fun a => by fin_cases a <;> rfl

/-- Case A leaves two whole-buffer pieces, the later on top: the zero splat, then the add step over the zero splat
    read back through the whole buffer. The later piece covers, so the contents are its payload; the load of the one
    earlier piece through the same rectangle is that piece's payload; the input loads read the whole blocks. -/
theorem soutA_eq (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) :
    soutA c i arg3 harg3 arg4 harg4 arg5 harg5 arg6 harg6 hc1 hc2 x0 x1 = k0_pay3 x0 x1 (k0_pay1 (F := F)) := by
  unfold soutA
  rw [View.read_writes_eq_canon _ _ _ (scoverA c i arg3 harg3 arg4 harg4 arg5 harg5 arg6 harg6 hc1 hc2 x0 x1)]
  unfold kernelRunA
  dsimp only
  sl_unfold_words
  rw [View.canon_cons_unit_zero (S := S1000x2) zeroOff2, View.readCov_unit_zero (S := S1000x2) _ zeroOff2]
  simp only [View.readAt_eq_ld, harg3.read_unread, harg4.read_unread, View.ld_unit_zero (S := S1x1000x2) zeroOff3]

/-- Case B leaves one whole-buffer piece: the add step over the accumulator as found, each of the three loads
    reading its whole buffer. -/
theorem soutB_eq (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) :
    soutB c i arg3 harg3 arg4 harg4 arg5 harg5 arg6 harg6 hc1 hc2 x0 x1 xs = k0_pay3 x0 x1 xs := by
  unfold soutB
  rw [View.read_writes_eq_canon _ _ _ (scoverB c i arg3 harg3 arg4 harg4 arg5 harg5 arg6 harg6 hc1 hc2 x0 x1 xs)]
  unfold kernelRunB
  dsimp only
  sl_unfold_words
  rw [View.canon_unit_zero (S := S1000x2) zeroOff2]
  simp only [View.readAt_eq_ld, harg3.read_unread, harg4.read_unread, harg6.read_unread,
    View.ld_unit_zero (S := S1x1000x2) zeroOff3, View.ld_unit_zero (S := S1000x2) zeroOff2]

/-- Case C leaves the same one piece in the accumulator as case B. -/
theorem soutC_eq (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    soutC c i arg3 harg3 arg4 harg4 arg5 harg5 arg6 harg6 hc1 hc2 x0 x1 xs = k0_pay3 x0 x1 xs := by
  unfold soutC
  rw [View.read_writes_eq_canon _ _ _ (scoverC c i arg3 harg3 arg4 harg4 arg5 harg5 arg6 harg6 hc1 hc2 x0 x1 xs)]
  unfold kernelRunC
  dsimp only
  sl_unfold_words
  rw [View.canon_unit_zero (S := S1000x2) zeroOff2]
  simp only [View.readAt_eq_ld, harg3.read_unread, harg4.read_unread, harg6.read_unread,
    View.ld_unit_zero (S := S1x1000x2) zeroOff3, View.ld_unit_zero (S := S1000x2) zeroOff2]

/-- Case C's output buffer holds one whole-buffer piece: the scaled block times the accumulator read back after its
    one store, which is that store's payload, the add step over the accumulator as found. -/
theorem outC_eq (c : Dev nD) (i : grid0.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    outC c i arg3 harg3 arg4 harg4 arg5 harg5 arg6 harg6 hc1 hc2 x0 x1 xs = k0_pay4 x0 (k0_pay3 x0 x1 xs) := by
  unfold outC
  rw [View.read_writes_eq_canon _ _ _ (coverC c i arg3 harg3 arg4 harg4 arg5 harg5 arg6 harg6 hc1 hc2 x0 x1 xs)]
  unfold kernelRunC
  dsimp only
  sl_unfold_words
  rw [View.canon_unit_zero (S := S1x1000x2) zeroOff3, View.readCov_unit_zero (S := S1000x2) _ zeroOff2]
  simp only [View.readAt_eq_ld, harg3.read_unread, harg4.read_unread, harg6.read_unread,
    View.ld_unit_zero (S := S1x1000x2) zeroOff3, View.ld_unit_zero (S := S1000x2) zeroOff2]

end Cert.KernelIdeal.Hand.Reg0

end
-- ==== Proof.Spec.lean ====
/-
  The mathematics both programs compute, stated once over the extended reals and over literal index types.

  For two point sets `a`, `b` (each a [4, 3000, 2] array: batch, point, coordinate) let
    dotp a b β n m = Σ_c a[β, n, c] · b[β, m, c]                the inner product of point n of `a` and point m of `b`,
    dist a b β n m = √(max (2 − 2 · dotp a b β n m) 0)          their distance on the unit sphere,
    emb  a b β n m = (sin (dist …), cos (dist …))               its two-component sinusoidal embedding.
  The result `K a b` scales each coordinate j of point n of `a` by the sum over ALL points m of `b` of the
  embedding's component j:   K a b [β, n, j] = a[β, n, j] · Σ_m emb a b β n m j.
  The first result of both programs is `K p0 p1`, the second `K p1 p0` (the inner product is symmetric).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A point set: batch × point × coordinate. -/
abbrev SArr : Shape := ⟨3, ![4, 3000, 2]⟩
abbrev Arr : Type := SArr.Idx → EReal

/-- The float literals of both programs, as the extended reals their patterns denote (never evaluated: the
    same word stands on both sides). -/
abbrev two : EReal := Ideal.ofBits .f32 0x40000000#32
abbrev zero : EReal := Ideal.ofBits .f32 0x00000000#32

/-- The inner product of point `n` of `a` and point `m` of `b` in batch `β`. -/
def dotp (a b : Arr) (β : Fin 4) (n m : Fin 3000) : EReal :=
  ∑ c : Fin 2, a (ix3 β n c) * b (ix3 β m c)

/-- The clamped chord distance √(max (2 − 2·⟨x, y⟩) 0). -/
def dist (a b : Arr) (β : Fin 4) (n m : Fin 3000) : EReal :=
  Ideal.sqrt (max (two - two * dotp a b β n m) zero)

/-- The embedding's component: sine for coordinate 0, cosine for coordinate 1. -/
def emb (a b : Arr) (β : Fin 4) (n m : Fin 3000) (j : Fin 2) : EReal :=
  if j.val = 0 then Ideal.sin (dist a b β n m) else Ideal.cos (dist a b β n m)

/-- The result at explicit coordinates. -/
def Kat (a b : Arr) (β : Fin 4) (n : Fin 3000) (j : Fin 2) : EReal :=
  a (ix3 β n j) * ∑ m : Fin 3000, emb a b β n m j

/-- The result array. -/
def K (a b : Arr) : Arr := fun i => Kat a b (i 0) (i 1) (i 2)

theorem K_ix3 (a b : Arr) (β : Fin 4) (n : Fin 3000) (j : Fin 2) : K a b (ix3 β n j) = Kat a b β n j := rfl

/-- Point `q` of tile `k` (tiles of 1000 points). -/
def tileIdx (k : Fin 3) (q : Fin 1000) : Fin 3000 := ⟨k.val * 1000 + q.val, by have := k.isLt; have := q.isLt; omega⟩

/-- A tile's partial sum of the embedding's component. -/
def part (a b : Arr) (β : Fin 4) (n : Fin 3000) (j : Fin 2) (k : Fin 3) : EReal :=
  ∑ q : Fin 1000, emb a b β n (tileIdx k q) j

/-- What the kernel's accumulator holds after the three tiles of the second point set: zero, then each tile's
    partial sum added in turn. -/
def acc3 (a b : Arr) (β : Fin 4) (n : Fin 3000) (j : Fin 2) : EReal :=
  ((zero + part a b β n j 0) + part a b β n j 1) + part a b β n j 2

/-! ## One block pair, as a kernel body sees it: a [1, 1000, 2] block of each point set -/

/-- A staged block of a point set: one batch, 1000 points, 2 coordinates. -/
abbrev SBlk : Shape := ⟨3, ![1, 1000, 2]⟩
/-- The accumulator: 1000 points, 2 components. -/
abbrev SAcc : Shape := ⟨2, ![1000, 2]⟩

/-- Distance of point `r` of block `x0` and point `q` of block `x1`. -/
def bdist (x0 x1 : SBlk.Idx → EReal) (r q : Fin 1000) : EReal :=
  Ideal.sqrt (max (two - two * ∑ c : Fin 2, x0 (ix3 0 r c) * x1 (ix3 0 q c)) zero)

/-- Its embedding's component. -/
def bemb (x0 x1 : SBlk.Idx → EReal) (r q : Fin 1000) (j : Fin 2) : EReal :=
  if j.val = 0 then Ideal.sin (bdist x0 x1 r q) else Ideal.cos (bdist x0 x1 r q)

/-- The block pair's partial sum for point `r`, component `j`. -/
def bpart (x0 x1 : SBlk.Idx → EReal) (r : Fin 1000) (j : Fin 2) : EReal :=
  ∑ q : Fin 1000, bemb x0 x1 r q j

end Cert.Spec

end
-- ==== Proof.Reg0Blocks.lean ====
/-
  Pallas call 0: the input windows' blocks read at an index. Grid point t (row-major over batch × scaled tile ×
  summed tile = 4 × 3 × 3) has batch t / 9, scaled tile (t / 3) mod 3 and summed tile t mod 3; the scaled point
  set's block holds rows [1000·tile, 1000·tile + 1000) of that batch, and so does the summed point set's.
-/
import proofs.«137931_j47287589929003_1_alg».proof.Proof.Reg0Data
import proofs.«137931_j47287589929003_1_alg».proof.Proof.Spec
import Idealize.ShloMosaic.Lib.Pipeline.Value
import Idealize.ShloMosaic.Lib.ValueIdx

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The two input blocks at a point and the two input arrays, named at their literal types. -/
abbrev blkA (c : Dev nD) (t : Fin cfg0.N) : Vec F S1x1000x2 .f32 := iblk V c 0 t
abbrev blkB (c : Dev nD) (t : Fin cfg0.N) : Vec F S1x1000x2 .f32 := iblk V c 1 t
abbrev arrA (c : Dev nD) : Vec F S4x3000x2 .f32 := V c (Pipeline.arrRef spec0 0)
abbrev arrB (c : Dev nD) : Vec F S4x3000x2 .f32 := V c (Pipeline.arrRef spec0 1)

/-- The batch, the scaled tile and the summed tile of grid point `t`. -/
def gBatch (t : Fin cfg0.N) : Fin 4 := ⟨t.val / 9, by have := t.isLt; have h : cfg0.N = 36 := N_0; omega⟩
def gRow (t : Fin cfg0.N) : Fin 3 := ⟨t.val / 3 % 3, Nat.mod_lt _ (by decide)⟩
def gSum (t : Fin cfg0.N) : Fin 3 := ⟨t.val % 3, Nat.mod_lt _ (by decide)⟩

/-- The scaled point set's block index at grid point `t`, axis by axis: (batch, scaled tile, 0). -/
theorem blkA_index (t : Fin cfg0.N) :
    win0_0.index t (0 : Fin 3) = t.val / 9 ∧ win0_0.index t (1 : Fin 3) = t.val / 3 % 3 ∧ win0_0.index t (2 : Fin 3) = 0 :=
  (by decide +kernel : ∀ t : Fin grid0.N,
    win0_0.index t (0 : Fin 3) = t.val / 9 ∧ win0_0.index t (1 : Fin 3) = t.val / 3 % 3 ∧ win0_0.index t (2 : Fin 3) = 0) t

/-- The summed point set's block index at grid point `t`, axis by axis: (batch, summed tile, 0). -/
theorem blkB_index (t : Fin cfg0.N) :
    win0_1.index t (0 : Fin 3) = t.val / 9 ∧ win0_1.index t (1 : Fin 3) = t.val % 3 ∧ win0_1.index t (2 : Fin 3) = 0 :=
  (by decide +kernel : ∀ t : Fin grid0.N,
    win0_1.index t (0 : Fin 3) = t.val / 9 ∧ win0_1.index t (1 : Fin 3) = t.val % 3 ∧ win0_1.index t (2 : Fin 3) = 0) t

/-- The scaled point set's block at point `t`, entry (0, r, j), is the array's entry (batch, 1000·tile + r, j). -/
theorem blkA_apply (c : Dev nD) (t : Fin cfg0.N) (r : Fin 1000) (j : Fin 2) :
    blkA V c t (ix3 (0 : Fin 1) r j) = arrA V c (ix3 (gBatch t) (Cert.Spec.tileIdx (gRow t) r) j) := by
  obtain ⟨h0, h1, h2⟩ := blkA_index t
  unfold blkA iblk
  rw [View.read_apply]
  show arrA V c _ = arrA V c _
  refine congrArg (arrA V c) (funext fun a => Fin.ext ?_)
  -- per axis: block index × block size + the entry's coordinate
  match a with
  | ⟨0, _⟩ => show win0_0.index t 0 * 1 + 1 * (0 : Fin 1).val = t.val / 9; rw [h0]; omega
  | ⟨1, _⟩ => show win0_0.index t 1 * 1000 + 1 * r.val = t.val / 3 % 3 * 1000 + r.val; rw [h1]; omega
  | ⟨2, _⟩ => show win0_0.index t 2 * 2 + 1 * j.val = j.val; rw [h2]; omega

/-- The summed point set's block likewise, at the summed tile. -/
theorem blkB_apply (c : Dev nD) (t : Fin cfg0.N) (q : Fin 1000) (j : Fin 2) :
    blkB V c t (ix3 (0 : Fin 1) q j) = arrB V c (ix3 (gBatch t) (Cert.Spec.tileIdx (gSum t) q) j) := by
  obtain ⟨h0, h1, h2⟩ := blkB_index t
  unfold blkB iblk
  rw [View.read_apply]
  show arrB V c _ = arrB V c _
  refine congrArg (arrB V c) (funext fun a => Fin.ext ?_)
  -- per axis: block index × block size + the entry's coordinate
  match a with
  | ⟨0, _⟩ => show win0_1.index t 0 * 1 + 1 * (0 : Fin 1).val = t.val / 9; rw [h0]; omega
  | ⟨1, _⟩ => show win0_1.index t 1 * 1000 + 1 * q.val = t.val % 3 * 1000 + q.val; rw [h1]; omega
  | ⟨2, _⟩ => show win0_1.index t 2 * 2 + 1 * j.val = j.val; rw [h2]; omega

end Cert.KernelIdeal.Hand.Reg0

end
-- ==== Proof.PayloadVal0.lean ====
/-
  The three values the kernel body stores, read at an index over the extended reals.

  The accumulator is first set to zero; then, for a block pair (x0, x1) of the two point sets, the body adds
  to the accumulator's entry (r, j) the sum over the 1000 points q of x1 of the embedding's component j of
  the distance between point r of x0 and point q of x1; last, the result block is x0 scaled entrywise by the
  accumulator.
-/
import proofs.«137931_j47287589929003_1_alg».proof.Proof.Spec
import proofs.«137931_j47287589929003_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadVal0

open Cert.KernelIdeal Cert.KernelIdeal.Gen Cert.Spec Idealize.ShloMosaic Idealize.ShloMosaic.ValueIdx

/-! ## The product's operand indices, axis by axis

The product contracts axis 1 of both operands and has no batch axis: at result index (r, q) and contraction
position k the left operand is read at (r, k) and the right operand at (q, k). -/

theorem lhs_dot_0 (i : S1000x1000.Idx) (q : dot_S1000x2_S1000x2_S1000x1000_1_1_0_0_n_n.contr.Idx) :
    (dot_S1000x2_S1000x2_S1000x1000_1_1_0_0_n_n.lhsIdx i q 0).val = (i 0).val := by
  unfold DotDims.lhsIdx
  rw [dif_neg (show ¬(0 : Fin S1000x2.rank) ∈ dot_S1000x2_S1000x2_S1000x1000_1_1_0_0_n_n.lhsBatch by decide), dif_pos (show (0 : Fin S1000x2.rank) ∈ dot_S1000x2_S1000x2_S1000x1000_1_1_0_0_n_n.lhsNonContracting by decide)]
  rfl
theorem lhs_dot_1 (i : S1000x1000.Idx) (q : dot_S1000x2_S1000x2_S1000x1000_1_1_0_0_n_n.contr.Idx) :
    (dot_S1000x2_S1000x2_S1000x1000_1_1_0_0_n_n.lhsIdx i q 1).val = (q ⟨0, by decide⟩).val :=
  dot_S1000x2_S1000x2_S1000x1000_1_1_0_0_n_n.lhsIdx_val_of_single rfl i q
theorem rhs_dot_0 (i : S1000x1000.Idx) (q : dot_S1000x2_S1000x2_S1000x1000_1_1_0_0_n_n.contr.Idx) :
    (dot_S1000x2_S1000x2_S1000x1000_1_1_0_0_n_n.rhsIdx i q 0).val = (i 1).val := by
  unfold DotDims.rhsIdx
  rw [dif_neg (show ¬(0 : Fin S1000x2.rank) ∈ dot_S1000x2_S1000x2_S1000x1000_1_1_0_0_n_n.rhsBatch by decide), dif_pos (show (0 : Fin S1000x2.rank) ∈ dot_S1000x2_S1000x2_S1000x1000_1_1_0_0_n_n.rhsNonContracting by decide)]
  rfl
theorem rhs_dot_1 (i : S1000x1000.Idx) (q : dot_S1000x2_S1000x2_S1000x1000_1_1_0_0_n_n.contr.Idx) :
    (dot_S1000x2_S1000x2_S1000x1000_1_1_0_0_n_n.rhsIdx i q 1).val = (q ⟨0, by decide⟩).val :=
  dot_S1000x2_S1000x2_S1000x1000_1_1_0_0_n_n.rhsIdx_val_of_single rfl i q

/-- The product A·Bᵀ into the zero accumulator, at (r, q): the inner product of row r of A and row q of B. -/
theorem matmul_at (A B : FVec Ideal S1000x2 .bf16) (r q : Fin 1000) :
    matmul dot_S1000x2_S1000x2_S1000x1000_1_1_0_0_n_n none A B (constant (F := Ideal) S1000x1000 .f32 0x00000000#32) (ix2 r q)
      = ∑ c : Fin 2, A (ix2 r c) * B (ix2 q c) := by
  simp only [matmul]
  rw [Ideal.matmul_constant_zero_apply, ← Equiv.sum_comp (ValueIdx.contrEquiv1 dot_S1000x2_S1000x2_S1000x1000_1_1_0_0_n_n 2 rfl rfl).symm]
  refine Finset.sum_congr rfl fun k _ => ?_
  have hk := ValueIdx.contrEquiv1_symm_val dot_S1000x2_S1000x2_S1000x1000_1_1_0_0_n_n 2 rfl rfl k
  have el : dot_S1000x2_S1000x2_S1000x1000_1_1_0_0_n_n.lhsIdx (ix2 r q) ((ValueIdx.contrEquiv1 dot_S1000x2_S1000x2_S1000x1000_1_1_0_0_n_n 2 rfl rfl).symm k) = ix2 r k := funext fun a => Fin.ext (by
    match a with
    | ⟨0, _⟩ => exact lhs_dot_0 _ _
    | ⟨1, _⟩ => exact (lhs_dot_1 _ _).trans hk)
  have er : dot_S1000x2_S1000x2_S1000x1000_1_1_0_0_n_n.rhsIdx (ix2 r q) ((ValueIdx.contrEquiv1 dot_S1000x2_S1000x2_S1000x1000_1_1_0_0_n_n 2 rfl rfl).symm k) = ix2 q k := funext fun a => Fin.ext (by
    match a with
    | ⟨0, _⟩ => exact rhs_dot_0 _ _
    | ⟨1, _⟩ => exact (rhs_dot_1 _ _).trans hk)
  rw [el, er]

/-! ## A row sum, a column cast, and the two-column concatenation, at an index -/

/-- The sum along axis 1 of a [1000, 1000] array, at r: the sum over q of the entries (r, q). -/
theorem rowSum_at (src : FVec Ideal S1000x1000 .f32) (h : S1000x1000.Reduces [1] S1000) (hφ : FKind.Formats .f32)
    (hacc : (0x00000000#32 : BitVec 32) = 0x00000000#32) (r : Fin 1000) :
    multiReduction .add [1] S1000 src 0x00000000#32 h hφ hacc (ix1 r) = ∑ q : Fin 1000, src (ix2 r q) := by
  refine (Ideal.multiReduction_add_single src 0x00000000#32 h hφ hacc (ix1 r)).trans ?_
  show ∑ q : Fin 1000, src (h.lift (ix1 r) q) = ∑ q : Fin 1000, src (ix2 r q)
  refine Finset.sum_congr rfl fun q _ => congrArg src (funext fun a => Fin.ext ?_)
  match a with
  | ⟨0, _⟩ => rfl
  | ⟨1, _⟩ => rfl

/-- An [a] array cast to the column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two columns laid side by side: column 0 of the result is the first piece. -/
theorem concat_cols_0 {α : Type} (u v : S1000x1.Idx → α) (h : Shape.Concatenates [S1000x1, S1000x1] S1000x2 1) (r : Fin 1000) :
    concatenate S1000x2 1 [⟨S1000x1, u⟩, ⟨S1000x1, v⟩] h (ix2 r (0 : Fin 2)) = u (ix2 r (0 : Fin 1)) :=
  concatenate_pair_apply_left 1 u v h (ix2 r (0 : Fin 2)) rfl (ix2 r (0 : Fin 1)) (fun b => by
    match b with
    | ⟨0, _⟩ => rfl
    | ⟨1, _⟩ => rfl)

/-- Two columns laid side by side: column 1 of the result is the second piece. -/
theorem concat_cols_1 {α : Type} (u v : S1000x1.Idx → α) (h : Shape.Concatenates [S1000x1, S1000x1] S1000x2 1) (r : Fin 1000) :
    concatenate S1000x2 1 [⟨S1000x1, u⟩, ⟨S1000x1, v⟩] h (ix2 r (1 : Fin 2)) = v (ix2 r (0 : Fin 1)) :=
  concatenate_pair_apply_right 1 u v h (ix2 r (1 : Fin 2)) rfl rfl (ix2 r (0 : Fin 1)) (fun b hb => by
    match b, hb with
    | ⟨0, _⟩, _ => rfl
    | ⟨1, _⟩, hb => exact absurd rfl hb) rfl

/-! ## The three stored values -/

/-- The block recast to [1000, 2] reads, at (r, c), the block at (0, r, c). -/
theorem pay2_apply (x : Vec Ideal S1x1000x2 .f32) (r : Fin 1000) (c : Fin 2) :
    k0_pay2 x (ix2 r c) = x (ix3 (0 : Fin 1) r c) := by
  unfold k0_pay2
  exact shapeCast_1ab_ab_apply x _ r c

/-- The accumulator's first value: zero everywhere. -/
theorem pay1_apply (r : Fin 1000) (j : Fin 2) : (k0_pay1 (F := Ideal)) (ix2 r j) = Cert.Spec.zero := by
  unfold k0_pay1
  rw [shapeCast_self]
  rfl

/-- The result block: the block's entry times the accumulator's. -/
theorem pay4_apply (x0 : Vec Ideal S1x1000x2 .f32) (acc : Vec Ideal S1000x2 .f32) (r : Fin 1000) (j : Fin 2) :
    k0_pay4 x0 acc (ix3 (0 : Fin 1) r j) = x0 (ix3 (0 : Fin 1) r j) * acc (ix2 r j) := by
  unfold k0_pay4
  refine (shapeCast_ab_1ab_apply _ _ (0 : Fin 1) r j).trans ?_
  rw [mulf_apply, pay2_apply]

/-! ## The chord distance and its embedding, at an index -/

section Pointwise
variable {s : Shape} {φ : FTy}

/-- A square root at an index is the square root of the element … -/
theorem sqrt_apply (a : FVec Ideal s φ) (i : s.Idx) : sqrt a i = Ideal.sqrt (a i) := rfl
/-- … a sine the sine … -/
theorem sin_apply (a : FVec Ideal s φ) (i : s.Idx) : sin a i = Ideal.sin (a i) := rfl
/-- … and a cosine the cosine of the element. -/
theorem cos_apply (a : FVec Ideal s φ) (i : s.Idx) : cos a i = Ideal.cos (a i) := rfl

end Pointwise

/-- For two [1000, 2] operands A, B the array √(max (2 − 2·A·Bᵀ) 0), at (r, q): the clamped chord distance of row r
    of A and row q of B. -/
theorem chord_at (A B : FVec Ideal S1000x2 .bf16) (r q : Fin 1000) :
    sqrt (maximumf (subf (broadcast S1000x1000 (FloatOps.ofBits (F := Ideal) .f32 0x40000000#32))
        (mulf (broadcast S1000x1000 (FloatOps.ofBits (F := Ideal) .f32 0x40000000#32))
          (matmul dot_S1000x2_S1000x2_S1000x1000_1_1_0_0_n_n none A B (constant (F := Ideal) S1000x1000 .f32 0x00000000#32))))
      (broadcast S1000x1000 (FloatOps.ofBits (F := Ideal) .f32 0x00000000#32))) (ix2 r q)
      = Ideal.sqrt (max (two - two * ∑ c : Fin 2, A (ix2 r c) * B (ix2 q c)) zero) := by
  rw [sqrt_apply, maximumf_apply, subf_apply, mulf_apply, broadcast_apply, broadcast_apply, matmul_at]
  rfl

/-- With the two blocks recast to [1000, 2] and rounded (the identity on extended reals) as its operands, that array
    at (r, q) is the distance of point r of the first block and point q of the second. -/
theorem bdist_at (x0 x1 : Vec Ideal S1x1000x2 .f32) (h1 : FTy.bits .bf16 < FTy.bits .f32)
    (h2 : S1x1000x2.ShapeCasts S1000x2) (r q : Fin 1000) :
    sqrt (maximumf (subf (broadcast S1000x1000 (FloatOps.ofBits (F := Ideal) .f32 0x40000000#32))
        (mulf (broadcast S1000x1000 (FloatOps.ofBits (F := Ideal) .f32 0x40000000#32))
          (matmul dot_S1000x2_S1000x2_S1000x1000_1_1_0_0_n_n none (truncf .bf16 (k0_pay2 x0) h1)
            (truncf .bf16 (shapeCast S1000x2 x1 h2) h1) (constant (F := Ideal) S1000x1000 .f32 0x00000000#32))))
      (broadcast S1000x1000 (FloatOps.ofBits (F := Ideal) .f32 0x00000000#32))) (ix2 r q)
      = bdist x0 x1 r q := by
  refine (chord_at _ _ r q).trans ?_
  unfold bdist
  refine congrArg (fun t => Ideal.sqrt (max (two - two * t) zero)) (Finset.sum_congr rfl fun c _ => ?_)
  rw [truncf_apply, truncf_apply, pay2_apply, shapeCast_1ab_ab_apply]

/-- The accumulator's update: its entry plus the block pair's partial sum of the embedding's component. -/
theorem pay3_apply (x0 x1 : Vec Ideal S1x1000x2 .f32) (xs : Vec Ideal S1000x2 .f32) (r : Fin 1000) (j : Fin 2) :
    k0_pay3 x0 x1 xs (ix2 r j) = xs (ix2 r j) + Cert.Spec.bpart x0 x1 r j := by
  unfold k0_pay3
  rw [shapeCast_self, addf_apply]
  refine congrArg (xs (ix2 r j) + ·) ?_
  unfold bpart
  match j with
  | ⟨0, _⟩ =>
    -- component 0: the row sums of the sines
    refine (concat_cols_0 _ _ _ r).trans ?_
    refine (shapeCast_a_a1_apply _ _ r (0 : Fin 1)).trans ?_
    refine (rowSum_at _ _ _ _ r).trans ?_
    refine Finset.sum_congr rfl fun q _ => ?_
    refine (sin_apply _ _).trans ?_
    refine (congrArg Ideal.sin (bdist_at x0 x1 _ _ r q)).trans ?_
    unfold bemb
    exact (if_pos rfl).symm
  | ⟨1, _⟩ =>
    -- component 1: the row sums of the cosines
    refine (concat_cols_1 _ _ _ r).trans ?_
    refine (shapeCast_a_a1_apply _ _ r (0 : Fin 1)).trans ?_
    refine (rowSum_at _ _ _ _ r).trans ?_
    refine Finset.sum_congr rfl fun q _ => ?_
    refine (cos_apply _ _).trans ?_
    refine (congrArg Ideal.cos (bdist_at x0 x1 _ _ r q)).trans ?_
    unfold bemb
    exact (if_neg Nat.one_ne_zero).symm

end Cert.KernelIdeal.PayloadVal0

end
-- ==== Proof.SpecLaws.lean ====
/-
  Laws of the specification: the inner product is symmetric, so the embedding of (a, b) at (n, m) is that of
  (b, a) at (m, n); a sum over 3000 points is the sum of its three tiles' partial sums, accumulated from zero in
  tile order (addition on the extended reals is commutative and associative, with 0 neutral: no finiteness is used);
  a quotient by the literal 1.0 is the dividend; a maximum does not depend on the order of its arguments.
-/
import proofs.«137931_j47287589929003_1_alg».proof.Proof.Spec
import Mathlib.Algebra.BigOperators.Fin
import Mathlib.Logic.Equiv.Fin.Basic

noncomputable section

namespace Cert.Spec

open Idealize.ShloMosaic Idealize.ShloMosaic.ValueIdx

/-- Each of the two products commutes, so the two-term sums agree term by term. -/
theorem dotp_comm (a b : Arr) (β : Fin 4) (n m : Fin 3000) : dotp a b β n m = dotp b a β m n := by
  unfold dotp
  exact Finset.sum_congr rfl fun c _ => mul_comm (a (ix3 β n c)) (b (ix3 β m c))

theorem dist_comm (a b : Arr) (β : Fin 4) (n m : Fin 3000) : dist a b β n m = dist b a β m n := by
  unfold dist
  rw [dotp_comm a b β n m]

theorem emb_comm (a b : Arr) (β : Fin 4) (n m : Fin 3000) (j : Fin 2) : emb a b β n m j = emb b a β m n j := by
  unfold emb
  rw [dist_comm a b β n m]

/-- The pair (tile k, offset q) sits at position q + 1000 · k = k · 1000 + q: the tiling is the standard
    bijection Fin 3 × Fin 1000 ≃ Fin 3000 read at a pair. -/
theorem tileIdx_eq (p : Fin 3 × Fin 1000) :
    tileIdx p.1 p.2 = (finProdFinEquiv (m := 3) (n := 1000)) p := by
  apply Fin.ext
  show p.1.val * 1000 + p.2.val = p.2.val + 1000 * p.1.val
  omega

/-- A sum over the 3000 points, in any commutative additive monoid, is the sum over the three tiles of the sums
    over each tile's 1000 points: re-index along the bijection, then split the sum over pairs. -/
theorem sum_tiles (f : Fin 3000 → EReal) :
    ∑ m : Fin 3000, f m = ∑ k : Fin 3, ∑ q : Fin 1000, f (tileIdx k q) := by
  have h : ∑ p : Fin 3 × Fin 1000, f (tileIdx p.1 p.2) = ∑ m : Fin 3000, f m :=
    Fintype.sum_equiv (finProdFinEquiv (m := 3) (n := 1000)) (fun p => f (tileIdx p.1 p.2)) f
      fun p => congrArg f (tileIdx_eq p)
  rw [← h]
  exact Fintype.sum_prod_type fun p : Fin 3 × Fin 1000 => f (tileIdx p.1 p.2)

/-- The accumulator after the three tiles is the sum over all 3000 points. -/
theorem acc3_eq (a b : Arr) (β : Fin 4) (n : Fin 3000) (j : Fin 2) :
    acc3 a b β n j = ∑ m : Fin 3000, emb a b β n m j := by
  have h0 : zero = 0 := Ideal.ofBits_zero_f32
  rw [sum_tiles fun m => emb a b β n m j, Fin.sum_univ_three]
  unfold acc3 part
  rw [h0, zero_add]

/-- The literal 1.0 divides to the identity on every extended real. -/
theorem div_one_lit (x : EReal) : Ideal.div x (Ideal.ofBits .f32 0x3F800000#32) = x := by
  have h1 : Ideal.ofBits .f32 0x3F800000#32 = ((1 : ℝ) : EReal) := IdealRules.sign_bit.ideal_onePat .f32
  rw [h1, Ideal.div_coe one_ne_zero x, div_one, EReal.coe_one, mul_one]

/-- The literal zero word is 0. -/
theorem zero_eq : zero = 0 := Ideal.ofBits_zero_f32

end Cert.Spec

end
-- ==== Proof.Reg0Value.lean ====
/-
  Pallas call 0: the output array after the call is the specification of its two input arrays.

  Point t = 9·β + 3·ρ + σ (batch β, scaled tile ρ, summed tile σ) finds rows [1000ρ, 1000ρ + 1000) of the scaled
  point set and rows [1000σ, 1000σ + 1000) of the summed one in its two blocks. By induction over σ the accumulator
  after the point holds, at (r, j), zero plus the partial sums of tiles 0 … σ for row 1000ρ + r; at σ = 2 the output
  block is the scaled block times that, which is the specification's value since the three tiles' partial sums
  add up to the sum over all 3000 points; the blocks written back at the points with σ = 2 tile the array.
-/
import proofs.«137931_j47287589929003_1_alg».proof.Proof.Reg0Pieces
import proofs.«137931_j47287589929003_1_alg».proof.Proof.Reg0Blocks
import proofs.«137931_j47287589929003_1_alg».proof.Proof.PayloadVal0
import proofs.«137931_j47287589929003_1_alg».proof.Proof.SpecLaws
import Idealize.ShloMosaic.Lib.Pipeline.Value
import Idealize.ShloMosaic.Lib.ValueIdx

set_option maxRecDepth 16384

noncomputable section

namespace Cert.KernelIdeal.Hand.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## A block pair's partial sum is a tile's -/

/-- The partial sum of the block pair at point `t`, row r, is the partial sum over the point's summed tile for
    row 1000·(scaled tile) + r of the point's batch: the two sides differ only by where the blocks sit in the arrays. -/
theorem bpart_eq (c : Dev nD) (t : Fin cfg0.N) (r : Fin 1000) (j : Fin 2) :
    Cert.Spec.bpart (blkA V c t) (blkB V c t) r j
      = Cert.Spec.part (arrA V c) (arrB V c) (gBatch t) (Cert.Spec.tileIdx (gRow t) r) j (gSum t) := by
  unfold Cert.Spec.bpart Cert.Spec.part
  refine Finset.sum_congr rfl fun q _ => ?_
  unfold Cert.Spec.bemb Cert.Spec.emb Cert.Spec.bdist Cert.Spec.dist Cert.Spec.dotp
  simp only [blkA_apply, blkB_apply]

/-! ## The point before a point that does not restart the summed tile -/

theorem pred_lt (t : Fin cfg0.N) : t.val - 1 < cfg0.N := Nat.lt_of_le_of_lt (Nat.sub_le _ _) t.isLt

/-- It has the same batch … -/
theorem gBatch_pred (t : Fin cfg0.N) (h0 : ¬t.val % 3 = 0) : gBatch ⟨t.val - 1, pred_lt t⟩ = gBatch t :=
  Fin.ext (by show (t.val - 1) / 9 = t.val / 9; omega)

/-- … the same scaled tile … -/
theorem gRow_pred (t : Fin cfg0.N) (h0 : ¬t.val % 3 = 0) : gRow ⟨t.val - 1, pred_lt t⟩ = gRow t :=
  Fin.ext (by show (t.val - 1) / 3 % 3 = t.val / 3 % 3; omega)

/-! ## The invariant: the accumulator after a point holds zero plus the partial sums of the tiles so far -/

/-- After a point on summed tile 0: zero plus tile 0's partial sum. -/
theorem acc_tile0 (c : Dev nD) (t : Fin cfg0.N) (h : t.val % 3 = 0) (r : Fin 1000) (j : Fin 2) :
    accAt V c t.val t.isLt (ix2 r j)
      = Cert.Spec.zero + Cert.Spec.part (arrA V c) (arrB V c) (gBatch t) (Cert.Spec.tileIdx (gRow t) r) j 0 := by
  have hs : gSum t = 0 := Fin.ext h
  rw [accAt_A V c t h, soutA_eq, Cert.KernelIdeal.PayloadVal0.pay3_apply, Cert.KernelIdeal.PayloadVal0.pay1_apply,
    bpart_eq, hs]

/-- After a point on summed tile 1: that plus tile 1's partial sum. -/
theorem acc_tile1 (c : Dev nD) (t : Fin cfg0.N) (h : t.val % 3 = 1) (r : Fin 1000) (j : Fin 2) :
    accAt V c t.val t.isLt (ix2 r j)
      = (Cert.Spec.zero + Cert.Spec.part (arrA V c) (arrB V c) (gBatch t) (Cert.Spec.tileIdx (gRow t) r) j 0)
        + Cert.Spec.part (arrA V c) (arrB V c) (gBatch t) (Cert.Spec.tileIdx (gRow t) r) j 1 := by
  have h0 : ¬t.val % 3 = 0 := by omega
  have h2 : ¬t.val % 3 = 2 := by omega
  have hs : gSum t = 1 := Fin.ext h
  have hp := acc_tile0 V c ⟨t.val - 1, pred_lt t⟩ (by show (t.val - 1) % 3 = 0; omega) r j
  rw [gBatch_pred t h0, gRow_pred t h0] at hp
  rw [accAt_B V c t h0 h2, soutB_eq, Cert.KernelIdeal.PayloadVal0.pay3_apply, bpart_eq, hs]
  exact congrArg (· + _) hp

/-- After a point on summed tile 2: the three tiles' partial sums accumulated from zero. -/
theorem acc_tile2 (c : Dev nD) (t : Fin cfg0.N) (h : t.val % 3 = 2) (r : Fin 1000) (j : Fin 2) :
    accAt V c t.val t.isLt (ix2 r j)
      = Cert.Spec.acc3 (arrA V c) (arrB V c) (gBatch t) (Cert.Spec.tileIdx (gRow t) r) j := by
  have h0 : ¬t.val % 3 = 0 := by omega
  have hs : gSum t = 2 := Fin.ext h
  have hp := acc_tile1 V c ⟨t.val - 1, pred_lt t⟩ (by show (t.val - 1) % 3 = 1; omega) r j
  rw [gBatch_pred t h0, gRow_pred t h0] at hp
  rw [accAt_C V c t h0 h, soutC_eq, Cert.KernelIdeal.PayloadVal0.pay3_apply, bpart_eq, hs]
  exact congrArg (· + _) hp

/-! ## The output block at a point on the last summed tile -/

/-- The output block at (0, r, j) is the specification's value at (batch, 1000·(scaled tile) + r, j): the scaled
    block's entry times the accumulator's, and the three tiles' partial sums add up to the sum over all points. -/
theorem outAt_apply (c : Dev nD) (t : Fin cfg0.N) (h : t.val % 3 = 2) (r : Fin 1000) (j : Fin 2) :
    outAt V c t (ix3 (0 : Fin 1) r j)
      = Cert.Spec.Kat (arrA V c) (arrB V c) (gBatch t) (Cert.Spec.tileIdx (gRow t) r) j := by
  have h0 : ¬t.val % 3 = 0 := by omega
  have e : k0_pay3 (iblk V c 0 t) (iblk V c 1 t) (accAt V c (t.val - 1) (Nat.lt_of_le_of_lt (Nat.sub_le _ _) t.isLt))
      = accAt V c t.val t.isLt := by
    rw [accAt_C V c t h0 h, soutC_eq]
  rw [outAt_C V c t h0 h, outC_eq, e, Cert.KernelIdeal.PayloadVal0.pay4_apply, acc_tile2 V c t h, Cert.Spec.acc3_eq]
  show blkA V c t (ix3 (0 : Fin 1) r j) * _ = _
  rw [blkA_apply]
  rfl

/-! ## From the blocks to the array -/

/-- The output window's block index at grid point `t`, axis by axis: (batch, scaled tile, 0). -/
theorem out_index (t : Fin cfg0.N) :
    win0_2.index t (0 : Fin 3) = t.val / 9 ∧ win0_2.index t (1 : Fin 3) = t.val / 3 % 3 ∧ win0_2.index t (2 : Fin 3) = 0 :=
  (by decide +kernel : ∀ t : Fin grid0.N,
    win0_2.index t (0 : Fin 3) = t.val / 9 ∧ win0_2.index t (1 : Fin 3) = t.val / 3 % 3 ∧ win0_2.index t (2 : Fin 3) = 0) t

/-- What a point on the last summed tile writes back is its block of the specification's array. -/
theorem flushed_eq (c : Dev nD) (t : Fin cfg0.N) (hf : (cfg0.win 2).flush t = true) :
    (dat (F := Ideal) V c).flushed 2 t
      = ((cfg0.win 2).blk t).view.read (Elt Ideal) (Cert.Spec.K (arrA V c) (arrB V c)) := by
  have h : t.val % 3 = 2 := (flush0_2 t).mp hf
  obtain ⟨e0, e1, e2⟩ := out_index t
  show (cfg0.win 2).cut (grid0.coords t) ((dat (F := Ideal) V c).after 2 t) = _
  rw [after_2]
  refine funext fun (y : S1x1000x2.Idx) => ?_
  obtain ⟨u, r, j, rfl⟩ : ∃ (u : Fin 1) (r : Fin 1000) (j : Fin 2), y = ix3 u r j := ⟨y 0, y 1, y 2, eq_ix3 y⟩
  obtain rfl : u = 0 := Subsingleton.elim _ _
  rw [View.read_apply]
  show outAt V c t (ix3 (0 : Fin 1) r j) = Cert.Spec.K (arrA V c) (arrB V c) _
  rw [outAt_apply V c t h, ← Cert.Spec.K_ix3]
  refine congrArg (Cert.Spec.K (arrA V c) (arrB V c)) (funext fun a => Fin.ext ?_)
  -- per axis: block index × block size + the entry's coordinate
  match a with
  | ⟨0, _⟩ => show t.val / 9 = win0_2.index t 0 * 1 + 1 * (0 : Fin 1).val; rw [e0]; omega
  | ⟨1, _⟩ => show t.val / 3 % 3 * 1000 + r.val = win0_2.index t 1 * 1000 + 1 * r.val; rw [e1]; omega
  | ⟨2, _⟩ => show j.val = win0_2.index t 2 * 2 + 1 * j.val; rw [e2]; omega

/-- Every index of the output array lies in the block of a point that writes back: row n of batch β in the block of
    point 9·β + 3·(n / 1000) + 2. -/
theorem cover (i : S4x3000x2.Idx) :
    ∃ t : Fin cfg0.N, (cfg0.win 2).flush t = true ∧ i ∈ ((cfg0.win 2).blk t).view.set := by
  have hN : cfg0.N = 36 := N_0
  have hi0 : (i 0).val < 4 := (i 0).isLt
  have hi1 : (i 1).val < 3000 := (i 1).isLt
  have hi2 : (i 2).val < 2 := (i 2).isLt
  let t : Fin cfg0.N := ⟨9 * (i 0).val + 3 * ((i 1).val / 1000) + 2, by omega⟩
  have htv : t.val = 9 * (i 0).val + 3 * ((i 1).val / 1000) + 2 := rfl
  obtain ⟨e0, e1, e2⟩ := out_index t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 1000 ≤ (i 1).val ∧ (i 1).val < win0_2.index t 1 * 1000 + 1000
    rw [e1]; omega
  | ⟨2, _⟩ =>
    show win0_2.index t 2 * 2 ≤ (i 2).val ∧ (i 2).val < win0_2.index t 2 * 2 + 2
    rw [e2]; omega

/-- The output array after the call's last write-back is `K` of the two input arrays. -/
theorem final_out (c : Dev nD) :
    (dat (F := Ideal) V c).arrAt 2 cfg0.N = Cert.Spec.K (arrA V c) (arrB V c) :=
  (dat (F := Ideal) V c).arrAt_eq_of_cover 2 (Cert.Spec.K (arrA V c) (arrB V c)) (fun t hf => flushed_eq V c t hf) cover

end Cert.KernelIdeal.Hand.Reg0

end
-- ==== Proof.Reg1Pieces.lean ====
/-
  Pallas call 1: what each case's stores leave, as the body's own arithmetic. The accumulator after a point of
  case A is the add step applied to the zero splat (the reset, read back); after a point of case B or C it is the
  add step applied to what the point before left; the output window's buffer after a point of case C is the scaled
  block times that just-updated accumulator.
-/
import proofs.«137931_j47287589929003_1_alg».proof.Proof.Reg1Data
import Idealize.ShloMosaic.Lib.Pipeline.Value

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
private theorem zeroOff2 : (![0, 0] : Fin 2 → Nat) = fun _ => 0 := funext fun a => by fin_cases a <;> rfl
/-- The zero offsets of a rank-3 rectangle, as the constant function. -/
private theorem zeroOff3 : (![0, 0, 0] : Fin 3 → Nat) = fun _ => 0 := funext fun a => by fin_cases a <;> rfl

/-- Case A leaves two whole-buffer pieces, the later on top: the zero splat, then the add step over the zero splat
    read back through the whole buffer. The later piece covers, so the contents are its payload; the load of the one
    earlier piece through the same rectangle is that piece's payload; the input loads read the whole blocks. -/
theorem soutA_eq (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : condReset i) (hc2 : ¬condLast i)
    (x0 x1 : Vec F S1x1000x2 .f32) :
    soutA c i arg3 harg3 arg4 harg4 arg5 harg5 arg6 harg6 hc1 hc2 x0 x1 = k1_pay3 x0 x1 (k1_pay1 (F := F)) := by
  unfold soutA
  rw [View.read_writes_eq_canon _ _ _ (scoverA c i arg3 harg3 arg4 harg4 arg5 harg5 arg6 harg6 hc1 hc2 x0 x1)]
  unfold kernelRunA
  dsimp only
  sl_unfold_words
  rw [View.canon_cons_unit_zero (S := S1000x2) zeroOff2, View.readCov_unit_zero (S := S1000x2) _ zeroOff2]
  simp only [View.readAt_eq_ld, harg3.read_unread, harg4.read_unread, View.ld_unit_zero (S := S1x1000x2) zeroOff3]

/-- Case B leaves one whole-buffer piece: the add step over the accumulator as found, each of the three loads
    reading its whole buffer. -/
theorem soutB_eq (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : ¬condLast i)
    (x0 x1 : Vec F S1x1000x2 .f32) (xs : Vec F S1000x2 .f32) :
    soutB c i arg3 harg3 arg4 harg4 arg5 harg5 arg6 harg6 hc1 hc2 x0 x1 xs = k1_pay3 x0 x1 xs := by
  unfold soutB
  rw [View.read_writes_eq_canon _ _ _ (scoverB c i arg3 harg3 arg4 harg4 arg5 harg5 arg6 harg6 hc1 hc2 x0 x1 xs)]
  unfold kernelRunB
  dsimp only
  sl_unfold_words
  rw [View.canon_unit_zero (S := S1000x2) zeroOff2]
  simp only [View.readAt_eq_ld, harg3.read_unread, harg4.read_unread, harg6.read_unread,
    View.ld_unit_zero (S := S1x1000x2) zeroOff3, View.ld_unit_zero (S := S1000x2) zeroOff2]

/-- Case C leaves the same one piece in the accumulator as case B. -/
theorem soutC_eq (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    soutC c i arg3 harg3 arg4 harg4 arg5 harg5 arg6 harg6 hc1 hc2 x0 x1 xs = k1_pay3 x0 x1 xs := by
  unfold soutC
  rw [View.read_writes_eq_canon _ _ _ (scoverC c i arg3 harg3 arg4 harg4 arg5 harg5 arg6 harg6 hc1 hc2 x0 x1 xs)]
  unfold kernelRunC
  dsimp only
  sl_unfold_words
  rw [View.canon_unit_zero (S := S1000x2) zeroOff2]
  simp only [View.readAt_eq_ld, harg3.read_unread, harg4.read_unread, harg6.read_unread,
    View.ld_unit_zero (S := S1x1000x2) zeroOff3, View.ld_unit_zero (S := S1000x2) zeroOff2]

/-- Case C's output buffer holds one whole-buffer piece: the scaled block times the accumulator read back after its
    one store, which is that store's payload, the add step over the accumulator as found. -/
theorem outC_eq (c : Dev nD) (i : grid1.Coords) (arg3 : Memref sig .tc .vmem S1x1000x2 .f32) (harg3 : arg3.IsWhole) (arg4 : Memref sig .tc .vmem S1x1000x2 .f32) (harg4 : arg4.IsWhole) (arg5 : Memref sig .tc .vmem S1x1000x2 .f32) (harg5 : arg5.IsWhole) (arg6 : Memref sig .tc .vmem S1000x2 .f32) (harg6 : arg6.IsWhole) (hc1 : ¬condReset i) (hc2 : condLast i)
    (x0 x1 : Vec F S1x1000x2 .f32) (xs : Vec F S1000x2 .f32) :
    outC c i arg3 harg3 arg4 harg4 arg5 harg5 arg6 harg6 hc1 hc2 x0 x1 xs = k1_pay4 x0 (k1_pay3 x0 x1 xs) := by
  unfold outC
  rw [View.read_writes_eq_canon _ _ _ (coverC c i arg3 harg3 arg4 harg4 arg5 harg5 arg6 harg6 hc1 hc2 x0 x1 xs)]
  unfold kernelRunC
  dsimp only
  sl_unfold_words
  rw [View.canon_unit_zero (S := S1x1000x2) zeroOff3, View.readCov_unit_zero (S := S1000x2) _ zeroOff2]
  simp only [View.readAt_eq_ld, harg3.read_unread, harg4.read_unread, harg6.read_unread,
    View.ld_unit_zero (S := S1x1000x2) zeroOff3, View.ld_unit_zero (S := S1000x2) zeroOff2]

end Cert.KernelIdeal.Hand.Reg1

end
-- ==== Proof.Reg1Blocks.lean ====
/-
  Pallas call 1: the input windows' blocks read at an index. Grid point t (row-major over batch × scaled tile ×
  summed tile = 4 × 3 × 3) has batch t / 9, scaled tile (t / 3) mod 3 and summed tile t mod 3; the scaled point
  set's block holds rows [1000·tile, 1000·tile + 1000) of that batch, and so does the summed point set's.
-/
import proofs.«137931_j47287589929003_1_alg».proof.Proof.Reg1Data
import proofs.«137931_j47287589929003_1_alg».proof.Proof.Spec
import Idealize.ShloMosaic.Lib.Pipeline.Value
import Idealize.ShloMosaic.Lib.ValueIdx

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The two input blocks at a point and the two input arrays, named at their literal types. -/
abbrev blkA (c : Dev nD) (t : Fin cfg1.N) : Vec F S1x1000x2 .f32 := iblk V c 0 t
abbrev blkB (c : Dev nD) (t : Fin cfg1.N) : Vec F S1x1000x2 .f32 := iblk V c 1 t
abbrev arrA (c : Dev nD) : Vec F S4x3000x2 .f32 := V c (Pipeline.arrRef spec1 0)
abbrev arrB (c : Dev nD) : Vec F S4x3000x2 .f32 := V c (Pipeline.arrRef spec1 1)

/-- The batch, the scaled tile and the summed tile of grid point `t`. -/
def gBatch (t : Fin cfg1.N) : Fin 4 := ⟨t.val / 9, by have := t.isLt; have h : cfg1.N = 36 := N_1; omega⟩
def gRow (t : Fin cfg1.N) : Fin 3 := ⟨t.val / 3 % 3, Nat.mod_lt _ (by decide)⟩
def gSum (t : Fin cfg1.N) : Fin 3 := ⟨t.val % 3, Nat.mod_lt _ (by decide)⟩

/-- The scaled point set's block index at grid point `t`, axis by axis: (batch, scaled tile, 0). -/
theorem blkA_index (t : Fin cfg1.N) :
    win1_0.index t (0 : Fin 3) = t.val / 9 ∧ win1_0.index t (1 : Fin 3) = t.val / 3 % 3 ∧ win1_0.index t (2 : Fin 3) = 0 :=
  (by decide +kernel : ∀ t : Fin grid1.N,
    win1_0.index t (0 : Fin 3) = t.val / 9 ∧ win1_0.index t (1 : Fin 3) = t.val / 3 % 3 ∧ win1_0.index t (2 : Fin 3) = 0) t

/-- The summed point set's block index at grid point `t`, axis by axis: (batch, summed tile, 0). -/
theorem blkB_index (t : Fin cfg1.N) :
    win1_1.index t (0 : Fin 3) = t.val / 9 ∧ win1_1.index t (1 : Fin 3) = t.val % 3 ∧ win1_1.index t (2 : Fin 3) = 0 :=
  (by decide +kernel : ∀ t : Fin grid1.N,
    win1_1.index t (0 : Fin 3) = t.val / 9 ∧ win1_1.index t (1 : Fin 3) = t.val % 3 ∧ win1_1.index t (2 : Fin 3) = 0) t

/-- The scaled point set's block at point `t`, entry (0, r, j), is the array's entry (batch, 1000·tile + r, j). -/
theorem blkA_apply (c : Dev nD) (t : Fin cfg1.N) (r : Fin 1000) (j : Fin 2) :
    blkA V c t (ix3 (0 : Fin 1) r j) = arrA V c (ix3 (gBatch t) (Cert.Spec.tileIdx (gRow t) r) j) := by
  obtain ⟨h0, h1, h2⟩ := blkA_index t
  unfold blkA iblk
  rw [View.read_apply]
  show arrA V c _ = arrA V c _
  refine congrArg (arrA V c) (funext fun a => Fin.ext ?_)
  -- per axis: block index × block size + the entry's coordinate
  match a with
  | ⟨0, _⟩ => show win1_0.index t 0 * 1 + 1 * (0 : Fin 1).val = t.val / 9; rw [h0]; omega
  | ⟨1, _⟩ => show win1_0.index t 1 * 1000 + 1 * r.val = t.val / 3 % 3 * 1000 + r.val; rw [h1]; omega
  | ⟨2, _⟩ => show win1_0.index t 2 * 2 + 1 * j.val = j.val; rw [h2]; omega

/-- The summed point set's block likewise, at the summed tile. -/
theorem blkB_apply (c : Dev nD) (t : Fin cfg1.N) (q : Fin 1000) (j : Fin 2) :
    blkB V c t (ix3 (0 : Fin 1) q j) = arrB V c (ix3 (gBatch t) (Cert.Spec.tileIdx (gSum t) q) j) := by
  obtain ⟨h0, h1, h2⟩ := blkB_index t
  unfold blkB iblk
  rw [View.read_apply]
  show arrB V c _ = arrB V c _
  refine congrArg (arrB V c) (funext fun a => Fin.ext ?_)
  -- per axis: block index × block size + the entry's coordinate
  match a with
  | ⟨0, _⟩ => show win1_1.index t 0 * 1 + 1 * (0 : Fin 1).val = t.val / 9; rw [h0]; omega
  | ⟨1, _⟩ => show win1_1.index t 1 * 1000 + 1 * q.val = t.val % 3 * 1000 + q.val; rw [h1]; omega
  | ⟨2, _⟩ => show win1_1.index t 2 * 2 + 1 * j.val = j.val; rw [h2]; omega

end Cert.KernelIdeal.Hand.Reg1

end
-- ==== Proof.PayloadVal1.lean ====
/-
  The three values the kernel body stores, read at an index over the extended reals.

  The accumulator is first set to zero; then, for a block pair (x0, x1) of the two point sets, the body adds
  to the accumulator's entry (r, j) the sum over the 1000 points q of x1 of the embedding's component j of
  the distance between point r of x0 and point q of x1; last, the result block is x0 scaled entrywise by the
  accumulator.
-/
import proofs.«137931_j47287589929003_1_alg».proof.Proof.Spec
import proofs.«137931_j47287589929003_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadVal1

open Cert.KernelIdeal Cert.KernelIdeal.Gen Cert.Spec Idealize.ShloMosaic Idealize.ShloMosaic.ValueIdx

/-! ## The product's operand indices, axis by axis

The product contracts axis 1 of both operands and has no batch axis: at result index (r, q) and contraction
position k the left operand is read at (r, k) and the right operand at (q, k). -/

theorem lhs_dot_0 (i : S1000x1000.Idx) (q : dot_S1000x2_S1000x2_S1000x1000_1_1_0_0_n_n.contr.Idx) :
    (dot_S1000x2_S1000x2_S1000x1000_1_1_0_0_n_n.lhsIdx i q 0).val = (i 0).val := by
  unfold DotDims.lhsIdx
  rw [dif_neg (show ¬(0 : Fin S1000x2.rank) ∈ dot_S1000x2_S1000x2_S1000x1000_1_1_0_0_n_n.lhsBatch by decide), dif_pos (show (0 : Fin S1000x2.rank) ∈ dot_S1000x2_S1000x2_S1000x1000_1_1_0_0_n_n.lhsNonContracting by decide)]
  rfl
theorem lhs_dot_1 (i : S1000x1000.Idx) (q : dot_S1000x2_S1000x2_S1000x1000_1_1_0_0_n_n.contr.Idx) :
    (dot_S1000x2_S1000x2_S1000x1000_1_1_0_0_n_n.lhsIdx i q 1).val = (q ⟨0, by decide⟩).val :=
  dot_S1000x2_S1000x2_S1000x1000_1_1_0_0_n_n.lhsIdx_val_of_single rfl i q
theorem rhs_dot_0 (i : S1000x1000.Idx) (q : dot_S1000x2_S1000x2_S1000x1000_1_1_0_0_n_n.contr.Idx) :
    (dot_S1000x2_S1000x2_S1000x1000_1_1_0_0_n_n.rhsIdx i q 0).val = (i 1).val := by
  unfold DotDims.rhsIdx
  rw [dif_neg (show ¬(0 : Fin S1000x2.rank) ∈ dot_S1000x2_S1000x2_S1000x1000_1_1_0_0_n_n.rhsBatch by decide), dif_pos (show (0 : Fin S1000x2.rank) ∈ dot_S1000x2_S1000x2_S1000x1000_1_1_0_0_n_n.rhsNonContracting by decide)]
  rfl
theorem rhs_dot_1 (i : S1000x1000.Idx) (q : dot_S1000x2_S1000x2_S1000x1000_1_1_0_0_n_n.contr.Idx) :
    (dot_S1000x2_S1000x2_S1000x1000_1_1_0_0_n_n.rhsIdx i q 1).val = (q ⟨0, by decide⟩).val :=
  dot_S1000x2_S1000x2_S1000x1000_1_1_0_0_n_n.rhsIdx_val_of_single rfl i q

/-- The product A·Bᵀ into the zero accumulator, at (r, q): the inner product of row r of A and row q of B. -/
theorem matmul_at (A B : FVec Ideal S1000x2 .bf16) (r q : Fin 1000) :
    matmul dot_S1000x2_S1000x2_S1000x1000_1_1_0_0_n_n none A B (constant (F := Ideal) S1000x1000 .f32 0x00000000#32) (ix2 r q)
      = ∑ c : Fin 2, A (ix2 r c) * B (ix2 q c) := by
  simp only [matmul]
  rw [Ideal.matmul_constant_zero_apply, ← Equiv.sum_comp (ValueIdx.contrEquiv1 dot_S1000x2_S1000x2_S1000x1000_1_1_0_0_n_n 2 rfl rfl).symm]
  refine Finset.sum_congr rfl fun k _ => ?_
  have hk := ValueIdx.contrEquiv1_symm_val dot_S1000x2_S1000x2_S1000x1000_1_1_0_0_n_n 2 rfl rfl k
  have el : dot_S1000x2_S1000x2_S1000x1000_1_1_0_0_n_n.lhsIdx (ix2 r q) ((ValueIdx.contrEquiv1 dot_S1000x2_S1000x2_S1000x1000_1_1_0_0_n_n 2 rfl rfl).symm k) = ix2 r k := funext fun a => Fin.ext (by
    match a with
    | ⟨0, _⟩ => exact lhs_dot_0 _ _
    | ⟨1, _⟩ => exact (lhs_dot_1 _ _).trans hk)
  have er : dot_S1000x2_S1000x2_S1000x1000_1_1_0_0_n_n.rhsIdx (ix2 r q) ((ValueIdx.contrEquiv1 dot_S1000x2_S1000x2_S1000x1000_1_1_0_0_n_n 2 rfl rfl).symm k) = ix2 q k := funext fun a => Fin.ext (by
    match a with
    | ⟨0, _⟩ => exact rhs_dot_0 _ _
    | ⟨1, _⟩ => exact (rhs_dot_1 _ _).trans hk)
  rw [el, er]

/-! ## A row sum, a column cast, and the two-column concatenation, at an index -/

/-- The sum along axis 1 of a [1000, 1000] array, at r: the sum over q of the entries (r, q). -/
theorem rowSum_at (src : FVec Ideal S1000x1000 .f32) (h : S1000x1000.Reduces [1] S1000) (hφ : FKind.Formats .f32)
    (hacc : (0x00000000#32 : BitVec 32) = 0x00000000#32) (r : Fin 1000) :
    multiReduction .add [1] S1000 src 0x00000000#32 h hφ hacc (ix1 r) = ∑ q : Fin 1000, src (ix2 r q) := by
  refine (Ideal.multiReduction_add_single src 0x00000000#32 h hφ hacc (ix1 r)).trans ?_
  show ∑ q : Fin 1000, src (h.lift (ix1 r) q) = ∑ q : Fin 1000, src (ix2 r q)
  refine Finset.sum_congr rfl fun q _ => congrArg src (funext fun a => Fin.ext ?_)
  match a with
  | ⟨0, _⟩ => rfl
  | ⟨1, _⟩ => rfl

/-- An [a] array cast to the column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two columns laid side by side: column 0 of the result is the first piece. -/
theorem concat_cols_0 {α : Type} (u v : S1000x1.Idx → α) (h : Shape.Concatenates [S1000x1, S1000x1] S1000x2 1) (r : Fin 1000) :
    concatenate S1000x2 1 [⟨S1000x1, u⟩, ⟨S1000x1, v⟩] h (ix2 r (0 : Fin 2)) = u (ix2 r (0 : Fin 1)) :=
  concatenate_pair_apply_left 1 u v h (ix2 r (0 : Fin 2)) rfl (ix2 r (0 : Fin 1)) (fun b => by
    match b with
    | ⟨0, _⟩ => rfl
    | ⟨1, _⟩ => rfl)

/-- Two columns laid side by side: column 1 of the result is the second piece. -/
theorem concat_cols_1 {α : Type} (u v : S1000x1.Idx → α) (h : Shape.Concatenates [S1000x1, S1000x1] S1000x2 1) (r : Fin 1000) :
    concatenate S1000x2 1 [⟨S1000x1, u⟩, ⟨S1000x1, v⟩] h (ix2 r (1 : Fin 2)) = v (ix2 r (0 : Fin 1)) :=
  concatenate_pair_apply_right 1 u v h (ix2 r (1 : Fin 2)) rfl rfl (ix2 r (0 : Fin 1)) (fun b hb => by
    match b, hb with
    | ⟨0, _⟩, _ => rfl
    | ⟨1, _⟩, hb => exact absurd rfl hb) rfl

/-! ## The three stored values -/

/-- The block recast to [1000, 2] reads, at (r, c), the block at (0, r, c). -/
theorem pay2_apply (x : Vec Ideal S1x1000x2 .f32) (r : Fin 1000) (c : Fin 2) :
    k1_pay2 x (ix2 r c) = x (ix3 (0 : Fin 1) r c) := by
  unfold k1_pay2
  exact shapeCast_1ab_ab_apply x _ r c

/-- The accumulator's first value: zero everywhere. -/
theorem pay1_apply (r : Fin 1000) (j : Fin 2) : (k1_pay1 (F := Ideal)) (ix2 r j) = Cert.Spec.zero := by
  unfold k1_pay1
  rw [shapeCast_self]
  rfl

/-- The result block: the block's entry times the accumulator's. -/
theorem pay4_apply (x0 : Vec Ideal S1x1000x2 .f32) (acc : Vec Ideal S1000x2 .f32) (r : Fin 1000) (j : Fin 2) :
    k1_pay4 x0 acc (ix3 (0 : Fin 1) r j) = x0 (ix3 (0 : Fin 1) r j) * acc (ix2 r j) := by
  unfold k1_pay4
  refine (shapeCast_ab_1ab_apply _ _ (0 : Fin 1) r j).trans ?_
  rw [mulf_apply, pay2_apply]

/-! ## The chord distance and its embedding, at an index -/

section Pointwise
variable {s : Shape} {φ : FTy}

/-- A square root at an index is the square root of the element … -/
theorem sqrt_apply (a : FVec Ideal s φ) (i : s.Idx) : sqrt a i = Ideal.sqrt (a i) := rfl
/-- … a sine the sine … -/
theorem sin_apply (a : FVec Ideal s φ) (i : s.Idx) : sin a i = Ideal.sin (a i) := rfl
/-- … and a cosine the cosine of the element. -/
theorem cos_apply (a : FVec Ideal s φ) (i : s.Idx) : cos a i = Ideal.cos (a i) := rfl

end Pointwise

/-- For two [1000, 2] operands A, B the array √(max (2 − 2·A·Bᵀ) 0), at (r, q): the clamped chord distance of row r
    of A and row q of B. -/
theorem chord_at (A B : FVec Ideal S1000x2 .bf16) (r q : Fin 1000) :
    sqrt (maximumf (subf (broadcast S1000x1000 (FloatOps.ofBits (F := Ideal) .f32 0x40000000#32))
        (mulf (broadcast S1000x1000 (FloatOps.ofBits (F := Ideal) .f32 0x40000000#32))
          (matmul dot_S1000x2_S1000x2_S1000x1000_1_1_0_0_n_n none A B (constant (F := Ideal) S1000x1000 .f32 0x00000000#32))))
      (broadcast S1000x1000 (FloatOps.ofBits (F := Ideal) .f32 0x00000000#32))) (ix2 r q)
      = Ideal.sqrt (max (two - two * ∑ c : Fin 2, A (ix2 r c) * B (ix2 q c)) zero) := by
  rw [sqrt_apply, maximumf_apply, subf_apply, mulf_apply, broadcast_apply, broadcast_apply, matmul_at]
  rfl

/-- With the two blocks recast to [1000, 2] and rounded (the identity on extended reals) as its operands, that array
    at (r, q) is the distance of point r of the first block and point q of the second. -/
theorem bdist_at (x0 x1 : Vec Ideal S1x1000x2 .f32) (h1 : FTy.bits .bf16 < FTy.bits .f32)
    (h2 : S1x1000x2.ShapeCasts S1000x2) (r q : Fin 1000) :
    sqrt (maximumf (subf (broadcast S1000x1000 (FloatOps.ofBits (F := Ideal) .f32 0x40000000#32))
        (mulf (broadcast S1000x1000 (FloatOps.ofBits (F := Ideal) .f32 0x40000000#32))
          (matmul dot_S1000x2_S1000x2_S1000x1000_1_1_0_0_n_n none (truncf .bf16 (k1_pay2 x0) h1)
            (truncf .bf16 (shapeCast S1000x2 x1 h2) h1) (constant (F := Ideal) S1000x1000 .f32 0x00000000#32))))
      (broadcast S1000x1000 (FloatOps.ofBits (F := Ideal) .f32 0x00000000#32))) (ix2 r q)
      = bdist x0 x1 r q := by
  refine (chord_at _ _ r q).trans ?_
  unfold bdist
  refine congrArg (fun t => Ideal.sqrt (max (two - two * t) zero)) (Finset.sum_congr rfl fun c _ => ?_)
  rw [truncf_apply, truncf_apply, pay2_apply, shapeCast_1ab_ab_apply]

/-- The accumulator's update: its entry plus the block pair's partial sum of the embedding's component. -/
theorem pay3_apply (x0 x1 : Vec Ideal S1x1000x2 .f32) (xs : Vec Ideal S1000x2 .f32) (r : Fin 1000) (j : Fin 2) :
    k1_pay3 x0 x1 xs (ix2 r j) = xs (ix2 r j) + Cert.Spec.bpart x0 x1 r j := by
  unfold k1_pay3
  rw [shapeCast_self, addf_apply]
  refine congrArg (xs (ix2 r j) + ·) ?_
  unfold bpart
  match j with
  | ⟨0, _⟩ =>
    -- component 0: the row sums of the sines
    refine (concat_cols_0 _ _ _ r).trans ?_
    refine (shapeCast_a_a1_apply _ _ r (0 : Fin 1)).trans ?_
    refine (rowSum_at _ _ _ _ r).trans ?_
    refine Finset.sum_congr rfl fun q _ => ?_
    refine (sin_apply _ _).trans ?_
    refine (congrArg Ideal.sin (bdist_at x0 x1 _ _ r q)).trans ?_
    unfold bemb
    exact (if_pos rfl).symm
  | ⟨1, _⟩ =>
    -- component 1: the row sums of the cosines
    refine (concat_cols_1 _ _ _ r).trans ?_
    refine (shapeCast_a_a1_apply _ _ r (0 : Fin 1)).trans ?_
    refine (rowSum_at _ _ _ _ r).trans ?_
    refine Finset.sum_congr rfl fun q _ => ?_
    refine (cos_apply _ _).trans ?_
    refine (congrArg Ideal.cos (bdist_at x0 x1 _ _ r q)).trans ?_
    unfold bemb
    exact (if_neg Nat.one_ne_zero).symm

end Cert.KernelIdeal.PayloadVal1

end
-- ==== Proof.Reg1Value.lean ====
/-
  Pallas call 1: the output array after the call is the specification of its two input arrays.

  Point t = 9·β + 3·ρ + σ (batch β, scaled tile ρ, summed tile σ) finds rows [1000ρ, 1000ρ + 1000) of the scaled
  point set and rows [1000σ, 1000σ + 1000) of the summed one in its two blocks. By induction over σ the accumulator
  after the point holds, at (r, j), zero plus the partial sums of tiles 0 … σ for row 1000ρ + r; at σ = 2 the output
  block is the scaled block times that, which is the specification's value since the three tiles' partial sums
  add up to the sum over all 3000 points; the blocks written back at the points with σ = 2 tile the array.
-/
import proofs.«137931_j47287589929003_1_alg».proof.Proof.Reg1Pieces
import proofs.«137931_j47287589929003_1_alg».proof.Proof.Reg1Blocks
import proofs.«137931_j47287589929003_1_alg».proof.Proof.PayloadVal1
import proofs.«137931_j47287589929003_1_alg».proof.Proof.SpecLaws
import Idealize.ShloMosaic.Lib.Pipeline.Value
import Idealize.ShloMosaic.Lib.ValueIdx

set_option maxRecDepth 16384

noncomputable section

namespace Cert.KernelIdeal.Hand.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## A block pair's partial sum is a tile's -/

/-- The partial sum of the block pair at point `t`, row r, is the partial sum over the point's summed tile for
    row 1000·(scaled tile) + r of the point's batch: the two sides differ only by where the blocks sit in the arrays. -/
theorem bpart_eq (c : Dev nD) (t : Fin cfg1.N) (r : Fin 1000) (j : Fin 2) :
    Cert.Spec.bpart (blkA V c t) (blkB V c t) r j
      = Cert.Spec.part (arrA V c) (arrB V c) (gBatch t) (Cert.Spec.tileIdx (gRow t) r) j (gSum t) := by
  unfold Cert.Spec.bpart Cert.Spec.part
  refine Finset.sum_congr rfl fun q _ => ?_
  unfold Cert.Spec.bemb Cert.Spec.emb Cert.Spec.bdist Cert.Spec.dist Cert.Spec.dotp
  simp only [blkA_apply, blkB_apply]

/-! ## The point before a point that does not restart the summed tile -/

theorem pred_lt (t : Fin cfg1.N) : t.val - 1 < cfg1.N := Nat.lt_of_le_of_lt (Nat.sub_le _ _) t.isLt

/-- It has the same batch … -/
theorem gBatch_pred (t : Fin cfg1.N) (h0 : ¬t.val % 3 = 0) : gBatch ⟨t.val - 1, pred_lt t⟩ = gBatch t :=
  Fin.ext (by show (t.val - 1) / 9 = t.val / 9; omega)

/-- … the same scaled tile … -/
theorem gRow_pred (t : Fin cfg1.N) (h0 : ¬t.val % 3 = 0) : gRow ⟨t.val - 1, pred_lt t⟩ = gRow t :=
  Fin.ext (by show (t.val - 1) / 3 % 3 = t.val / 3 % 3; omega)

/-! ## The invariant: the accumulator after a point holds zero plus the partial sums of the tiles so far -/

/-- After a point on summed tile 0: zero plus tile 0's partial sum. -/
theorem acc_tile0 (c : Dev nD) (t : Fin cfg1.N) (h : t.val % 3 = 0) (r : Fin 1000) (j : Fin 2) :
    accAt V c t.val t.isLt (ix2 r j)
      = Cert.Spec.zero + Cert.Spec.part (arrA V c) (arrB V c) (gBatch t) (Cert.Spec.tileIdx (gRow t) r) j 0 := by
  have hs : gSum t = 0 := Fin.ext h
  rw [accAt_A V c t h, soutA_eq, Cert.KernelIdeal.PayloadVal1.pay3_apply, Cert.KernelIdeal.PayloadVal1.pay1_apply,
    bpart_eq, hs]

/-- After a point on summed tile 1: that plus tile 1's partial sum. -/
theorem acc_tile1 (c : Dev nD) (t : Fin cfg1.N) (h : t.val % 3 = 1) (r : Fin 1000) (j : Fin 2) :
    accAt V c t.val t.isLt (ix2 r j)
      = (Cert.Spec.zero + Cert.Spec.part (arrA V c) (arrB V c) (gBatch t) (Cert.Spec.tileIdx (gRow t) r) j 0)
        + Cert.Spec.part (arrA V c) (arrB V c) (gBatch t) (Cert.Spec.tileIdx (gRow t) r) j 1 := by
  have h0 : ¬t.val % 3 = 0 := by omega
  have h2 : ¬t.val % 3 = 2 := by omega
  have hs : gSum t = 1 := Fin.ext h
  have hp := acc_tile0 V c ⟨t.val - 1, pred_lt t⟩ (by show (t.val - 1) % 3 = 0; omega) r j
  rw [gBatch_pred t h0, gRow_pred t h0] at hp
  rw [accAt_B V c t h0 h2, soutB_eq, Cert.KernelIdeal.PayloadVal1.pay3_apply, bpart_eq, hs]
  exact congrArg (· + _) hp

/-- After a point on summed tile 2: the three tiles' partial sums accumulated from zero. -/
theorem acc_tile2 (c : Dev nD) (t : Fin cfg1.N) (h : t.val % 3 = 2) (r : Fin 1000) (j : Fin 2) :
    accAt V c t.val t.isLt (ix2 r j)
      = Cert.Spec.acc3 (arrA V c) (arrB V c) (gBatch t) (Cert.Spec.tileIdx (gRow t) r) j := by
  have h0 : ¬t.val % 3 = 0 := by omega
  have hs : gSum t = 2 := Fin.ext h
  have hp := acc_tile1 V c ⟨t.val - 1, pred_lt t⟩ (by show (t.val - 1) % 3 = 1; omega) r j
  rw [gBatch_pred t h0, gRow_pred t h0] at hp
  rw [accAt_C V c t h0 h, soutC_eq, Cert.KernelIdeal.PayloadVal1.pay3_apply, bpart_eq, hs]
  exact congrArg (· + _) hp

/-! ## The output block at a point on the last summed tile -/

/-- The output block at (0, r, j) is the specification's value at (batch, 1000·(scaled tile) + r, j): the scaled
    block's entry times the accumulator's, and the three tiles' partial sums add up to the sum over all points. -/
theorem outAt_apply (c : Dev nD) (t : Fin cfg1.N) (h : t.val % 3 = 2) (r : Fin 1000) (j : Fin 2) :
    outAt V c t (ix3 (0 : Fin 1) r j)
      = Cert.Spec.Kat (arrA V c) (arrB V c) (gBatch t) (Cert.Spec.tileIdx (gRow t) r) j := by
  have h0 : ¬t.val % 3 = 0 := by omega
  have e : k1_pay3 (iblk V c 0 t) (iblk V c 1 t) (accAt V c (t.val - 1) (Nat.lt_of_le_of_lt (Nat.sub_le _ _) t.isLt))
      = accAt V c t.val t.isLt := by
    rw [accAt_C V c t h0 h, soutC_eq]
  rw [outAt_C V c t h0 h, outC_eq, e, Cert.KernelIdeal.PayloadVal1.pay4_apply, acc_tile2 V c t h, Cert.Spec.acc3_eq]
  show blkA V c t (ix3 (0 : Fin 1) r j) * _ = _
  rw [blkA_apply]
  rfl

/-! ## From the blocks to the array -/

/-- The output window's block index at grid point `t`, axis by axis: (batch, scaled tile, 0). -/
theorem out_index (t : Fin cfg1.N) :
    win1_2.index t (0 : Fin 3) = t.val / 9 ∧ win1_2.index t (1 : Fin 3) = t.val / 3 % 3 ∧ win1_2.index t (2 : Fin 3) = 0 :=
  (by decide +kernel : ∀ t : Fin grid1.N,
    win1_2.index t (0 : Fin 3) = t.val / 9 ∧ win1_2.index t (1 : Fin 3) = t.val / 3 % 3 ∧ win1_2.index t (2 : Fin 3) = 0) t

/-- What a point on the last summed tile writes back is its block of the specification's array. -/
theorem flushed_eq (c : Dev nD) (t : Fin cfg1.N) (hf : (cfg1.win 2).flush t = true) :
    (dat (F := Ideal) V c).flushed 2 t
      = ((cfg1.win 2).blk t).view.read (Elt Ideal) (Cert.Spec.K (arrA V c) (arrB V c)) := by
  have h : t.val % 3 = 2 := (flush0_2 t).mp hf
  obtain ⟨e0, e1, e2⟩ := out_index t
  show (cfg1.win 2).cut (grid1.coords t) ((dat (F := Ideal) V c).after 2 t) = _
  rw [after_2]
  refine funext fun (y : S1x1000x2.Idx) => ?_
  obtain ⟨u, r, j, rfl⟩ : ∃ (u : Fin 1) (r : Fin 1000) (j : Fin 2), y = ix3 u r j := ⟨y 0, y 1, y 2, eq_ix3 y⟩
  obtain rfl : u = 0 := Subsingleton.elim _ _
  rw [View.read_apply]
  show outAt V c t (ix3 (0 : Fin 1) r j) = Cert.Spec.K (arrA V c) (arrB V c) _
  rw [outAt_apply V c t h, ← Cert.Spec.K_ix3]
  refine congrArg (Cert.Spec.K (arrA V c) (arrB V c)) (funext fun a => Fin.ext ?_)
  -- per axis: block index × block size + the entry's coordinate
  match a with
  | ⟨0, _⟩ => show t.val / 9 = win1_2.index t 0 * 1 + 1 * (0 : Fin 1).val; rw [e0]; omega
  | ⟨1, _⟩ => show t.val / 3 % 3 * 1000 + r.val = win1_2.index t 1 * 1000 + 1 * r.val; rw [e1]; omega
  | ⟨2, _⟩ => show j.val = win1_2.index t 2 * 2 + 1 * j.val; rw [e2]; omega

/-- Every index of the output array lies in the block of a point that writes back: row n of batch β in the block of
    point 9·β + 3·(n / 1000) + 2. -/
theorem cover (i : S4x3000x2.Idx) :
    ∃ t : Fin cfg1.N, (cfg1.win 2).flush t = true ∧ i ∈ ((cfg1.win 2).blk t).view.set := by
  have hN : cfg1.N = 36 := N_1
  have hi0 : (i 0).val < 4 := (i 0).isLt
  have hi1 : (i 1).val < 3000 := (i 1).isLt
  have hi2 : (i 2).val < 2 := (i 2).isLt
  let t : Fin cfg1.N := ⟨9 * (i 0).val + 3 * ((i 1).val / 1000) + 2, by omega⟩
  have htv : t.val = 9 * (i 0).val + 3 * ((i 1).val / 1000) + 2 := rfl
  obtain ⟨e0, e1, e2⟩ := out_index t
  refine ⟨t, (flush0_2 t).mpr (by omega), ?_⟩
  show i ∈ ((View.whole main_v0).slice (win1_2.rect t)).set
  rw [View.set_slice_whole, Rect.mem_set_unit]
  intro a
  match a with
  | ⟨0, _⟩ =>
    show win1_2.index t 0 * 1 ≤ (i 0).val ∧ (i 0).val < win1_2.index t 0 * 1 + 1
    rw [e0]; omega
  | ⟨1, _⟩ =>
    show win1_2.index t 1 * 1000 ≤ (i 1).val ∧ (i 1).val < win1_2.index t 1 * 1000 + 1000
    rw [e1]; omega
  | ⟨2, _⟩ =>
    show win1_2.index t 2 * 2 ≤ (i 2).val ∧ (i 2).val < win1_2.index t 2 * 2 + 2
    rw [e2]; omega

/-- The output array after the call's last write-back is `K` of the two input arrays. -/
theorem final_out (c : Dev nD) :
    (dat (F := Ideal) V c).arrAt 2 cfg1.N = Cert.Spec.K (arrA V c) (arrB V c) :=
  (dat (F := Ideal) V c).arrAt_eq_of_cover 2 (Cert.Spec.K (arrA V c) (arrB V c)) (fun t hf => flushed_eq V c t hf) cover

end Cert.KernelIdeal.Hand.Reg1

end
-- ==== Proof.RunValue.lean ====
/-
  The idealized kernel program's two results are the specification: the first call leaves `K p0 p1` in the first
  result, the second `K p1 p0` in the second (its two windows are the point sets exchanged, and the first call
  writes neither argument), and both arguments end as launched.
-/
import proofs.«137931_j47287589929003_1_alg».proof.Proof.Run
import proofs.«137931_j47287589929003_1_alg».proof.Proof.Reg0Value
import proofs.«137931_j47287589929003_1_alg».proof.Proof.Reg1Value

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      r.2.mem ((c.tc : Thread nD τ).loc main_v0) = Cert.Spec.K (m ((c.tc : Thread nD τ).loc main_arg0)) (m ((c.tc : Thread nD τ).loc main_arg1))
      ∧ r.2.mem ((c.tc : Thread nD τ).loc main_v1) = Cert.Spec.K (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c).1.trans (Reg0.final_out (E0 m) c),
     (h c).2.1.trans ((Reg1.final_out (E1 m) c).trans (congrArg₂ Cert.Spec.K (W1_main_arg1 m c) (W1_main_arg0 m c))),
     (h c).2.2.1, (h c).2.2.2⟩) (run_named m ρ)

end Cert.KernelIdeal.Hand

end
-- ==== Proof.RefValue.lean ====
/-
  The reference program's two results are the specification.

  Its distance stage at [β, n, m] is √(max 0 (2 − 2·Σ_c x0[β,n,c]·x1[β,m,c])) / 1.0: the maximum does not depend on
  the order of its arguments and the quotient by the literal 1.0 is the dividend, so it is dist x0 x1 β n m. The
  four-axis stage joins the sine and the cosine of that distance along the last axis: at [β, n, m, j] it is
  emb x0 x1 β n m j. The first result sums it over m (axis 2) from the zero word, 0 + s = s, and scales x0[β,n,j]:
  K x0 x1. The second sums it over n (axis 1) at fixed m and scales x1[β,m,j]; the embedding of (x0, x1) at (n, m) is
  that of (x1, x0) at (m, n), so it is K x1 x0.
-/
import proofs.«137931_j47287589929003_1_alg».proof.Proof.Spec
import proofs.«137931_j47287589929003_1_alg».proof.Proof.SpecLaws
import proofs.«137931_j47287589929003_1_alg».proof.Proof.Gen.ReferenceIdeal.Read

noncomputable section

namespace Cert.RefValue

open Cert.ReferenceIdeal Cert.ReferenceIdeal.Gen Cert.ReferenceIdeal.Read Idealize.ShloMosaic Idealize.ShloMosaic.ValueIdx

/-- The arrays of the reference: batch × point × coordinate over the extended reals. -/
abbrev RArr : Type := (⟨Cert.ReferenceIdeal.S4x3000x2, .f32⟩ : BufTy).Contents (Elt Ideal)

/-! ## The index maps of the stages, at explicit coordinates -/

theorem lidx_at (β : Fin 4) (n m : Fin 3000) (k : Fin 2) : lidx_main_v0 (ix3 β n m) k = ix3 β n k :=
  funext fun a => Fin.ext (by match a with | ⟨0, _⟩ => rfl | ⟨1, _⟩ => rfl | ⟨2, _⟩ => rfl)

theorem ridx_at (β : Fin 4) (n m : Fin 3000) (k : Fin 2) : ridx_main_v0 (ix3 β n m) k = ix3 β m k :=
  funext fun a => Fin.ext (by match a with | ⟨0, _⟩ => rfl | ⟨1, _⟩ => rfl | ⟨2, _⟩ => rfl)

theorem idx11_at (β : Fin 4) (n m : Fin 3000) (u : Fin 1) : idx_main_v11 (ix4 β n m u) = ix3 β n m :=
  funext fun a => Fin.ext (by match a with | ⟨0, _⟩ => rfl | ⟨1, _⟩ => rfl | ⟨2, _⟩ => rfl)

theorem idx12_at (β : Fin 4) (n m : Fin 3000) (u : Fin 1) : idx_main_v12 (ix4 β n m u) = ix3 β n m :=
  funext fun a => Fin.ext (by match a with | ⟨0, _⟩ => rfl | ⟨1, _⟩ => rfl | ⟨2, _⟩ => rfl)

theorem idx14_at (β : Fin 4) (n : Fin 3000) (j : Fin 2) (k : Fin 3000) : idx_main_v14 (ix3 β n j) k = ix4 β n k j :=
  funext fun a => Fin.ext (by match a with | ⟨0, _⟩ => rfl | ⟨1, _⟩ => rfl | ⟨2, _⟩ => rfl | ⟨3, _⟩ => rfl)

theorem idx16_at (β : Fin 4) (m : Fin 3000) (j : Fin 2) (k : Fin 3000) : idx_main_v16 (ix3 β m j) k = ix4 β k m j :=
  funext fun a => Fin.ext (by match a with | ⟨0, _⟩ => rfl | ⟨1, _⟩ => rfl | ⟨2, _⟩ => rfl | ⟨3, _⟩ => rfl)

/-! ## The distance stage -/

/-- The quotient stage at [β, n, m] is the clamped chord distance of point n of x0 and point m of x1. -/
theorem v8_at (x0 x1 : RArr) (β : Fin 4) (n m : Fin 3000) :
    val_main_v8 (F := Ideal) x0 x1 (ix3 β n m) = Cert.Spec.dist x0 x1 β n m := by
  rw [val_main_v8_apply, val_main_v7_apply, val_main_cst_2_apply, val_main_v6_apply, val_main_v5_apply,
    val_main_call0_v1_apply, val_main_call0_v0_apply, val_main_cst_1_apply, val_main_v4_apply, val_main_v3_apply,
    val_main_cst_0_apply, val_main_v2_apply, val_main_v1_apply, val_main_cst_apply, val_main_v0_apply]
  simp only [Ideal.hostDivf_def, Ideal.hostUnary_sqrt_def, Ideal.maximumf_def, Ideal.subf_def, Ideal.mulf_def,
    Ideal.ofBits_def, lidx_at, ridx_at]
  rw [Cert.Spec.div_one_lit, max_comm]
  rfl

/-! ## The joined stage: sine and cosine of the distance along the last axis -/

/-- The sine stage on its unit last axis. -/
theorem v11_at (x0 x1 : RArr) (β : Fin 4) (n m : Fin 3000) (u : Fin 1) :
    val_main_v11 (F := Ideal) x0 x1 (ix4 β n m u) = Ideal.sin (Cert.Spec.dist x0 x1 β n m) := by
  rw [val_main_v11_apply, idx11_at, val_main_v9_apply, v8_at]
  rfl

/-- The cosine stage on its unit last axis. -/
theorem v12_at (x0 x1 : RArr) (β : Fin 4) (n m : Fin 3000) (u : Fin 1) :
    val_main_v12 (F := Ideal) x0 x1 (ix4 β n m u) = Ideal.cos (Cert.Spec.dist x0 x1 β n m) := by
  rw [val_main_v12_apply, idx12_at, val_main_v10_apply, v8_at]
  rfl

/-- The joined stage at [β, n, m, j] is the embedding's component j: coordinate 0 falls in the first piece (the
    sine), coordinate 1 in the second (the cosine), one past the first piece's unit extent. -/
theorem v13_at (x0 x1 : RArr) (β : Fin 4) (n m : Fin 3000) (j : Fin 2) :
    val_main_v13 (F := Ideal) x0 x1 (ix4 β n m j) = Cert.Spec.emb x0 x1 β n m j := by
  unfold val_main_v13
  match j with
  | ⟨0, _⟩ =>
    refine (concatenate_pair_apply_left (t := S4x3000x3000x2) (s₁ := S4x3000x3000x1) (s₂ := S4x3000x3000x1) 3 _ _ _ _ rfl
      (ix4 β n m (0 : Fin 1))
      (fun b => by match b with | ⟨0, _⟩ => rfl | ⟨1, _⟩ => rfl | ⟨2, _⟩ => rfl | ⟨3, _⟩ => rfl)).trans ?_
    rw [v11_at]
    unfold Cert.Spec.emb
    rw [if_pos rfl]
  | ⟨1, _⟩ =>
    refine (concatenate_pair_apply_right (t := S4x3000x3000x2) (s₁ := S4x3000x3000x1) (s₂ := S4x3000x3000x1) 3 _ _ _ _ rfl rfl
      (ix4 β n m (0 : Fin 1))
      (fun b hb => by
        match b with
        | ⟨0, _⟩ => rfl
        | ⟨1, _⟩ => rfl
        | ⟨2, _⟩ => rfl
        | ⟨3, _⟩ => exact absurd rfl hb)
      rfl).trans ?_
    rw [v12_at]
    unfold Cert.Spec.emb
    rw [if_neg Nat.one_ne_zero]

/-! ## The two sums and the two results -/

/-- The sum over the points of x1 (axis 2), from the zero word. -/
theorem v14_at (x0 x1 : RArr) (β : Fin 4) (n : Fin 3000) (j : Fin 2) :
    val_main_v14 (F := Ideal) x0 x1 (ix3 β n j) = ∑ m : Fin 3000, Cert.Spec.emb x0 x1 β n m j := by
  rw [val_main_v14_apply, val_main_cst_3_apply]
  simp only [idx14_at, v13_at]
  rw [Ideal.ofBits_def]
  exact (congrArg (· + _) Cert.Spec.zero_eq).trans (zero_add _)

/-- The sum over the points of x0 (axis 1) at a fixed point m of x1, from the zero word: the embedding of (x0, x1) at
    (n, m) is that of (x1, x0) at (m, n). -/
theorem v16_at (x0 x1 : RArr) (β : Fin 4) (m : Fin 3000) (j : Fin 2) :
    val_main_v16 (F := Ideal) x0 x1 (ix3 β m j) = ∑ n : Fin 3000, Cert.Spec.emb x1 x0 β m n j := by
  rw [val_main_v16_apply, val_main_cst_4_apply]
  simp only [idx16_at, v13_at]
  rw [Ideal.ofBits_def]
  refine ((congrArg (· + _) Cert.Spec.zero_eq).trans (zero_add _)).trans ?_
  exact Finset.sum_congr rfl fun n _ => Cert.Spec.emb_comm x0 x1 β n m j

/-- The first result of the reference is the specification of (x0, x1). -/
theorem ref_out0 (x0 x1 : (⟨Cert.ReferenceIdeal.S4x3000x2, .f32⟩ : BufTy).Contents (Elt Ideal)) :
    Cert.ReferenceIdeal.Read.val_main_v15 (F := Ideal) x0 x1 = Cert.Spec.K x0 x1 := by
  funext i
  obtain ⟨β, n, j, rfl⟩ : ∃ (β : Fin 4) (n : Fin 3000) (j : Fin 2), i = ix3 β n j := ⟨i 0, i 1, i 2, eq_ix3 i⟩
  rw [val_main_v15_apply, v14_at, Ideal.mulf_def]
  rfl

/-- The second result of the reference is the specification of (x1, x0). -/
theorem ref_out1 (x0 x1 : (⟨Cert.ReferenceIdeal.S4x3000x2, .f32⟩ : BufTy).Contents (Elt Ideal)) :
    Cert.ReferenceIdeal.Read.val_main_v17 (F := Ideal) x0 x1 = Cert.Spec.K x1 x0 := by
  funext i
  obtain ⟨β, m, j, rfl⟩ : ∃ (β : Fin 4) (m : Fin 3000) (j : Fin 2), i = ix3 β m j := ⟨i 0, i 1, i 2, eq_ix3 i⟩
  rw [val_main_v17_apply, v16_at, Ideal.mulf_def]
  rfl

end Cert.RefValue

end
-- ==== Proof.lean ====
/-
  The certificate of the two-call sinusoidal geometric embedding kernel against its jnp reference.

  Both programs compute, for two point sets p0, p1 of shape [4, 3000, 2], the arrays K p0 p1 and K p1 p0, where
  K a b [β, n, j] = a[β, n, j] · Σ_m (sin, cos)_j (√(max (2 − 2·⟨a[β, n, ·], b[β, m, ·]⟩) 0))  (Proof/Spec.lean).
  The reference forms the whole [4, 3000, 3000, 2] embedding and sums it along either point axis; the kernel runs
  one pallas call per result over a (4, 3, 3) grid, accumulating the three 1000-point tiles of the summed point set
  in a scratch buffer carried between grid points, and rounds its matmul operands to bf16, which is the identity on
  the extended reals. The two sides differ only by the grouping of a sum, the order of a product's factors and of a
  maximum's arguments, and a division by the literal 1.0: no finiteness is needed, and the precondition is not opened.

  The frames: each program of the kernel is two regions, each region's body proved case by case (reset / middle /
  last summed tile) with the accumulator's contents named point by point (Proof/Reg*.lean, Proof/KReg*.lean),
  composed by Proof/Run.lean and Proof/KRun.lean; the reference's frame is its run with the results dropped.
  `preserves`: the idealization rewrote nothing. `algebraic`: Proof/RunValue.lean (the kernel's results are
  K p0 p1 and K p1 p0) against Proof/RefValue.lean (so are the reference's).
-/
import proofs.«137931_j47287589929003_1_alg».proof.Defs
import proofs.«137931_j47287589929003_1_alg».proof.Proof.Gen.Kernel
import proofs.«137931_j47287589929003_1_alg».proof.Proof.Gen.KernelIdeal
import proofs.«137931_j47287589929003_1_alg».proof.Proof.Gen.ReferenceIdeal
import proofs.«137931_j47287589929003_1_alg».proof.Proof.Gen.ReferenceIdeal.Run
import proofs.«137931_j47287589929003_1_alg».proof.Proof.Gen.ReferenceIdeal.Read
import proofs.«137931_j47287589929003_1_alg».proof.Proof.Gen.Pre_finite_inputs
import proofs.«137931_j47287589929003_1_alg».proof.Proof.KRun
import proofs.«137931_j47287589929003_1_alg».proof.Proof.Run
import proofs.«137931_j47287589929003_1_alg».proof.Proof.RunValue
import proofs.«137931_j47287589929003_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- Both idealized programs end with K p0 p1 and K p1 p0 of arguments that agree. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans (((Cert.ReferenceIdeal.Read.val_main_v15_eq _ _).trans (Cert.RefValue.ref_out0 _ _)).trans ?_)
    rw [(hagree c).1, (hagree c).2]
  · refine (h c).2.1.trans (((Cert.ReferenceIdeal.Read.val_main_v17_eq _ _).trans (Cert.RefValue.ref_out1 _ _)).trans ?_)
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
